-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x128 : Shape := ⟨4, ![32, 128, 128, 128]⟩
abbrev S64x2x2 : Shape := ⟨3, ![64, 2, 2]⟩
abbrev S64x2x1 : Shape := ⟨3, ![64, 2, 1]⟩
abbrev S_ : Shape := ⟨0, ![]⟩

class Facts : Prop where
  bcast_S_S32x128x128x128 : S_.BroadcastsInDim S32x128x128x128 (![] : Fin 0 → Fin S32x128x128x128.rank)
  reducesTo_S32x128x128x128_S_d0_1_2_3 : S32x128x128x128.ReducesTo [0, 1, 2, 3] S_
  h_S_ : 0 < S_.numel
  bcast_S_S64x2x2 : S_.BroadcastsInDim S64x2x2 (![] : Fin 0 → Fin S64x2x2.rank)
  reducesTo_S64x2x2_S_d0_1_2 : S64x2x2.ReducesTo [0, 1, 2] S_
  bcast_S_S64x2x1 : S_.BroadcastsInDim S64x2x1 (![] : Fin 0 → Fin S64x2x1.rank)
  reducesTo_S64x2x1_S_d0_1_2 : S64x2x1.ReducesTo [0, 1, 2] S_

variable [Facts]

def fn {F : FTy → Type} [FloatOps F] (main_arg0 : FVec F S32x128x128x128 .f32) (main_arg1 : FVec F S64x2x2 .f32) (main_arg2 : FVec F S64x2x1 .f32) : IVec S_ 1 :=
  let main_v0 : FVec F S32x128x128x128 .f32 := Host.absf main_arg0
  let main_cst : FVec F S_ .f32 := constant S_ .f32 0x7F800000#32
  let main_v1 : FVec F S32x128x128x128 .f32 := broadcastInDim S32x128x128x128 ![] bcast_S_S32x128x128x128 main_cst
  let main_v2 : IVec S32x128x128x128 1 := cmpf .olt main_v0 main_v1
  let main_c : IVec S_ 1 := constantI S_ 1 1#1
  let main_v3 : IVec S_ 1 := (fun x v => Host.reduce IntOp.andi x v reducesTo_S32x128x128x128_S_d0_1_2_3 h_S_) main_v2 main_c
  let main_v4 : FVec F S64x2x2 .f32 := Host.absf main_arg1
  let main_cst_0 : FVec F S_ .f32 := constant S_ .f32 0x7F800000#32
  let main_v5 : FVec F S64x2x2 .f32 := broadcastInDim S64x2x2 ![] bcast_S_S64x2x2 main_cst_0
  let main_v6 : IVec S64x2x2 1 := cmpf .olt main_v4 main_v5
  let main_c_1 : IVec S_ 1 := constantI S_ 1 1#1
  let main_v7 : IVec S_ 1 := (fun x v => Host.reduce IntOp.andi x v reducesTo_S64x2x2_S_d0_1_2 h_S_) main_v6 main_c_1
  let main_v8 : IVec S_ 1 := andi main_v3 main_v7
  let main_v9 : FVec F S64x2x1 .f32 := Host.absf main_arg2
  let main_cst_2 : FVec F S_ .f32 := constant S_ .f32 0x7F800000#32
  let main_v10 : FVec F S64x2x1 .f32 := broadcastInDim S64x2x1 ![] bcast_S_S64x2x1 main_cst_2
  let main_v11 : IVec S64x2x1 1 := cmpf .olt main_v9 main_v10
  let main_c_3 : IVec S_ 1 := constantI S_ 1 1#1
  let main_v12 : IVec S_ 1 := (fun x v => Host.reduce IntOp.andi x v reducesTo_S64x2x1_S_d0_1_2 h_S_) main_v11 main_c_3
  let main_v13 : IVec S_ 1 := andi main_v8 main_v12
  main_v13
-- ==== Kernel.lean ====
abbrev S32x128x128x128 : Shape := ⟨4, ![32, 128, 128, 128]⟩
abbrev S64x2x2 : Shape := ⟨3, ![64, 2, 2]⟩
abbrev S64x2x1 : Shape := ⟨3, ![64, 2, 1]⟩
abbrev S64 : Shape := ⟨1, ![64]⟩
abbrev S1x128x128x128 : Shape := ⟨4, ![1, 128, 128, 128]⟩
abbrev S1x64x128x128 : Shape := ⟨4, ![1, 64, 128, 128]⟩
abbrev S1x64x128 : Shape := ⟨3, ![1, 64, 128]⟩
abbrev S1x64 : Shape := ⟨2, ![1, 64]⟩
abbrev S_ : Shape := ⟨0, ![]⟩
abbrev S64x1x1 : Shape := ⟨3, ![64, 1, 1]⟩
abbrev S1x64x1x1 : Shape := ⟨4, ![1, 64, 1, 1]⟩
abbrev S1x128x64x128 : Shape := ⟨4, ![1, 128, 64, 128]⟩
abbrev S1x64x64x128 : Shape := ⟨4, ![1, 64, 64, 128]⟩

abbrev nBuf : Space → Nat
  | .hbm => 110
  | .vmem => 17
  | .smem => 0
  | _ => 0

abbrev bufTy : (tb : Table) → Fin (tcTables nBuf tb) → BufTy
  | .hbm, ⟨0, _⟩ => ⟨S32x128x128x128, .f32⟩
  | .hbm, ⟨1, _⟩ => ⟨S64x2x2, .f32⟩
  | .hbm, ⟨2, _⟩ => ⟨S64x2x1, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64x1x1, .f32⟩
  | .hbm, ⟨72, _⟩ => ⟨S64, .f32⟩
  | .hbm, ⟨73, _⟩ => ⟨S64x1x1, .f32⟩
  | .hbm, ⟨74, _⟩ => ⟨S64, .f32⟩
  | .hbm, ⟨75, _⟩ => ⟨S64x1x1, .f32⟩
  | .hbm, ⟨76, _⟩ => ⟨S64, .f32⟩
  | .hbm, ⟨77, _⟩ => ⟨S64x1x1, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S64x1x1, .f32⟩
  | .hbm, ⟨92, _⟩ => ⟨S64, .f32⟩
  | .hbm, ⟨93, _⟩ => ⟨S64x1x1, .f32⟩
  | .hbm, ⟨94, _⟩ => ⟨S64, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S64, .f32⟩
  | .hbm, ⟨103, _⟩ => ⟨S1x64x1x1, .f32⟩
  | .hbm, ⟨104, _⟩ => ⟨S1x64x1x1, .f32⟩
  | .hbm, ⟨105, _⟩ => ⟨S1x64x1x1, .f32⟩
  | .hbm, ⟨106, _⟩ => ⟨S1x64x1x1, .f32⟩
  | .hbm, ⟨107, _⟩ => ⟨S1x64x1x1, .f32⟩
  | .hbm, ⟨108, _⟩ => ⟨S1x64x1x1, .f32⟩
  | .hbm, ⟨109, _⟩ => ⟨S32x128x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S1x128x64x128, .f32⟩
  | .local _ .vmem, ⟨8, _⟩ => ⟨S1x128x64x128, .f32⟩
  | .local _ .vmem, ⟨9, _⟩ => ⟨S1x64x1x1, .f32⟩
  | .local _ .vmem, ⟨10, _⟩ => ⟨S1x64x1x1, .f32⟩
  | .local _ .vmem, ⟨11, _⟩ => ⟨S1x64x1x1, .f32⟩
  | .local _ .vmem, ⟨12, _⟩ => ⟨S1x64x1x1, .f32⟩
  | .local _ .vmem, ⟨13, _⟩ => ⟨S1x64x1x1, .f32⟩
  | .local _ .vmem, ⟨14, _⟩ => ⟨S1x64x1x1, .f32⟩
  | .local _ .vmem, ⟨15, _⟩ => ⟨S1x128x64x128, .f32⟩
  | .local _ .vmem, ⟨16, _⟩ => ⟨S1x128x64x128, .f32⟩
  | _, _ => ⟨S32x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![32, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x128x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x64x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64x1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64x1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S64_S64_0 : ∀ a, (![0] : Fin 1 → Nat) a + S64.size a ≤ S64.size a
  h_S64 : 0 < S64.numel
  inb_S1x128x128x128_S1x128x128x128_0_0_0_0 : ∀ a, (![0, 0, 0, 0] : Fin 4 → Nat) a + S1x128x128x128.size a ≤ S1x128x128x128.size a
  h_S1x128x128x128 : 0 < S1x128x128x128.numel
  slices_S1x128x128x128_o0_0_0_0_S1x64x128x128 : S1x128x128x128.Slices ![0, 0, 0, 0] S1x64x128x128
  slices_S1x128x128x128_o0_64_0_0_S1x64x128x128 : S1x128x128x128.Slices ![0, 64, 0, 0] S1x64x128x128
  shapeCasts_S64_S64 : S64.ShapeCasts S64
  reduces_S1x64x128x128_S1x64x128 : S1x64x128x128.Reduces [3] S1x64x128
  reduces_S1x64x128_S1x64 : S1x64x128.Reduces [2] S1x64
  reduces_S1x64_S64 : S1x64.Reduces [0] S64
  bcast_S_S64 : S_.BroadcastsInDim S64 (![] : Fin 0 → Fin S64.rank)
  slices_S64x2x2_S64x1x1_0_0_0 : S64x2x2.Slices ![0, 0, 0] S64x1x1
  shapeCasts_S64x1x1_S64 : S64x1x1.ShapeCasts S64
  slices_S64x2x2_S64x1x1_0_0_1 : S64x2x2.Slices ![0, 0, 1] S64x1x1
  slices_S64x2x2_S64x1x1_0_1_0 : S64x2x2.Slices ![0, 1, 0] S64x1x1
  slices_S64x2x2_S64x1x1_0_1_1 : S64x2x2.Slices ![0, 1, 1] S64x1x1
  slices_S64x2x1_S64x1x1_0_0_0 : S64x2x1.Slices ![0, 0, 0] S64x1x1
  slices_S64x2x1_S64x1x1_0_1_0 : S64x2x1.Slices ![0, 1, 0] S64x1x1
  shapeCasts_S64_S1x64x1x1 : S64.ShapeCasts S1x64x1x1
  inb_S1x128x64x128_S1x128x64x128_0_0_0_0 : ∀ a, (![0, 0, 0, 0] : Fin 4 → Nat) a + S1x128x64x128.size a ≤ S1x128x64x128.size a
  h_S1x128x64x128 : 0 < S1x128x64x128.numel
  slices_S1x128x64x128_o0_0_0_0_S1x64x64x128 : S1x128x64x128.Slices ![0, 0, 0, 0] S1x64x64x128
  slices_S1x128x64x128_o0_64_0_0_S1x64x64x128 : S1x128x64x128.Slices ![0, 64, 0, 0] S1x64x64x128
  inb_S1x64x1x1_S1x64x1x1_0_0_0_0 : ∀ a, (![0, 0, 0, 0] : Fin 4 → Nat) a + S1x64x1x1.size a ≤ S1x64x1x1.size a
  h_S1x64x1x1 : 0 < S1x64x1x1.numel
  shapeCasts_S1x64x1x1_S1x64x1x1 : S1x64x1x1.ShapeCasts S1x64x1x1
  broadcasts_S1x64x1x1_S1x64x64x128 : S1x64x1x1.Broadcasts S1x64x64x128
  inb_S1x128x64x128_S1x64x64x128_0_0_0_0 : ∀ a, (![0, 0, 0, 0] : Fin 4 → Nat) a + S1x64x64x128.size a ≤ S1x128x64x128.size a
  h_S1x64x64x128 : 0 < S1x64x64x128.numel
  inb_S1x128x64x128_S1x64x64x128_0_64_0_0 : ∀ a, (![0, 64, 0, 0] : Fin 4 → Nat) a + S1x64x64x128.size a ≤ S1x128x64x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S32x128x128x128.size a
  hwx0_0 : ∀ i : grid0.Coords, EltTy.bits .f32 = 32 ∨ (Rect.block (s := S32x128x128x128) S1x128x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64x128.size a ≤ S32x128x128x128.size a
  hwx1_0 : ∀ i : grid1.Coords, EltTy.bits .f32 = 32 ∨ (Rect.block (s := S32x128x128x128) S1x128x64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64x1x1.size a ≤ S1x64x1x1.size a
  hwx1_1 : ∀ i : grid1.Coords, EltTy.bits .f32 = 32 ∨ (Rect.block (s := S1x64x1x1) S1x64x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64x1x1.size a ≤ S1x64x1x1.size a
  hwx1_2 : ∀ i : grid1.Coords, EltTy.bits .f32 = 32 ∨ (Rect.block (s := S1x64x1x1) S1x64x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64x1x1.size a ≤ S1x64x1x1.size a
  hwx1_3 : ∀ i : grid1.Coords, EltTy.bits .f32 = 32 ∨ (Rect.block (s := S1x64x1x1) S1x64x1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64x1x1.size a ≤ S1x64x1x1.size a
  hwx1_4 : ∀ i : grid1.Coords, EltTy.bits .f32 = 32 ∨ (Rect.block (s := S1x64x1x1) S1x64x1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64x1x1.size a ≤ S1x64x1x1.size a
  hwx1_5 : ∀ i : grid1.Coords, EltTy.bits .f32 = 32 ∨ (Rect.block (s := S1x64x1x1) S1x64x1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64x1x1.size a ≤ S1x64x1x1.size a
  hwx1_6 : ∀ i : grid1.Coords, EltTy.bits .f32 = 32 ∨ (Rect.block (s := S1x64x1x1) S1x64x1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x64x128.size a ≤ S32x128x128x128.size a
  hwx1_7 : ∀ i : grid1.Coords, EltTy.bits .f32 = 32 ∨ (Rect.block (s := S32x128x128x128) S1x128x64x128.size (cc1_transform_7 i) (hinb1_7 i)).WholeWords (EltTy.packing .f32)

variable [Facts₀]

abbrev win0_0 : Pipeline.Window sig grid0 :=
  Pipeline.Window.ofSpec (Memref.whole main_arg0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x128x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S1x64x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v86) S1x64x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S1x64x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v88) S1x64x1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S1x64x1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v90) S1x64x1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v91) S1x128x64x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x128x128x128 : Shape := ⟨4, ![32, 128, 128, 128]⟩
abbrev S64x2x2 : Shape := ⟨3, ![64, 2, 2]⟩
abbrev S64x2x1 : Shape := ⟨3, ![64, 2, 1]⟩
abbrev S32x64x128x128 : Shape := ⟨4, ![32, 64, 128, 128]⟩
abbrev S_ : Shape := ⟨0, ![]⟩
abbrev S64 : Shape := ⟨1, ![64]⟩
abbrev S1x64x1x1 : Shape := ⟨4, ![1, 64, 1, 1]⟩
abbrev S64x1 : Shape := ⟨2, ![64, 1]⟩
abbrev S64x2 : Shape := ⟨2, ![64, 2]⟩
abbrev S64x1x2 : Shape := ⟨3, ![64, 1, 2]⟩
abbrev S64x1x1 : Shape := ⟨3, ![64, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S32x128x128x128, .f32⟩
  | .hbm, ⟨1, _⟩ => ⟨S64x2x2, .f32⟩
  | .hbm, ⟨2, _⟩ => ⟨S64x2x1, .f32⟩
  | .hbm, ⟨3, _⟩ => ⟨S32x64x128x128, .f32⟩
  | .hbm, ⟨4, _⟩ => ⟨S32x64x128x128, .f32⟩
  | .hbm, ⟨5, _⟩ => ⟨S_, .f32⟩
  | .hbm, ⟨6, _⟩ => ⟨S64, .f32⟩
  | .hbm, ⟨7, _⟩ => ⟨S1x64x1x1, .f32⟩
  | .hbm, ⟨8, _⟩ => ⟨S_, .f32⟩
  | .hbm, ⟨9, _⟩ => ⟨S1x64x1x1, .f32⟩
  | .hbm, ⟨10, _⟩ => ⟨S1x64x1x1, .f32⟩
  | .hbm, ⟨11, _⟩ => ⟨S_, .f32⟩
  | .hbm, ⟨12, _⟩ => ⟨S64, .f32⟩
  | .hbm, ⟨13, _⟩ => ⟨S1x64x1x1, .f32⟩
  | .hbm, ⟨14, _⟩ => ⟨S_, .f32⟩
  | .hbm, ⟨15, _⟩ => ⟨S1x64x1x1, .f32⟩
  | .hbm, ⟨16, _⟩ => ⟨S1x64x1x1, .f32⟩
  | .hbm, ⟨17, _⟩ => ⟨S32x64x128x128, .f32⟩
  | .hbm, ⟨18, _⟩ => ⟨S32x64x128x128, .f32⟩
  | .hbm, ⟨19, _⟩ => ⟨S32x64x128x128, .f32⟩
  | .hbm, ⟨20, _⟩ => ⟨S32x64x128x128, .f32⟩
  | .hbm, ⟨21, _⟩ => ⟨S32x64x128x128, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S32x64x128x128, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S32x64x128x128, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64x1, .f32⟩
  | .hbm, ⟨68, _⟩ => ⟨S64x1, .f32⟩
  | .hbm, ⟨69, _⟩ => ⟨S64x2, .f32⟩
  | .hbm, ⟨70, _⟩ => ⟨S64, .f32⟩
  | .hbm, ⟨71, _⟩ => ⟨S64x1, .f32⟩
  | .hbm, ⟨72, _⟩ => ⟨S64x1, .f32⟩
  | .hbm, ⟨73, _⟩ => ⟨S64x2, .f32⟩
  | .hbm, ⟨74, _⟩ => ⟨S64x1x2, .f32⟩
  | .hbm, ⟨75, _⟩ => ⟨S64x1x2, .f32⟩
  | .hbm, ⟨76, _⟩ => ⟨S64x2x2, .f32⟩
  | .hbm, ⟨77, _⟩ => ⟨S64x1x1, .f32⟩
  | .hbm, ⟨78, _⟩ => ⟨S64x2x2, .f32⟩
  | .hbm, ⟨79, _⟩ => ⟨S64x2x2, .f32⟩
  | .hbm, ⟨80, _⟩ => ⟨S64x2x2, .f32⟩
  | .hbm, ⟨81, _⟩ => ⟨S64x1x1, .f32⟩
  | .hbm, ⟨82, _⟩ => ⟨S64, .f32⟩
  | .hbm, ⟨83, _⟩ => ⟨S1x64x1x1, .f32⟩
  | .hbm, ⟨84, _⟩ => ⟨S64x1x1, .f32⟩
  | .hbm, ⟨85, _⟩ => ⟨S64, .f32⟩
  | .hbm, ⟨86, _⟩ => ⟨S1x64x1x1, .f32⟩
  | .hbm, ⟨87, _⟩ => ⟨S64x1x1, .f32⟩
  | .hbm, ⟨88, _⟩ => ⟨S64, .f32⟩
  | .hbm, ⟨89, _⟩ => ⟨S1x64x1x1, .f32⟩
  | .hbm, ⟨90, _⟩ => ⟨S64x1x1, .f32⟩
  | .hbm, ⟨91, _⟩ => ⟨S64, .f32⟩
  | .hbm, ⟨92, _⟩ => ⟨S1x64x1x1, .f32⟩
  | .hbm, ⟨93, _⟩ => ⟨S64x1x1, .f32⟩
  | .hbm, ⟨94, _⟩ => ⟨S64, .f32⟩
  | .hbm, ⟨95, _⟩ => ⟨S1x64x1x1, .f32⟩
  | .hbm, ⟨96, _⟩ => ⟨S64x1x1, .f32⟩
  | .hbm, ⟨97, _⟩ => ⟨S64, .f32⟩
  | .hbm, ⟨98, _⟩ => ⟨S1x64x1x1, .f32⟩
  | .hbm, ⟨99, _⟩ => ⟨S32x64x128x128, .f32⟩
  | .hbm, ⟨100, _⟩ => ⟨S32x64x128x128, .f32⟩
  | .hbm, ⟨101, _⟩ => ⟨S32x64x128x128, .f32⟩
  | .hbm, ⟨102, _⟩ => ⟨S32x64x128x128, .f32⟩
  | .hbm, ⟨103, _⟩ => ⟨S32x64x128x128, .f32⟩
  | .hbm, ⟨104, _⟩ => ⟨S32x64x128x128, .f32⟩
  | .hbm, ⟨105, _⟩ => ⟨S32x64x128x128, .f32⟩
  | .hbm, ⟨106, _⟩ => ⟨S32x64x128x128, .f32⟩
  | .hbm, ⟨107, _⟩ => ⟨S32x64x128x128, .f32⟩
  | .hbm, ⟨108, _⟩ => ⟨S32x64x128x128, .f32⟩
  | .hbm, ⟨109, _⟩ => ⟨S32x64x128x128, .f32⟩
  | .hbm, ⟨110, _⟩ => ⟨S32x64x128x128, .f32⟩
  | .hbm, ⟨111, _⟩ => ⟨S32x64x128x128, .f32⟩
  | .hbm, ⟨112, _⟩ => ⟨S32x64x128x128, .f32⟩
  | .hbm, ⟨113, _⟩ => ⟨S32x128x128x128, .f32⟩
  | _, _ => ⟨S32x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩

abbrev nD : Nat := 1
abbrev τ : Topo := Topo.v7x

variable {F : FTy → Type} [FloatOps F]

class Facts₀ : Prop where
  slices_S32x128x128x128_S32x64x128x128_0_0_0_0 : S32x128x128x128.Slices ![0, 0, 0, 0] S32x64x128x128
  slices_S32x128x128x128_S32x64x128x128_0_64_0_0 : S32x128x128x128.Slices ![0, 64, 0, 0] S32x64x128x128
  reducesTo_S32x64x128x128_S64_d0_2_3 : S32x64x128x128.ReducesTo [0, 2, 3] S64
  h_S_ : 0 < S_.numel
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S32x64x128x128_0_1_2_3 : S1x64x1x1.BroadcastsInDim S32x64x128x128 (![0, 1, 2, 3] : Fin 4 → Fin S32x64x128x128.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S64x2_S64x1x2_0_2 : S64x2.BroadcastsInDim S64x1x2 (![0, 2] : Fin 2 → Fin S64x1x2.rank)
  concatenates_S64x1x2_S64x1x2_S64x2x2_d1 : Shape.Concatenates [S64x1x2, S64x1x2] S64x2x2 1
  bcast_S64_S64x1x1_0 : S64.BroadcastsInDim S64x1x1 (![0] : Fin 1 → Fin S64x1x1.rank)
  bcast_S64x1x1_S64x2x2_0_1_2 : S64x1x1.BroadcastsInDim S64x2x2 (![0, 1, 2] : Fin 3 → Fin S64x2x2.rank)
  slices_S64x2x2_S64x1x1_0_0_0 : S64x2x2.Slices ![0, 0, 0] S64x1x1
  shapeCasts_S64x1x1_S64 : S64x1x1.ShapeCasts S64
  slices_S64x2x2_S64x1x1_0_0_1 : S64x2x2.Slices ![0, 0, 1] S64x1x1
  slices_S64x2x2_S64x1x1_0_1_0 : S64x2x2.Slices ![0, 1, 0] S64x1x1
  slices_S64x2x2_S64x1x1_0_1_1 : S64x2x2.Slices ![0, 1, 1] S64x1x1
  slices_S64x2x1_S64x1x1_0_0_0 : S64x2x1.Slices ![0, 0, 0] S64x1x1
  slices_S64x2x1_S64x1x1_0_1_0 : S64x2x1.Slices ![0, 1, 0] S64x1x1
  concatenates_S32x64x128x128_S32x64x128x128_S32x128x128x128_d1 : Shape.Concatenates [S32x64x128x128, S32x64x128x128] S32x128x128x128 1
  dot_S64x2x2_S64x2x2_S64x2x2_2_1_1_2_0_0_wf : DotDims.WF S64x2x2 S64x2x2 S64x2x2 [2] [1] [1] [2] [0] [0]

variable [Facts₀]

def dot_S64x2x2_S64x2x2_S64x2x2_2_1_1_2_0_0 : DotDims S64x2x2 S64x2x2 S64x2x2 where
  lhsContracting := [2]
  rhsContracting := [1]
  lhsNonContracting := [1]
  rhsNonContracting := [2]
  lhsBatch := [0]
  rhsBatch := [0]
  wf := dot_S64x2x2_S64x2x2_S64x2x2_2_1_1_2_0_0_wf

class Facts : Prop extends Facts₀ where

variable [Facts]
-- ==== Proof.Spec.lean ====
/-
  The mathematics both programs compute, written once over the extended reals, index by index.

  The input x has 32 batches, 128 stored channels (complex channel ch has its real part at stored channel ch
  and its imaginary part at stored channel ch + 64), and 128 x 128 positions. Per complex channel the statistics
  are sums over the n = 32 * 128 * 128 = 524288 positions (batch, row, column): the two plain sums, the two sums of
  squares and the cross sum. From them come the two means and the three entries of the covariance matrix, in two
  arrangements: the "raw moment" one ((sum of squares - square of the sum / n) / (n - 1)) and the "centred" one
  (sum of squared deviations from the mean / (n - 1)). The whitening chain (regularise the diagonal by eps, take the
  square root of the 2 x 2 matrix in closed form, invert it in closed form, multiply by gamma on the left) is the
  SAME scalar function of the three covariances in both programs; only its inputs differ in arrangement. Last, the
  affine map is applied either to the centred input (a * (x - mean) + ... + beta) or with the mean folded into the
  bias (a * x + ... + (beta - a * mean - ...)).
-/
import Idealize.ShloMosaic.PureOps.Ideal
import Idealize.ShloMosaic.Lib.ValueIdx

noncomputable section

open scoped BigOperators

namespace Cert.Spec

open Idealize.ShloMosaic Idealize.ShloMosaic.ValueIdx

/-- The shapes of the three arguments. -/
abbrev SX : Shape := ⟨4, ![32, 128, 128, 128]⟩
abbrev SG : Shape := ⟨3, ![64, 2, 2]⟩
abbrev SB : Shape := ⟨3, ![64, 2, 1]⟩

/-- The four float literals of both programs: n = 524288, n - 1 = 524287, eps (the f32 nearest 1e-5) and 2. -/
def nn : EReal := Ideal.ofBits .f32 0x49000000#32
def dd : EReal := Ideal.ofBits .f32 0x48FFFFE0#32
def ee : EReal := Ideal.ofBits .f32 0x3727C5AC#32
def tw : EReal := Ideal.ofBits .f32 0x40000000#32

/-- The sum over batch, row and column. -/
def sum3 (f : Fin 32 → Fin 128 → Fin 128 → EReal) : EReal := ∑ b : Fin 32, ∑ h : Fin 128, ∑ w : Fin 128, f b h w

/-- Complex channel `ch` stores its real part at channel `ch` and its imaginary part at channel `ch + 64`. -/
def chRe (ch : Fin 64) : Fin 128 := ⟨ch.val, by omega⟩
def chIm (ch : Fin 64) : Fin 128 := ⟨ch.val + 64, by omega⟩

/-- A covariance from raw moments: (sum of products - product of the sums / n) / (n - 1). -/
def covK (sab sa sb : EReal) : EReal := Ideal.div (sab - Ideal.div (sa * sb) nn) dd

section stats
variable (x : SX.Idx → EReal)

/-- The real and imaginary parts of complex channel `ch` at a position. -/
def xr (ch : Fin 64) (b : Fin 32) (h w : Fin 128) : EReal := x (ix4 b (chRe ch) h w)
def xi (ch : Fin 64) (b : Fin 32) (h w : Fin 128) : EReal := x (ix4 b (chIm ch) h w)

/-- The five raw sums of a channel. -/
def sR (ch : Fin 64) : EReal := sum3 fun b h w => xr x ch b h w
def sI (ch : Fin 64) : EReal := sum3 fun b h w => xi x ch b h w
def sRR (ch : Fin 64) : EReal := sum3 fun b h w => xr x ch b h w * xr x ch b h w
def sII (ch : Fin 64) : EReal := sum3 fun b h w => xi x ch b h w * xi x ch b h w
def sRI (ch : Fin 64) : EReal := sum3 fun b h w => xr x ch b h w * xi x ch b h w

/-- The two means. -/
def mr (ch : Fin 64) : EReal := Ideal.div (sR x ch) nn
def mi (ch : Fin 64) : EReal := Ideal.div (sI x ch) nn

/-- The covariances from the raw moments. -/
def cRRK (ch : Fin 64) : EReal := covK (sRR x ch) (sR x ch) (sR x ch)
def cIIK (ch : Fin 64) : EReal := covK (sII x ch) (sI x ch) (sI x ch)
def cRIK (ch : Fin 64) : EReal := covK (sRI x ch) (sR x ch) (sI x ch)

/-- The covariances from the centred input. -/
def cRRR (ch : Fin 64) : EReal :=
  Ideal.div (sum3 fun b h w => (xr x ch b h w - mr x ch) * (xr x ch b h w - mr x ch)) dd
def cIIR (ch : Fin 64) : EReal :=
  Ideal.div (sum3 fun b h w => (xi x ch b h w - mi x ch) * (xi x ch b h w - mi x ch)) dd
def cRIR (ch : Fin 64) : EReal :=
  Ideal.div (sum3 fun b h w => (xr x ch b h w - mr x ch) * (xi x ch b h w - mi x ch)) dd

end stats

section whiten
variable (cRR cII cRI : EReal)

/-- The determinant of the regularised covariance matrix [[cRR + eps, cRI], [cRI, cII + eps]]. -/
def dl : EReal := (cRR + ee) * (cII + ee) - cRI * cRI
/-- Its square root, and the normaliser sqrt (trace + 2 * determinant). -/
def sq : EReal := Ideal.sqrt (dl cRR cII cRI)
def tq : EReal := Ideal.sqrt (((cRR + ee) + (cII + ee)) + tw * dl cRR cII cRI)
/-- The entries of the closed-form square root (its two off-diagonal entries are one value). -/
def q00 : EReal := Ideal.div ((cRR + ee) + sq cRR cII cRI) (tq cRR cII cRI)
def q01 : EReal := Ideal.div (cRI + sq cRR cII cRI) (tq cRR cII cRI)
def q11 : EReal := Ideal.div ((cII + ee) + sq cRR cII cRI) (tq cRR cII cRI)
/-- Its determinant, and the entries of its inverse (again symmetric). -/
def dt : EReal := q00 cRR cII cRI * q11 cRR cII cRI - q01 cRR cII cRI * q01 cRR cII cRI
def v00 : EReal := Ideal.div (q11 cRR cII cRI) (dt cRR cII cRI)
def v01 : EReal := Ideal.div (-(q01 cRR cII cRI)) (dt cRR cII cRI)
def v11 : EReal := Ideal.div (q00 cRR cII cRI) (dt cRR cII cRI)

/-- gamma times the inverse square root: row (g0, g1) of gamma against the two columns of the inverse. -/
def aL (g0 g1 : EReal) : EReal := g0 * v00 cRR cII cRI + g1 * v01 cRR cII cRI
def aR (g0 g1 : EReal) : EReal := g0 * v01 cRR cII cRI + g1 * v11 cRR cII cRI

end whiten

/-- The bias with the means folded in. -/
def biasK (a0 a1 b0 m0 m1 : EReal) : EReal := (b0 - a0 * m0) - a1 * m1

/-- One output element with the mean folded into the bias, and with the input centred first. -/
def rowK (a0 a1 b0 m0 m1 u0 u1 : EReal) : EReal := (a0 * u0 + a1 * u1) + biasK a0 a1 b0 m0 m1
def rowR (a0 a1 b0 m0 m1 u0 u1 : EReal) : EReal := (a0 * (u0 - m0) + a1 * (u1 - m1)) + b0

section outputs
variable (x : SX.Idx → EReal) (g : SG.Idx → EReal) (bt : SB.Idx → EReal)

/-- Output row `r` (0: the real half, 1: the imaginary half) of channel `ch` at a position, raw-moment arrangement. -/
def yK (r : Fin 2) (ch : Fin 64) (b : Fin 32) (h w : Fin 128) : EReal :=
  rowK (aL (cRRK x ch) (cIIK x ch) (cRIK x ch) (g (ix3 ch r 0)) (g (ix3 ch r 1)))
       (aR (cRRK x ch) (cIIK x ch) (cRIK x ch) (g (ix3 ch r 0)) (g (ix3 ch r 1)))
       (bt (ix3 ch r 0)) (mr x ch) (mi x ch) (xr x ch b h w) (xi x ch b h w)

/-- The same, centred arrangement. -/
def yR (r : Fin 2) (ch : Fin 64) (b : Fin 32) (h w : Fin 128) : EReal :=
  rowR (aL (cRRR x ch) (cIIR x ch) (cRIR x ch) (g (ix3 ch r 0)) (g (ix3 ch r 1)))
       (aR (cRRR x ch) (cIIR x ch) (cRIR x ch) (g (ix3 ch r 0)) (g (ix3 ch r 1)))
       (bt (ix3 ch r 0)) (mr x ch) (mi x ch) (xr x ch b h w) (xi x ch b h w)

/-- The whole result array: stored channels 0..63 are row 0 of complex channels 0..63, stored channels 64..127 row 1. -/
def outK : SX.Idx → EReal := fun i =>
  if hlt : (i 1).val < 64 then yK x g bt 0 ⟨(i 1).val, hlt⟩ (i 0) (i 2) (i 3)
  else yK x g bt 1 ⟨(i 1).val - 64, by have h128 : (i 1).val < 128 := (i 1).isLt; omega⟩ (i 0) (i 2) (i 3)
def outR : SX.Idx → EReal := fun i =>
  if hlt : (i 1).val < 64 then yR x g bt 0 ⟨(i 1).val, hlt⟩ (i 0) (i 2) (i 3)
  else yR x g bt 1 ⟨(i 1).val - 64, by have h128 : (i 1).val < 128 := (i 1).isLt; omega⟩ (i 0) (i 2) (i 3)

end outputs

end Cert.Spec

end
-- ==== Proof.KReg0.lean ====
import proofs.«146568_j43499428774583_1_alg».proof.Proof.Gen.KernelIdeal.Frame
import proofs.«146568_j43499428774583_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

/-! ## What each case of the body leaves in each buffer: its last covering store's payload -/

section anyF
variable {F : FTy → Type} [FloatOps F]

theorem hz1 : (![0] : Fin 1 → Nat) = fun _ => 0 := funext fun a => by fin_cases a <;> rfl
theorem hz4 : (![0, 0, 0, 0] : Fin 4 → Nat) = fun _ => 0 := funext fun a => by fin_cases a <;> rfl

theorem out_B_1 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : ¬cond0_0 i)
    (x : Vec F S1x128x128x128 .f32) (xo1 xo2 xo3 xo4 xo5 : Vec F S64 .f32) :
    out0_B_1 c i a1 h1 a2 h2 a3 h3 a4 h4 a5 h5 a6 h6 hc x xo1 xo2 xo3 xo4 xo5 = k0_pay10 x xo1 := by
  unfold out0_B_1
  rw [View.read_writes_eq_canon _ _ _ (cover0_B_1 c i a1 h1 a2 h2 a3 h3 a4 h4 a5 h5 a6 h6 hc x xo1 xo2 xo3 xo4 xo5)]
  unfold kernelRun0_B
  dsimp only
  sl_unfold_words
  rw [View.canon_unit_zero hz1]
  simp only [View.readAt_eq_ld, h1.read_unread, h2.read_unread, h3.read_unread, h4.read_unread, h5.read_unread, h6.read_unread,
    View.ld_unit_zero (S := S64) hz1, View.ld_unit_zero (S := S1x128x128x128) hz4]

theorem out_A_1 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : cond0_0 i)
    (x : Vec F S1x128x128x128 .f32) :
    out0_A_1 c i a1 h1 a2 h2 a3 h3 a4 h4 a5 h5 a6 h6 hc x = k0_pay10 x k0_pay3 := by
  unfold out0_A_1
  rw [View.read_writes_eq_canon _ _ _ (cover0_A_1 c i a1 h1 a2 h2 a3 h3 a4 h4 a5 h5 a6 h6 hc x)]
  unfold kernelRun0_A
  dsimp only
  sl_unfold_words
  rw [View.canon_cons_unit_zero (S := S64) hz1, View.readCov_unit_zero (S := S64) _ hz1]
  simp only [View.readAt_eq_ld, h1.read_unread, View.ld_unit_zero (S := S1x128x128x128) hz4]

theorem out_B_2 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : ¬cond0_0 i)
    (x : Vec F S1x128x128x128 .f32) (xo1 xo2 xo3 xo4 xo5 : Vec F S64 .f32) :
    out0_B_2 c i a1 h1 a2 h2 a3 h3 a4 h4 a5 h5 a6 h6 hc x xo1 xo2 xo3 xo4 xo5 = k0_pay11 x xo2 := by
  unfold out0_B_2
  rw [View.read_writes_eq_canon _ _ _ (cover0_B_2 c i a1 h1 a2 h2 a3 h3 a4 h4 a5 h5 a6 h6 hc x xo1 xo2 xo3 xo4 xo5)]
  unfold kernelRun0_B
  dsimp only
  sl_unfold_words
  rw [View.canon_unit_zero hz1]
  simp only [View.readAt_eq_ld, h1.read_unread, h2.read_unread, h3.read_unread, h4.read_unread, h5.read_unread, h6.read_unread,
    View.ld_unit_zero (S := S64) hz1, View.ld_unit_zero (S := S1x128x128x128) hz4]

theorem out_A_2 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : cond0_0 i)
    (x : Vec F S1x128x128x128 .f32) :
    out0_A_2 c i a1 h1 a2 h2 a3 h3 a4 h4 a5 h5 a6 h6 hc x = k0_pay11 x k0_pay4 := by
  unfold out0_A_2
  rw [View.read_writes_eq_canon _ _ _ (cover0_A_2 c i a1 h1 a2 h2 a3 h3 a4 h4 a5 h5 a6 h6 hc x)]
  unfold kernelRun0_A
  dsimp only
  sl_unfold_words
  rw [View.canon_cons_unit_zero (S := S64) hz1, View.readCov_unit_zero (S := S64) _ hz1]
  simp only [View.readAt_eq_ld, h1.read_unread, View.ld_unit_zero (S := S1x128x128x128) hz4]

theorem out_B_3 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : ¬cond0_0 i)
    (x : Vec F S1x128x128x128 .f32) (xo1 xo2 xo3 xo4 xo5 : Vec F S64 .f32) :
    out0_B_3 c i a1 h1 a2 h2 a3 h3 a4 h4 a5 h5 a6 h6 hc x xo1 xo2 xo3 xo4 xo5 = k0_pay12 x xo3 := by
  unfold out0_B_3
  rw [View.read_writes_eq_canon _ _ _ (cover0_B_3 c i a1 h1 a2 h2 a3 h3 a4 h4 a5 h5 a6 h6 hc x xo1 xo2 xo3 xo4 xo5)]
  unfold kernelRun0_B
  dsimp only
  sl_unfold_words
  rw [View.canon_unit_zero hz1]
  simp only [View.readAt_eq_ld, h1.read_unread, h2.read_unread, h3.read_unread, h4.read_unread, h5.read_unread, h6.read_unread,
    View.ld_unit_zero (S := S64) hz1, View.ld_unit_zero (S := S1x128x128x128) hz4]

theorem out_A_3 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : cond0_0 i)
    (x : Vec F S1x128x128x128 .f32) :
    out0_A_3 c i a1 h1 a2 h2 a3 h3 a4 h4 a5 h5 a6 h6 hc x = k0_pay12 x k0_pay5 := by
  unfold out0_A_3
  rw [View.read_writes_eq_canon _ _ _ (cover0_A_3 c i a1 h1 a2 h2 a3 h3 a4 h4 a5 h5 a6 h6 hc x)]
  unfold kernelRun0_A
  dsimp only
  sl_unfold_words
  rw [View.canon_cons_unit_zero (S := S64) hz1, View.readCov_unit_zero (S := S64) _ hz1]
  simp only [View.readAt_eq_ld, h1.read_unread, View.ld_unit_zero (S := S1x128x128x128) hz4]

theorem out_B_4 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : ¬cond0_0 i)
    (x : Vec F S1x128x128x128 .f32) (xo1 xo2 xo3 xo4 xo5 : Vec F S64 .f32) :
    out0_B_4 c i a1 h1 a2 h2 a3 h3 a4 h4 a5 h5 a6 h6 hc x xo1 xo2 xo3 xo4 xo5 = k0_pay1 (k0_pay13 xo4) (k0_pay14 x) := by
  unfold out0_B_4
  rw [View.read_writes_eq_canon _ _ _ (cover0_B_4 c i a1 h1 a2 h2 a3 h3 a4 h4 a5 h5 a6 h6 hc x xo1 xo2 xo3 xo4 xo5)]
  unfold kernelRun0_B
  dsimp only
  sl_unfold_words
  rw [View.canon_unit_zero hz1]
  simp only [View.readAt_eq_ld, h1.read_unread, h2.read_unread, h3.read_unread, h4.read_unread, h5.read_unread, h6.read_unread,
    View.ld_unit_zero (S := S64) hz1, View.ld_unit_zero (S := S1x128x128x128) hz4]

theorem out_A_4 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : cond0_0 i)
    (x : Vec F S1x128x128x128 .f32) :
    out0_A_4 c i a1 h1 a2 h2 a3 h3 a4 h4 a5 h5 a6 h6 hc x = k0_pay1 (k0_pay13 k0_pay6) (k0_pay14 x) := by
  unfold out0_A_4
  rw [View.read_writes_eq_canon _ _ _ (cover0_A_4 c i a1 h1 a2 h2 a3 h3 a4 h4 a5 h5 a6 h6 hc x)]
  unfold kernelRun0_A
  dsimp only
  sl_unfold_words
  rw [View.canon_cons_unit_zero (S := S64) hz1, View.readCov_unit_zero (S := S64) _ hz1]
  simp only [View.readAt_eq_ld, h1.read_unread, View.ld_unit_zero (S := S1x128x128x128) hz4]

theorem out_B_5 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : ¬cond0_0 i)
    (x : Vec F S1x128x128x128 .f32) (xo1 xo2 xo3 xo4 xo5 : Vec F S64 .f32) :
    out0_B_5 c i a1 h1 a2 h2 a3 h3 a4 h4 a5 h5 a6 h6 hc x xo1 xo2 xo3 xo4 xo5 = k0_pay2 (k0_pay8 x) (k0_pay9 x) xo5 := by
  unfold out0_B_5
  rw [View.read_writes_eq_canon _ _ _ (cover0_B_5 c i a1 h1 a2 h2 a3 h3 a4 h4 a5 h5 a6 h6 hc x xo1 xo2 xo3 xo4 xo5)]
  unfold kernelRun0_B
  dsimp only
  sl_unfold_words
  rw [View.canon_unit_zero hz1]
  simp only [View.readAt_eq_ld, h1.read_unread, h2.read_unread, h3.read_unread, h4.read_unread, h5.read_unread, h6.read_unread,
    View.ld_unit_zero (S := S64) hz1, View.ld_unit_zero (S := S1x128x128x128) hz4]

theorem out_A_5 (c : Dev nD) (i : grid0.Coords) (a1 : Memref sig .tc .vmem S1x128x128x128 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (a5 : Memref sig .tc .vmem S64 .f32) (h5 : a5.IsWhole)
    (a6 : Memref sig .tc .vmem S64 .f32) (h6 : a6.IsWhole) (hc : cond0_0 i)
    (x : Vec F S1x128x128x128 .f32) :
    out0_A_5 c i a1 h1 a2 h2 a3 h3 a4 h4 a5 h5 a6 h6 hc x = k0_pay2 (k0_pay8 x) (k0_pay9 x) k0_pay7 := by
  unfold out0_A_5
  rw [View.read_writes_eq_canon _ _ _ (cover0_A_5 c i a1 h1 a2 h2 a3 h3 a4 h4 a5 h5 a6 h6 hc x)]
  unfold kernelRun0_A
  dsimp only
  sl_unfold_words
  rw [View.canon_cons_unit_zero (S := S64) hz1, View.readCov_unit_zero (S := S64) _ hz1]
  simp only [View.readAt_eq_ld, h1.read_unread, View.ld_unit_zero (S := S1x128x128x128) hz4]

end anyF

/-! ## The payloads read at an index, over the extended reals -/

section ideal

theorem lift1 (ch : Fin 64) (k : Fin 1) :
    reduces_S1x64_S64.lift (ix1 ch) k = ix2 k ch := by
  funext a; apply Fin.ext
  match a with
  | ⟨0, _⟩ => rfl
  | ⟨1, _⟩ => rfl

theorem lift2 (a0 : Fin 1) (ch : Fin 64) (k : Fin 128) :
    reduces_S1x64x128_S1x64.lift (ix2 a0 ch) k = ix3 a0 ch k := by
  funext a; apply Fin.ext
  match a with
  | ⟨0, _⟩ => rfl
  | ⟨1, _⟩ => rfl
  | ⟨2, _⟩ => rfl

theorem lift3 (a0 : Fin 1) (ch : Fin 64) (h : Fin 128) (k : Fin 128) :
    reduces_S1x64x128x128_S1x64x128.lift (ix3 a0 ch h) k = ix4 a0 ch h k := by
  funext a; apply Fin.ext
  match a with
  | ⟨0, _⟩ => rfl
  | ⟨1, _⟩ => rfl
  | ⟨2, _⟩ => rfl
  | ⟨3, _⟩ => rfl

/-- The sum over the unit batch axis of a [1,64] vector is its one row. -/
theorem mr0_apply (v : FVec Ideal S1x64 .f32) (hφ : FKind.Formats .f32)
    (hacc : (0x00000000#32 : BitVec 32) = FKind.add.neutral .f32 hφ) (ch : Fin 64) :
    multiReduction (F := Ideal) .add [0] S64 v 0x00000000#32 reduces_S1x64_S64 hφ hacc (ix1 ch) = v (ix2 0 ch) := by
  refine (Ideal.multiReduction_add_single v _ reduces_S1x64_S64 hφ hacc (ix1 ch)).trans ?_
  refine (Fin.sum_univ_one (fun k : Fin 1 => v (reduces_S1x64_S64.lift (ix1 ch) k))).trans ?_
  exact congrArg v (lift1 ch 0)

/-- The sum over the rows of a [1,64,128] vector. -/
theorem mr2_apply (v : FVec Ideal S1x64x128 .f32) (hφ : FKind.Formats .f32)
    (hacc : (0x00000000#32 : BitVec 32) = FKind.add.neutral .f32 hφ) (a0 : Fin 1) (ch : Fin 64) :
    multiReduction (F := Ideal) .add [2] S1x64 v 0x00000000#32 reduces_S1x64x128_S1x64 hφ hacc (ix2 a0 ch)
      = ∑ h : Fin 128, v (ix3 a0 ch h) := by
  refine (Ideal.multiReduction_add_single v _ reduces_S1x64x128_S1x64 hφ hacc (ix2 a0 ch)).trans ?_
  exact Finset.sum_congr rfl fun h _ => congrArg v (lift2 a0 ch h)

/-- The sum over the columns of a [1,64,128,128] vector. -/
theorem mr3_apply (v : FVec Ideal S1x64x128x128 .f32) (hφ : FKind.Formats .f32)
    (hacc : (0x00000000#32 : BitVec 32) = FKind.add.neutral .f32 hφ) (a0 : Fin 1) (ch : Fin 64) (h : Fin 128) :
    multiReduction (F := Ideal) .add [3] S1x64x128 v 0x00000000#32 reduces_S1x64x128x128_S1x64x128 hφ hacc (ix3 a0 ch h)
      = ∑ w : Fin 128, v (ix4 a0 ch h w) := by
  refine (Ideal.multiReduction_add_single v _ reduces_S1x64x128x128_S1x64x128 hφ hacc (ix3 a0 ch h)).trans ?_
  exact Finset.sum_congr rfl fun w _ => congrArg v (lift3 a0 ch h w)

/-- The three nested lane sums (over columns, then rows, then the unit batch axis) of a [1,64,128,128] block, read
    at a channel: the double sum over rows and columns. -/
theorem red3_apply (y : FVec Ideal S1x64x128x128 .f32) (hφ : FKind.Formats .f32)
    (hacc : (0x00000000#32 : BitVec 32) = FKind.add.neutral .f32 hφ) (ch : Fin 64) :
    multiReduction (F := Ideal) .add [0] S64
      (multiReduction (F := Ideal) .add [2] S1x64
        (multiReduction (F := Ideal) .add [3] S1x64x128 y 0x00000000#32 reduces_S1x64x128x128_S1x64x128 hφ hacc)
        0x00000000#32 reduces_S1x64x128_S1x64 hφ hacc)
      0x00000000#32 reduces_S1x64_S64 hφ hacc (ix1 ch) = ∑ h : Fin 128, ∑ w : Fin 128, y (ix4 0 ch h w) := by
  rw [mr0_apply, mr2_apply]
  exact Finset.sum_congr rfl fun h _ => mr3_apply y hφ hacc 0 ch h

end ideal

section idealPay

open Cert.Spec (chRe chIm)

/-- The lower half of the stored channels of a block: complex channel `ch`'s real part. -/
theorem pay8_apply (x : Vec Ideal S1x128x128x128 .f32) (a0 : Fin 1) (ch : Fin 64) (h w : Fin 128) :
    k0_pay8 (F := Ideal) x (ix4 a0 ch h w) = x (ix4 a0 (chRe ch) h w) := by
  unfold k0_pay8
  refine extractStridedSlice_apply _ x _ (ix4 a0 ch h w) (ix4 a0 (chRe ch) h w) fun a => ?_
  match a with
  | ⟨0, _⟩ => show a0.val = 0 + a0.val; omega
  | ⟨1, _⟩ => show ch.val = 0 + ch.val; omega
  | ⟨2, _⟩ => show h.val = 0 + h.val; omega
  | ⟨3, _⟩ => show w.val = 0 + w.val; omega

/-- The upper half: its imaginary part, 64 stored channels further. -/
theorem pay9_apply (x : Vec Ideal S1x128x128x128 .f32) (a0 : Fin 1) (ch : Fin 64) (h w : Fin 128) :
    k0_pay9 (F := Ideal) x (ix4 a0 ch h w) = x (ix4 a0 (chIm ch) h w) := by
  unfold k0_pay9
  refine extractStridedSlice_apply _ x _ (ix4 a0 ch h w) (ix4 a0 (chIm ch) h w) fun a => ?_
  match a with
  | ⟨0, _⟩ => show a0.val = 0 + a0.val; omega
  | ⟨1, _⟩ => show ch.val + 64 = 64 + ch.val; omega
  | ⟨2, _⟩ => show h.val = 0 + h.val; omega
  | ⟨3, _⟩ => show w.val = 0 + w.val; omega

/-- The five per-block addends of a channel: the block's sums over rows and columns. -/
def gR (x : Vec Ideal S1x128x128x128 .f32) (ch : Fin 64) : EReal := ∑ h : Fin 128, ∑ w : Fin 128, x (ix4 0 (chRe ch) h w)
def gRR (x : Vec Ideal S1x128x128x128 .f32) (ch : Fin 64) : EReal :=
  ∑ h : Fin 128, ∑ w : Fin 128, x (ix4 0 (chRe ch) h w) * x (ix4 0 (chRe ch) h w)
def gI (x : Vec Ideal S1x128x128x128 .f32) (ch : Fin 64) : EReal := ∑ h : Fin 128, ∑ w : Fin 128, x (ix4 0 (chIm ch) h w)
def gII (x : Vec Ideal S1x128x128x128 .f32) (ch : Fin 64) : EReal :=
  ∑ h : Fin 128, ∑ w : Fin 128, x (ix4 0 (chIm ch) h w) * x (ix4 0 (chIm ch) h w)
def gRI (x : Vec Ideal S1x128x128x128 .f32) (ch : Fin 64) : EReal :=
  ∑ h : Fin 128, ∑ w : Fin 128, x (ix4 0 (chRe ch) h w) * x (ix4 0 (chIm ch) h w)

theorem pay10_apply (x : Vec Ideal S1x128x128x128 .f32) (acc : Vec Ideal S64 .f32) (ch : Fin 64) :
    k0_pay10 (F := Ideal) x acc (ix1 ch) = acc (ix1 ch) + gR x ch := by
  unfold k0_pay10 gR
  dsimp only
  rw [shapeCast_self]
  refine (addf_apply _ _ _).trans (congrArg (acc (ix1 ch) + ·) ?_)
  refine (red3_apply _ _ _ ch).trans ?_
  simp only [pay8_apply]

theorem pay11_apply (x : Vec Ideal S1x128x128x128 .f32) (acc : Vec Ideal S64 .f32) (ch : Fin 64) :
    k0_pay11 (F := Ideal) x acc (ix1 ch) = acc (ix1 ch) + gRR x ch := by
  unfold k0_pay11 gRR
  dsimp only
  rw [shapeCast_self]
  refine (addf_apply _ _ _).trans (congrArg (acc (ix1 ch) + ·) ?_)
  refine (red3_apply _ _ _ ch).trans ?_
  simp only [mulf_apply, pay8_apply]

theorem pay12_apply (x : Vec Ideal S1x128x128x128 .f32) (acc : Vec Ideal S64 .f32) (ch : Fin 64) :
    k0_pay12 (F := Ideal) x acc (ix1 ch) = acc (ix1 ch) + gI x ch := by
  unfold k0_pay12 gI
  dsimp only
  rw [shapeCast_self]
  refine (addf_apply _ _ _).trans (congrArg (acc (ix1 ch) + ·) ?_)
  refine (red3_apply _ _ _ ch).trans ?_
  simp only [pay9_apply]

theorem pay1_apply (x : Vec Ideal S1x128x128x128 .f32) (acc : Vec Ideal S64 .f32) (ch : Fin 64) :
    k0_pay1 (F := Ideal) (k0_pay13 acc) (k0_pay14 x) (ix1 ch) = acc (ix1 ch) + gII x ch := by
  unfold k0_pay1 k0_pay13 k0_pay14 gII
  dsimp only
  rw [shapeCast_self]
  refine (addf_apply _ _ _).trans (congrArg (acc (ix1 ch) + ·) ?_)
  refine (red3_apply _ _ _ ch).trans ?_
  simp only [mulf_apply, pay9_apply]

theorem pay2_apply (x : Vec Ideal S1x128x128x128 .f32) (acc : Vec Ideal S64 .f32) (ch : Fin 64) :
    k0_pay2 (F := Ideal) (k0_pay8 x) (k0_pay9 x) acc (ix1 ch) = acc (ix1 ch) + gRI x ch := by
  unfold k0_pay2 gRI
  dsimp only
  rw [shapeCast_self]
  refine (addf_apply _ _ _).trans (congrArg (acc (ix1 ch) + ·) ?_)
  refine (red3_apply _ _ _ ch).trans ?_
  simp only [mulf_apply, pay8_apply, pay9_apply]

/-- The five reset values are the zero vector. -/
theorem pay3_apply (ch : Fin 64) : k0_pay3 (F := Ideal) (ix1 ch) = 0 := Ideal.ofBits_zero_f32
theorem pay4_apply (ch : Fin 64) : k0_pay4 (F := Ideal) (ix1 ch) = 0 := Ideal.ofBits_zero_f32
theorem pay5_apply (ch : Fin 64) : k0_pay5 (F := Ideal) (ix1 ch) = 0 := Ideal.ofBits_zero_f32
theorem pay6_apply (ch : Fin 64) : k0_pay6 (F := Ideal) (ix1 ch) = 0 := Ideal.ofBits_zero_f32
theorem pay7_apply (ch : Fin 64) : k0_pay7 (F := Ideal) (ix1 ch) = 0 := Ideal.ofBits_zero_f32

end idealPay

/-! ## The run: each buffer is the running sum of the points' contributions -/

variable (V : (c : Dev nD) → (b : Ref sig .tc) → Buf (Elt Ideal) ((c : Thread nD τ).loc b))

/-- The input array as the first region finds it. -/
abbrev xin (c : Dev nD) : Cert.Spec.SX.Idx → EReal := V c main_arg0

/-- The input window's block index at point `t` is `(t, 0, 0, 0)`: decided over the 32 points. -/
theorem index0 : ∀ t : Fin grid0.N, win0_0.index t 0 = t.val ∧ win0_0.index t 1 = 0 ∧ win0_0.index t 2 = 0 ∧ win0_0.index t 3 = 0 := by
  decide +kernel

/-- The block of the input at point `t` is batch `t` of the array: block coordinate = index × block size + coordinate inside. -/
theorem iblk_apply (c : Dev nD) (t : Fin cfg0.N) (b : Fin 32) (hb : b.val = t.val) (c2 h w : Fin 128) :
    (iblk0 V c 0 t : Vec Ideal S1x128x128x128 .f32) (ix4 0 c2 h w) = xin V c (ix4 b c2 h w) := by
  have hi := index0 t
  unfold iblk0
  rw [View.read_apply]
  show V c main_arg0 _ = V c main_arg0 _
  congr 1
  funext a
  apply Fin.ext
  match a with
  | ⟨0, _⟩ => show win0_0.index t 0 * 1 + 1 * 0 = b.val; rw [hi.1]; omega
  | ⟨1, _⟩ => show win0_0.index t 1 * 128 + 1 * c2.val = c2.val; rw [hi.2.1]; omega
  | ⟨2, _⟩ => show win0_0.index t 2 * 128 + 1 * h.val = h.val; rw [hi.2.2.1]; omega
  | ⟨3, _⟩ => show win0_0.index t 3 * 128 + 1 * w.val = w.val; rw [hi.2.2.2]; omega

/-- One point's contribution to a statistic: the double sum over rows and columns at batch `b` (nothing past the grid). -/
def ptSum (f : Fin 32 → Fin 128 → Fin 128 → EReal) (b : ℕ) : EReal :=
  if hb : b < 32 then ∑ h : Fin 128, ∑ w : Fin 128, f ⟨b, hb⟩ h w else 0

/-- The contributions of the 32 points add up to the triple sum. -/
theorem sum_ptSum (f : Fin 32 → Fin 128 → Fin 128 → EReal) :
    ∑ b ∈ Finset.range 32, ptSum f b = Cert.Spec.sum3 f := by
  unfold Cert.Spec.sum3
  rw [Finset.sum_range]
  refine Finset.sum_congr rfl fun b _ => ?_
  unfold ptSum
  rw [dif_pos b.isLt]

/-- A quantity that starts at `0 + A 0` and gains `A (n + 1)` at each later point is the running sum of `A`:
    addition of extended reals needs no finiteness to be re-associated. -/
theorem acc_eq_sum (a : (n : ℕ) → n < cfg0.N → EReal) (A : ℕ → EReal)
    (h0 : ∀ h, a 0 h = 0 + A 0)
    (hs : ∀ n (h : n + 1 < cfg0.N), a (n + 1) h = a n (Nat.lt_of_succ_lt h) + A (n + 1)) :
    ∀ (n : ℕ) (h : n < cfg0.N), a n h = ∑ b ∈ Finset.range (n + 1), A b
  | 0, h => by rw [h0, zero_add, Finset.sum_range_one]
  | n + 1, h => by rw [hs, acc_eq_sum a A h0 hs n, Finset.sum_range_succ _ (n + 1)]

/-- Window 1's addend at point `t` is the statistic's double sum at batch `t` of the input array. -/
theorem gR_iblk (c : Dev nD) (ch : Fin 64) (t : Fin cfg0.N) :
    gR (iblk0 V c 0 t) ch = ptSum (fun b h w => Cert.Spec.xr (xin V c) ch b h w) t.val := by
  have ht : t.val < 32 := lt_of_lt_of_eq t.isLt N_0
  unfold gR ptSum Cert.Spec.xr
  rw [dif_pos ht]
  refine Finset.sum_congr rfl fun h _ => Finset.sum_congr rfl fun w _ => ?_
  simp only [iblk_apply V c t ⟨t.val, ht⟩ rfl]

/-- Window 1's buffer after point `n` is the running sum of the points' contributions. -/
theorem outs1 (c : Dev nD) (ch : Fin 64) (n : ℕ) (h : n < cfg0.N) :
    (outsAt0 V c n h).1 (ix1 ch) = ∑ b ∈ Finset.range (n + 1), ptSum (fun b h w => Cert.Spec.xr (xin V c) ch b h w) b := by
  refine acc_eq_sum (fun n h => (outsAt0 V c n h).1 (ix1 ch)) _ (fun h => ?_) (fun n h => ?_) n h
  · rw [outsAt0_A V c ⟨0, h⟩ rfl]
    dsimp only
    rw [out_A_1, pay10_apply, pay3_apply, gR_iblk]
  · have hN : cfg0.N = 32 := N_0
    have hB : ¬(⟨n + 1, h⟩ : Fin cfg0.N).val % 32 = 0 := by dsimp only; omega
    rw [outsAt0_B V c ⟨n + 1, h⟩ hB]
    dsimp only
    rw [out_B_1, pay10_apply, gR_iblk]
    rfl

/-- Window 2's addend at point `t` is the statistic's double sum at batch `t` of the input array. -/
theorem gRR_iblk (c : Dev nD) (ch : Fin 64) (t : Fin cfg0.N) :
    gRR (iblk0 V c 0 t) ch = ptSum (fun b h w => Cert.Spec.xr (xin V c) ch b h w * Cert.Spec.xr (xin V c) ch b h w) t.val := by
  have ht : t.val < 32 := lt_of_lt_of_eq t.isLt N_0
  unfold gRR ptSum Cert.Spec.xr
  rw [dif_pos ht]
  refine Finset.sum_congr rfl fun h _ => Finset.sum_congr rfl fun w _ => ?_
  simp only [iblk_apply V c t ⟨t.val, ht⟩ rfl]

/-- Window 2's buffer after point `n` is the running sum of the points' contributions. -/
theorem outs2 (c : Dev nD) (ch : Fin 64) (n : ℕ) (h : n < cfg0.N) :
    (outsAt0 V c n h).2.1 (ix1 ch) = ∑ b ∈ Finset.range (n + 1), ptSum (fun b h w => Cert.Spec.xr (xin V c) ch b h w * Cert.Spec.xr (xin V c) ch b h w) b := by
  refine acc_eq_sum (fun n h => (outsAt0 V c n h).2.1 (ix1 ch)) _ (fun h => ?_) (fun n h => ?_) n h
  · rw [outsAt0_A V c ⟨0, h⟩ rfl]
    dsimp only
    rw [out_A_2, pay11_apply, pay4_apply, gRR_iblk]
  · have hN : cfg0.N = 32 := N_0
    have hB : ¬(⟨n + 1, h⟩ : Fin cfg0.N).val % 32 = 0 := by dsimp only; omega
    rw [outsAt0_B V c ⟨n + 1, h⟩ hB]
    dsimp only
    rw [out_B_2, pay11_apply, gRR_iblk]
    rfl

/-- Window 3's addend at point `t` is the statistic's double sum at batch `t` of the input array. -/
theorem gI_iblk (c : Dev nD) (ch : Fin 64) (t : Fin cfg0.N) :
    gI (iblk0 V c 0 t) ch = ptSum (fun b h w => Cert.Spec.xi (xin V c) ch b h w) t.val := by
  have ht : t.val < 32 := lt_of_lt_of_eq t.isLt N_0
  unfold gI ptSum Cert.Spec.xi
  rw [dif_pos ht]
  refine Finset.sum_congr rfl fun h _ => Finset.sum_congr rfl fun w _ => ?_
  simp only [iblk_apply V c t ⟨t.val, ht⟩ rfl]

/-- Window 3's buffer after point `n` is the running sum of the points' contributions. -/
theorem outs3 (c : Dev nD) (ch : Fin 64) (n : ℕ) (h : n < cfg0.N) :
    (outsAt0 V c n h).2.2.1 (ix1 ch) = ∑ b ∈ Finset.range (n + 1), ptSum (fun b h w => Cert.Spec.xi (xin V c) ch b h w) b := by
  refine acc_eq_sum (fun n h => (outsAt0 V c n h).2.2.1 (ix1 ch)) _ (fun h => ?_) (fun n h => ?_) n h
  · rw [outsAt0_A V c ⟨0, h⟩ rfl]
    dsimp only
    rw [out_A_3, pay12_apply, pay5_apply, gI_iblk]
  · have hN : cfg0.N = 32 := N_0
    have hB : ¬(⟨n + 1, h⟩ : Fin cfg0.N).val % 32 = 0 := by dsimp only; omega
    rw [outsAt0_B V c ⟨n + 1, h⟩ hB]
    dsimp only
    rw [out_B_3, pay12_apply, gI_iblk]
    rfl

/-- Window 4's addend at point `t` is the statistic's double sum at batch `t` of the input array. -/
theorem gII_iblk (c : Dev nD) (ch : Fin 64) (t : Fin cfg0.N) :
    gII (iblk0 V c 0 t) ch = ptSum (fun b h w => Cert.Spec.xi (xin V c) ch b h w * Cert.Spec.xi (xin V c) ch b h w) t.val := by
  have ht : t.val < 32 := lt_of_lt_of_eq t.isLt N_0
  unfold gII ptSum Cert.Spec.xi
  rw [dif_pos ht]
  refine Finset.sum_congr rfl fun h _ => Finset.sum_congr rfl fun w _ => ?_
  simp only [iblk_apply V c t ⟨t.val, ht⟩ rfl]

/-- Window 4's buffer after point `n` is the running sum of the points' contributions. -/
theorem outs4 (c : Dev nD) (ch : Fin 64) (n : ℕ) (h : n < cfg0.N) :
    (outsAt0 V c n h).2.2.2.1 (ix1 ch) = ∑ b ∈ Finset.range (n + 1), ptSum (fun b h w => Cert.Spec.xi (xin V c) ch b h w * Cert.Spec.xi (xin V c) ch b h w) b := by
  refine acc_eq_sum (fun n h => (outsAt0 V c n h).2.2.2.1 (ix1 ch)) _ (fun h => ?_) (fun n h => ?_) n h
  · rw [outsAt0_A V c ⟨0, h⟩ rfl]
    dsimp only
    rw [out_A_4, pay1_apply, pay6_apply, gII_iblk]
  · have hN : cfg0.N = 32 := N_0
    have hB : ¬(⟨n + 1, h⟩ : Fin cfg0.N).val % 32 = 0 := by dsimp only; omega
    rw [outsAt0_B V c ⟨n + 1, h⟩ hB]
    dsimp only
    rw [out_B_4, pay1_apply, gII_iblk]
    rfl

/-- Window 5's addend at point `t` is the statistic's double sum at batch `t` of the input array. -/
theorem gRI_iblk (c : Dev nD) (ch : Fin 64) (t : Fin cfg0.N) :
    gRI (iblk0 V c 0 t) ch = ptSum (fun b h w => Cert.Spec.xr (xin V c) ch b h w * Cert.Spec.xi (xin V c) ch b h w) t.val := by
  have ht : t.val < 32 := lt_of_lt_of_eq t.isLt N_0
  unfold gRI ptSum Cert.Spec.xr Cert.Spec.xi
  rw [dif_pos ht]
  refine Finset.sum_congr rfl fun h _ => Finset.sum_congr rfl fun w _ => ?_
  simp only [iblk_apply V c t ⟨t.val, ht⟩ rfl]

/-- Window 5's buffer after point `n` is the running sum of the points' contributions. -/
theorem outs5 (c : Dev nD) (ch : Fin 64) (n : ℕ) (h : n < cfg0.N) :
    (outsAt0 V c n h).2.2.2.2 (ix1 ch) = ∑ b ∈ Finset.range (n + 1), ptSum (fun b h w => Cert.Spec.xr (xin V c) ch b h w * Cert.Spec.xi (xin V c) ch b h w) b := by
  refine acc_eq_sum (fun n h => (outsAt0 V c n h).2.2.2.2 (ix1 ch)) _ (fun h => ?_) (fun n h => ?_) n h
  · rw [outsAt0_A V c ⟨0, h⟩ rfl]
    dsimp only
    rw [out_A_5, pay2_apply, pay7_apply, gRI_iblk]
  · have hN : cfg0.N = 32 := N_0
    have hB : ¬(⟨n + 1, h⟩ : Fin cfg0.N).val % 32 = 0 := by dsimp only; omega
    rw [outsAt0_B V c ⟨n + 1, h⟩ hB]
    dsimp only
    rw [out_B_5, pay2_apply, gRI_iblk]
    rfl

/-! ## The result arrays: written back once, after the last point -/

theorem N32 : cfg0.N = 32 := N_0

/-- The last point of the grid, the one point whose write-backs happen. -/
abbrev tLast : Fin cfg0.N := ⟨31, by rw [N32]; decide⟩

/-- What output 1's staging buffer holds after the last point, as contents of its result array (its one block IS the array). -/
abbrev result1 (c : Dev nD) : Buf (Elt Ideal) ((c : Thread nD τ).loc main_v0_0) := (outsAt0 V c 31 tLast.isLt).1

theorem flushed_eq1 (c : Dev nD) (t : Fin cfg0.N) (hf : (cfg0.win 1).flush t = true) :
    (dat0 V c).flushed 1 t = ((cfg0.win 1).blk t).view.read (Elt Ideal) (result1 V c) := by
  have hN : cfg0.N = 32 := N_0
  have h31 : t.val = 31 := by have := (flush0_1 t).mp hf; have := t.isLt; omega
  obtain rfl : t = tLast := Fin.ext h31
  show (cfg0.win 1).cut (grid0.coords tLast) ((dat0 V c).after 1 tLast) = _
  rw [after0_1]
  have hz' : (fun a => win0_1.index tLast a * main_v0_0.ty.shape.size a) = fun _ => 0 := funext fun a => by fin_cases a <;> decide +kernel
  exact (Memref.read_access_unit_zero (Elt Ideal) main_v0_0 hz' (fun a => by rw [congrFun hz' a]; simp) (result1 V c)).symm

theorem final_arr1 (c : Dev nD) : (dat0 V c).arrAt 1 cfg0.N = result1 V c :=
  (dat0 V c).arrAt_eq_of_cover 1 (result1 V c) (flushed_eq1 V c) fun i =>
    ⟨tLast, (flush0_1 tLast).mpr rfl, by
      show i ∈ ((View.whole main_v0_0).slice (win0_1.rect tLast)).set
      rw [View.set_slice_whole, Rect.mem_set_unit]
      intro a
      have h0 : (i 0 : Nat) < 64 := (i 0).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 64 from by decide +kernel]; omega⟩

/-- What output 2's staging buffer holds after the last point, as contents of its result array (its one block IS the array). -/
abbrev result2 (c : Dev nD) : Buf (Elt Ideal) ((c : Thread nD τ).loc main_v0_1) := (outsAt0 V c 31 tLast.isLt).2.1

theorem flushed_eq2 (c : Dev nD) (t : Fin cfg0.N) (hf : (cfg0.win 2).flush t = true) :
    (dat0 V c).flushed 2 t = ((cfg0.win 2).blk t).view.read (Elt Ideal) (result2 V c) := by
  have hN : cfg0.N = 32 := N_0
  have h31 : t.val = 31 := by have := (flush0_2 t).mp hf; have := t.isLt; omega
  obtain rfl : t = tLast := Fin.ext h31
  show (cfg0.win 2).cut (grid0.coords tLast) ((dat0 V c).after 2 tLast) = _
  rw [after0_2]
  have hz' : (fun a => win0_2.index tLast a * main_v0_1.ty.shape.size a) = fun _ => 0 := funext fun a => by fin_cases a <;> decide +kernel
  exact (Memref.read_access_unit_zero (Elt Ideal) main_v0_1 hz' (fun a => by rw [congrFun hz' a]; simp) (result2 V c)).symm

theorem final_arr2 (c : Dev nD) : (dat0 V c).arrAt 2 cfg0.N = result2 V c :=
  (dat0 V c).arrAt_eq_of_cover 2 (result2 V c) (flushed_eq2 V c) fun i =>
    ⟨tLast, (flush0_2 tLast).mpr rfl, by
      show i ∈ ((View.whole main_v0_1).slice (win0_2.rect tLast)).set
      rw [View.set_slice_whole, Rect.mem_set_unit]
      intro a
      have h0 : (i 0 : Nat) < 64 := (i 0).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 64 from by decide +kernel]; omega⟩

/-- What output 3's staging buffer holds after the last point, as contents of its result array (its one block IS the array). -/
abbrev result3 (c : Dev nD) : Buf (Elt Ideal) ((c : Thread nD τ).loc main_v0_2) := (outsAt0 V c 31 tLast.isLt).2.2.1

theorem flushed_eq3 (c : Dev nD) (t : Fin cfg0.N) (hf : (cfg0.win 3).flush t = true) :
    (dat0 V c).flushed 3 t = ((cfg0.win 3).blk t).view.read (Elt Ideal) (result3 V c) := by
  have hN : cfg0.N = 32 := N_0
  have h31 : t.val = 31 := by have := (flush0_3 t).mp hf; have := t.isLt; omega
  obtain rfl : t = tLast := Fin.ext h31
  show (cfg0.win 3).cut (grid0.coords tLast) ((dat0 V c).after 3 tLast) = _
  rw [after0_3]
  have hz' : (fun a => win0_3.index tLast a * main_v0_2.ty.shape.size a) = fun _ => 0 := funext fun a => by fin_cases a <;> decide +kernel
  exact (Memref.read_access_unit_zero (Elt Ideal) main_v0_2 hz' (fun a => by rw [congrFun hz' a]; simp) (result3 V c)).symm

theorem final_arr3 (c : Dev nD) : (dat0 V c).arrAt 3 cfg0.N = result3 V c :=
  (dat0 V c).arrAt_eq_of_cover 3 (result3 V c) (flushed_eq3 V c) fun i =>
    ⟨tLast, (flush0_3 tLast).mpr rfl, by
      show i ∈ ((View.whole main_v0_2).slice (win0_3.rect tLast)).set
      rw [View.set_slice_whole, Rect.mem_set_unit]
      intro a
      have h0 : (i 0 : Nat) < 64 := (i 0).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 64 from by decide +kernel]; omega⟩

/-- What output 4's staging buffer holds after the last point, as contents of its result array (its one block IS the array). -/
abbrev result4 (c : Dev nD) : Buf (Elt Ideal) ((c : Thread nD τ).loc main_v0_3) := (outsAt0 V c 31 tLast.isLt).2.2.2.1

theorem flushed_eq4 (c : Dev nD) (t : Fin cfg0.N) (hf : (cfg0.win 4).flush t = true) :
    (dat0 V c).flushed 4 t = ((cfg0.win 4).blk t).view.read (Elt Ideal) (result4 V c) := by
  have hN : cfg0.N = 32 := N_0
  have h31 : t.val = 31 := by have := (flush0_4 t).mp hf; have := t.isLt; omega
  obtain rfl : t = tLast := Fin.ext h31
  show (cfg0.win 4).cut (grid0.coords tLast) ((dat0 V c).after 4 tLast) = _
  rw [after0_4]
  have hz' : (fun a => win0_4.index tLast a * main_v0_3.ty.shape.size a) = fun _ => 0 := funext fun a => by fin_cases a <;> decide +kernel
  exact (Memref.read_access_unit_zero (Elt Ideal) main_v0_3 hz' (fun a => by rw [congrFun hz' a]; simp) (result4 V c)).symm

theorem final_arr4 (c : Dev nD) : (dat0 V c).arrAt 4 cfg0.N = result4 V c :=
  (dat0 V c).arrAt_eq_of_cover 4 (result4 V c) (flushed_eq4 V c) fun i =>
    ⟨tLast, (flush0_4 tLast).mpr rfl, by
      show i ∈ ((View.whole main_v0_3).slice (win0_4.rect tLast)).set
      rw [View.set_slice_whole, Rect.mem_set_unit]
      intro a
      have h0 : (i 0 : Nat) < 64 := (i 0).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 64 from by decide +kernel]; omega⟩

/-- What output 5's staging buffer holds after the last point, as contents of its result array (its one block IS the array). -/
abbrev result5 (c : Dev nD) : Buf (Elt Ideal) ((c : Thread nD τ).loc main_v0_4) := (outsAt0 V c 31 tLast.isLt).2.2.2.2

theorem flushed_eq5 (c : Dev nD) (t : Fin cfg0.N) (hf : (cfg0.win 5).flush t = true) :
    (dat0 V c).flushed 5 t = ((cfg0.win 5).blk t).view.read (Elt Ideal) (result5 V c) := by
  have hN : cfg0.N = 32 := N_0
  have h31 : t.val = 31 := by have := (flush0_5 t).mp hf; have := t.isLt; omega
  obtain rfl : t = tLast := Fin.ext h31
  show (cfg0.win 5).cut (grid0.coords tLast) ((dat0 V c).after 5 tLast) = _
  rw [after0_5]
  have hz' : (fun a => win0_5.index tLast a * main_v0_4.ty.shape.size a) = fun _ => 0 := funext fun a => by fin_cases a <;> decide +kernel
  exact (Memref.read_access_unit_zero (Elt Ideal) main_v0_4 hz' (fun a => by rw [congrFun hz' a]; simp) (result5 V c)).symm

theorem final_arr5 (c : Dev nD) : (dat0 V c).arrAt 5 cfg0.N = result5 V c :=
  (dat0 V c).arrAt_eq_of_cover 5 (result5 V c) (flushed_eq5 V c) fun i =>
    ⟨tLast, (flush0_5 tLast).mpr rfl, by
      show i ∈ ((View.whole main_v0_4).slice (win0_5.rect tLast)).set
      rw [View.set_slice_whole, Rect.mem_set_unit]
      intro a
      have h0 : (i 0 : Nat) < 64 := (i 0).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 64 from by decide +kernel]; omega⟩

/-! ## The five statistics -/

theorem final1 (c : Dev nD) (ch : Fin 64) :
    ((dat0 V c).arrAt 1 cfg0.N : S64.Idx → EReal) (ix1 ch) = Cert.Spec.sR (xin V c) ch := by
  rw [final_arr1 V c]
  show (outsAt0 V c 31 tLast.isLt).1 (ix1 ch) = _
  rw [outs1 V c ch 31 tLast.isLt, sum_ptSum]
  rfl

theorem final2 (c : Dev nD) (ch : Fin 64) :
    ((dat0 V c).arrAt 2 cfg0.N : S64.Idx → EReal) (ix1 ch) = Cert.Spec.sRR (xin V c) ch := by
  rw [final_arr2 V c]
  show (outsAt0 V c 31 tLast.isLt).2.1 (ix1 ch) = _
  rw [outs2 V c ch 31 tLast.isLt, sum_ptSum]
  rfl

theorem final3 (c : Dev nD) (ch : Fin 64) :
    ((dat0 V c).arrAt 3 cfg0.N : S64.Idx → EReal) (ix1 ch) = Cert.Spec.sI (xin V c) ch := by
  rw [final_arr3 V c]
  show (outsAt0 V c 31 tLast.isLt).2.2.1 (ix1 ch) = _
  rw [outs3 V c ch 31 tLast.isLt, sum_ptSum]
  rfl

theorem final4 (c : Dev nD) (ch : Fin 64) :
    ((dat0 V c).arrAt 4 cfg0.N : S64.Idx → EReal) (ix1 ch) = Cert.Spec.sII (xin V c) ch := by
  rw [final_arr4 V c]
  show (outsAt0 V c 31 tLast.isLt).2.2.2.1 (ix1 ch) = _
  rw [outs4 V c ch 31 tLast.isLt, sum_ptSum]
  rfl

theorem final5 (c : Dev nD) (ch : Fin 64) :
    ((dat0 V c).arrAt 5 cfg0.N : S64.Idx → EReal) (ix1 ch) = Cert.Spec.sRI (xin V c) ch := by
  rw [final_arr5 V c]
  show (outsAt0 V c 31 tLast.isLt).2.2.2.2 (ix1 ch) = _
  rw [outs5 V c ch 31 tLast.isLt, sum_ptSum]
  rfl

end Cert.KernelIdeal.Reg0

end
-- ==== Proof.KHost.lean ====
import proofs.«146568_j43499428774583_1_alg».proof.Proof.Gen.KernelIdeal.Frame
import proofs.«146568_j43499428774583_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.HostMid

open Cert.KernelIdeal Cert.KernelIdeal.Gen

variable (W : Valuation τ sig (Elt Ideal))

/-- The five sums, gamma and beta of a channel as the host stretch finds them. -/
abbrev S0 (ch : Fin 64) : EReal := (W (Proc.devRef .tc main_v0_0) : S64.Idx → EReal) (ix1 ch)
abbrev S1 (ch : Fin 64) : EReal := (W (Proc.devRef .tc main_v0_1) : S64.Idx → EReal) (ix1 ch)
abbrev S2 (ch : Fin 64) : EReal := (W (Proc.devRef .tc main_v0_2) : S64.Idx → EReal) (ix1 ch)
abbrev S3 (ch : Fin 64) : EReal := (W (Proc.devRef .tc main_v0_3) : S64.Idx → EReal) (ix1 ch)
abbrev S4 (ch : Fin 64) : EReal := (W (Proc.devRef .tc main_v0_4) : S64.Idx → EReal) (ix1 ch)
abbrev G (ch : Fin 64) (r k : Fin 2) : EReal := (W (Proc.devRef .tc main_arg1) : S64x2x2.Idx → EReal) (ix3 ch r k)
abbrev B (ch : Fin 64) (r : Fin 2) : EReal := (W (Proc.devRef .tc main_arg2) : S64x2x1.Idx → EReal) (ix3 ch r 0)

/-- The three covariances from the raw moments. -/
def cRR (ch : Fin 64) : EReal := Cert.Spec.covK (S1 W ch) (S0 W ch) (S0 W ch)
def cII (ch : Fin 64) : EReal := Cert.Spec.covK (S3 W ch) (S2 W ch) (S2 W ch)
def cRI (ch : Fin 64) : EReal := Cert.Spec.covK (S4 W ch) (S0 W ch) (S2 W ch)

/-- Row `r` of gamma against the two columns of the inverse square root. -/
def aL (ch : Fin 64) (r : Fin 2) : EReal := Cert.Spec.aL (cRR W ch) (cII W ch) (cRI W ch) (G W ch r 0) (G W ch r 1)
def aR (ch : Fin 64) (r : Fin 2) : EReal := Cert.Spec.aR (cRR W ch) (cII W ch) (cRI W ch) (G W ch r 0) (G W ch r 1)

/-! ## Reading the stretch: tools

An operation of the stretch writes one buffer; read at any other reference its result is what was there. The
stretch is cut into six consecutive pieces, each read from an arbitrary valuation at its entry, so that every term
compared is a small one about a single channel. -/

/-- An operation with one result buffer leaves every other reference's buffer as it was. -/
theorem not_mem_writes {op : HloOp τ sig (Elt Ideal)} {r y : Ref sig .tc}
    (hw : op.writes = {(Proc.devRef .tc y : DevRef τ sig)}) (h : r ≠ y) :
    (Proc.devRef .tc r : DevRef τ sig) ∉ op.writes := by
  rw [hw, Finset.mem_singleton]; exact StableHlo.devRef_ne_of_ne h

/-- A reference no operation of a literal list writes: every operation is passed over. -/
local macro "kept_results" : tactic =>
  `(tactic| simp (disch := (refine not_mem_writes rfl ?_; decide)) only
      [StableHlo.after_cons, StableHlo.after_nil, HloOp.result_of_not_mem])

/-- A reference's contents after a literal list of operations: pass over the operations that do not write it, open
    the one that does at its function's value of its operands' contents, and so on down the operands. -/
local macro "host_results" : tactic =>
  `(tactic| (simp only [StableHlo.after_cons, StableHlo.after_nil]
             repeat (first
               | simp (disch := (refine not_mem_writes rfl ?_; decide)) only [HloOp.result_of_not_mem]
               | simp only [StableHlo.nullary_result', StableHlo.unary_result', StableHlo.binary_result', StableHlo.reshape_result'])))

/-- The six pieces: operations 1–14, 15–30, 31–46, 47–63, 64–83, 84–101. -/
abbrev seg1 : List (HloOp τ sig (Elt Ideal)) := (hostOps1 (F := Ideal)).take 14
abbrev seg2 : List (HloOp τ sig (Elt Ideal)) := ((hostOps1 (F := Ideal)).drop 14).take 16
abbrev seg3 : List (HloOp τ sig (Elt Ideal)) := ((hostOps1 (F := Ideal)).drop 30).take 16
abbrev seg4 : List (HloOp τ sig (Elt Ideal)) := ((hostOps1 (F := Ideal)).drop 46).take 17
abbrev seg5 : List (HloOp τ sig (Elt Ideal)) := ((hostOps1 (F := Ideal)).drop 63).take 20
abbrev seg6 : List (HloOp τ sig (Elt Ideal)) := (hostOps1 (F := Ideal)).drop 83

local macro "seg_open" : tactic => `(tactic| dsimp only [seg1, seg2, seg3, seg4, seg5, seg6, hostOps1, List.take, List.drop])

/-- A [64] array at a channel, and a [64, n1, n2] array at (channel, row, column), as extended reals. -/
abbrev at64 (x : S64.Idx → EReal) (ch : Fin 64) : EReal := x (ix1 ch)
abbrev at3 {n1 n2 : Nat} (x : (⟨3, ![64, n1, n2]⟩ : Shape).Idx → EReal) (ch : Fin 64) (r : Fin n1) (k : Fin n2) : EReal :=
  x (ix3 ch r k)

theorem at64_congr {x y : S64.Idx → EReal} (h : x = y) (ch : Fin 64) : at64 x ch = at64 y ch := by rw [h]
theorem at3_congr {n1 n2 : Nat} {x y : (⟨3, ![64, n1, n2]⟩ : Shape).Idx → EReal} (h : x = y) (ch : Fin 64) (r : Fin n1)
    (k : Fin n2) : at3 x ch r k = at3 y ch r k := by rw [h]

/-- A [64] array recast to [1, 64, 1, 1] holds at (0, ch, 0, 0) what it held at ch: the two row-major positions agree. -/
theorem cast_1x64x1x1 (x : S64.Idx → EReal) (h : S64.ShapeCasts S1x64x1x1) (ch : Fin 64) :
    shapeCast S1x64x1x1 x h (ix4 0 ch 0 0) = x (ix1 ch) :=
  shapeCast_apply x h _ _ (by
    rw [Shape.rowMajor_val_one, Shape.rowMajor_val_four]
    show ch.val = ((0 * 64 + ch.val) * 1 + 0) * 1 + 0
    omega)

/-- The [64, 1, 1] slice at offsets (0, o1, o2) of a [64, n1, n2] array, recast to [64], holds at ch the array's
    entry (ch, o1, o2). -/
theorem cast_slice {n1 n2 : Nat} (X : (⟨3, ![64, n1, n2]⟩ : Shape).Idx → EReal) (o1 o2 : Nat)
    (h : (⟨3, ![64, n1, n2]⟩ : Shape).Slices ![0, o1, o2] S64x1x1) (hc : S64x1x1.ShapeCasts S64)
    (ch : Fin 64) (r : Fin n1) (k : Fin n2) (hr : r.val = o1) (hk : k.val = o2) :
    shapeCast S64 (extractStridedSlice S64x1x1 ![0, o1, o2] X h) hc (ix1 ch) = X (ix3 ch r k) :=
  (shapeCast_apply _ hc (ix1 ch) (ix3 ch 0 0) (by
    rw [Shape.rowMajor_val_three, Shape.rowMajor_val_one]
    show (ch.val * 1 + 0) * 1 + 0 = ch.val
    omega)).trans
  (extractStridedSlice_apply _ X h _ _ (fun a => by
    match a with
    | ⟨0, _⟩ => exact (Nat.zero_add _).symm
    | ⟨1, _⟩ => show r.val = o1 + 0; omega
    | ⟨2, _⟩ => show k.val = o2 + 0; omega))

/-- Replacing the two left factors of a sum of two products, and the minuend of a double difference, by equals. -/
theorem lin2 {a a' b b' x y : EReal} (ha : a = a') (hb : b = b') : a * x + b * y = a' * x + b' * y := by rw [ha, hb]
theorem bias_cong {b b' p q : EReal} (h : b = b') : (b - p) - q = (b' - p) - q := by rw [h]

/-! ## The stretch in six pieces, each read from an arbitrary valuation at its entry -/

/-- Piece 1 (the two means and the real-real covariance). -/
theorem s1_v2 (V : Valuation τ sig (Elt Ideal)) (ch : Fin 64) :
    at64 (StableHlo.after seg1 V (Proc.devRef .tc main_v2)) ch
      = Ideal.div (at64 (V (Proc.devRef .tc main_v0_0)) ch) Cert.Spec.nn := by
  seg_open; host_results
  rfl
theorem s1_v4 (V : Valuation τ sig (Elt Ideal)) (ch : Fin 64) :
    at64 (StableHlo.after seg1 V (Proc.devRef .tc main_v4)) ch
      = Ideal.div (at64 (V (Proc.devRef .tc main_v0_2)) ch) Cert.Spec.nn := by
  seg_open; host_results
  rfl
theorem s1_v10 (V : Valuation τ sig (Elt Ideal)) (ch : Fin 64) :
    at64 (StableHlo.after seg1 V (Proc.devRef .tc main_v10)) ch
      = Cert.Spec.covK (at64 (V (Proc.devRef .tc main_v0_1)) ch) (at64 (V (Proc.devRef .tc main_v0_0)) ch) (at64 (V (Proc.devRef .tc main_v0_0)) ch) := by
  seg_open; host_results
  rfl
theorem s1_k_v0_0 (V : Valuation τ sig (Elt Ideal)) :
    StableHlo.after seg1 V (Proc.devRef .tc main_v0_0) = V (Proc.devRef .tc main_v0_0) := by
  seg_open; kept_results
theorem s1_k_v0_2 (V : Valuation τ sig (Elt Ideal)) :
    StableHlo.after seg1 V (Proc.devRef .tc main_v0_2) = V (Proc.devRef .tc main_v0_2) := by
  seg_open; kept_results
theorem s1_k_v0_3 (V : Valuation τ sig (Elt Ideal)) :
    StableHlo.after seg1 V (Proc.devRef .tc main_v0_3) = V (Proc.devRef .tc main_v0_3) := by
  seg_open; kept_results
theorem s1_k_v0_4 (V : Valuation τ sig (Elt Ideal)) :
    StableHlo.after seg1 V (Proc.devRef .tc main_v0_4) = V (Proc.devRef .tc main_v0_4) := by
  seg_open; kept_results
theorem s1_k_arg1 (V : Valuation τ sig (Elt Ideal)) :
    StableHlo.after seg1 V (Proc.devRef .tc main_arg1) = V (Proc.devRef .tc main_arg1) := by
  seg_open; kept_results
theorem s1_k_arg2 (V : Valuation τ sig (Elt Ideal)) :
    StableHlo.after seg1 V (Proc.devRef .tc main_arg2) = V (Proc.devRef .tc main_arg2) := by
  seg_open; kept_results

/-- Piece 2 (the other two covariances). -/
theorem s2_v16 (V : Valuation τ sig (Elt Ideal)) (ch : Fin 64) :
    at64 (StableHlo.after seg2 V (Proc.devRef .tc main_v16)) ch
      = Cert.Spec.covK (at64 (V (Proc.devRef .tc main_v0_3)) ch) (at64 (V (Proc.devRef .tc main_v0_2)) ch) (at64 (V (Proc.devRef .tc main_v0_2)) ch) := by
  seg_open; host_results
  rfl
theorem s2_v22 (V : Valuation τ sig (Elt Ideal)) (ch : Fin 64) :
    at64 (StableHlo.after seg2 V (Proc.devRef .tc main_v22)) ch
      = Cert.Spec.covK (at64 (V (Proc.devRef .tc main_v0_4)) ch) (at64 (V (Proc.devRef .tc main_v0_0)) ch) (at64 (V (Proc.devRef .tc main_v0_2)) ch) := by
  seg_open; host_results
  rfl
theorem s2_k_v2 (V : Valuation τ sig (Elt Ideal)) :
    StableHlo.after seg2 V (Proc.devRef .tc main_v2) = V (Proc.devRef .tc main_v2) := by
  seg_open; kept_results
theorem s2_k_v4 (V : Valuation τ sig (Elt Ideal)) :
    StableHlo.after seg2 V (Proc.devRef .tc main_v4) = V (Proc.devRef .tc main_v4) := by
  seg_open; kept_results
theorem s2_k_v10 (V : Valuation τ sig (Elt Ideal)) :
    StableHlo.after seg2 V (Proc.devRef .tc main_v10) = V (Proc.devRef .tc main_v10) := by
  seg_open; kept_results
theorem s2_k_arg1 (V : Valuation τ sig (Elt Ideal)) :
    StableHlo.after seg2 V (Proc.devRef .tc main_arg1) = V (Proc.devRef .tc main_arg1) := by
  seg_open; kept_results
theorem s2_k_arg2 (V : Valuation τ sig (Elt Ideal)) :
    StableHlo.after seg2 V (Proc.devRef .tc main_arg2) = V (Proc.devRef .tc main_arg2) := by
  seg_open; kept_results

/-- Piece 3 (the regularised diagonal, the square root of the determinant and the normaliser). -/
theorem s3_v24 (V : Valuation τ sig (Elt Ideal)) (ch : Fin 64) :
    at64 (StableHlo.after seg3 V (Proc.devRef .tc main_v24)) ch
      = at64 (V (Proc.devRef .tc main_v10)) ch + Cert.Spec.ee := by
  seg_open; host_results
  rfl
theorem s3_v26 (V : Valuation τ sig (Elt Ideal)) (ch : Fin 64) :
    at64 (StableHlo.after seg3 V (Proc.devRef .tc main_v26)) ch
      = at64 (V (Proc.devRef .tc main_v16)) ch + Cert.Spec.ee := by
  seg_open; host_results
  rfl
theorem s3_v31 (V : Valuation τ sig (Elt Ideal)) (ch : Fin 64) :
    at64 (StableHlo.after seg3 V (Proc.devRef .tc main_v31)) ch
      = Cert.Spec.sq (at64 (V (Proc.devRef .tc main_v10)) ch) (at64 (V (Proc.devRef .tc main_v16)) ch) (at64 (V (Proc.devRef .tc main_v22)) ch) := by
  seg_open; host_results
  rfl
theorem s3_v35 (V : Valuation τ sig (Elt Ideal)) (ch : Fin 64) :
    at64 (StableHlo.after seg3 V (Proc.devRef .tc main_v35)) ch
      = Cert.Spec.tq (at64 (V (Proc.devRef .tc main_v10)) ch) (at64 (V (Proc.devRef .tc main_v16)) ch) (at64 (V (Proc.devRef .tc main_v22)) ch) := by
  seg_open; host_results
  rfl
theorem s3_k_v2 (V : Valuation τ sig (Elt Ideal)) :
    StableHlo.after seg3 V (Proc.devRef .tc main_v2) = V (Proc.devRef .tc main_v2) := by
  seg_open; kept_results
theorem s3_k_v4 (V : Valuation τ sig (Elt Ideal)) :
    StableHlo.after seg3 V (Proc.devRef .tc main_v4) = V (Proc.devRef .tc main_v4) := by
  seg_open; kept_results
theorem s3_k_v22 (V : Valuation τ sig (Elt Ideal)) :
    StableHlo.after seg3 V (Proc.devRef .tc main_v22) = V (Proc.devRef .tc main_v22) := by
  seg_open; kept_results
theorem s3_k_arg1 (V : Valuation τ sig (Elt Ideal)) :
    StableHlo.after seg3 V (Proc.devRef .tc main_arg1) = V (Proc.devRef .tc main_arg1) := by
  seg_open; kept_results
theorem s3_k_arg2 (V : Valuation τ sig (Elt Ideal)) :
    StableHlo.after seg3 V (Proc.devRef .tc main_arg2) = V (Proc.devRef .tc main_arg2) := by
  seg_open; kept_results

/-- Piece 4 (the closed-form square root and its inverse), over the diagonal entries m0, m1, the off-diagonal
    covariance c, the root s of the determinant and the normaliser t as piece 3 leaves them. -/
def qe (m s t : EReal) : EReal := Ideal.div (m + s) t
def dte (m0 m1 c s t : EReal) : EReal := qe m0 s t * qe m1 s t - qe c s t * qe c s t
theorem s4_v47 (V : Valuation τ sig (Elt Ideal)) (ch : Fin 64) :
    at64 (StableHlo.after seg4 V (Proc.devRef .tc main_v47)) ch
      = Ideal.div (qe (at64 (V (Proc.devRef .tc main_v26)) ch) (at64 (V (Proc.devRef .tc main_v31)) ch) (at64 (V (Proc.devRef .tc main_v35)) ch)) (dte (at64 (V (Proc.devRef .tc main_v24)) ch) (at64 (V (Proc.devRef .tc main_v26)) ch) (at64 (V (Proc.devRef .tc main_v22)) ch) (at64 (V (Proc.devRef .tc main_v31)) ch) (at64 (V (Proc.devRef .tc main_v35)) ch)) := by
  seg_open; host_results
  rfl
theorem s4_v49 (V : Valuation τ sig (Elt Ideal)) (ch : Fin 64) :
    at64 (StableHlo.after seg4 V (Proc.devRef .tc main_v49)) ch
      = Ideal.div (-(qe (at64 (V (Proc.devRef .tc main_v22)) ch) (at64 (V (Proc.devRef .tc main_v31)) ch) (at64 (V (Proc.devRef .tc main_v35)) ch))) (dte (at64 (V (Proc.devRef .tc main_v24)) ch) (at64 (V (Proc.devRef .tc main_v26)) ch) (at64 (V (Proc.devRef .tc main_v22)) ch) (at64 (V (Proc.devRef .tc main_v31)) ch) (at64 (V (Proc.devRef .tc main_v35)) ch)) := by
  seg_open; host_results
  rfl
theorem s4_v51 (V : Valuation τ sig (Elt Ideal)) (ch : Fin 64) :
    at64 (StableHlo.after seg4 V (Proc.devRef .tc main_v51)) ch
      = Ideal.div (-(qe (at64 (V (Proc.devRef .tc main_v22)) ch) (at64 (V (Proc.devRef .tc main_v31)) ch) (at64 (V (Proc.devRef .tc main_v35)) ch))) (dte (at64 (V (Proc.devRef .tc main_v24)) ch) (at64 (V (Proc.devRef .tc main_v26)) ch) (at64 (V (Proc.devRef .tc main_v22)) ch) (at64 (V (Proc.devRef .tc main_v31)) ch) (at64 (V (Proc.devRef .tc main_v35)) ch)) := by
  seg_open; host_results
  rfl
theorem s4_v52 (V : Valuation τ sig (Elt Ideal)) (ch : Fin 64) :
    at64 (StableHlo.after seg4 V (Proc.devRef .tc main_v52)) ch
      = Ideal.div (qe (at64 (V (Proc.devRef .tc main_v24)) ch) (at64 (V (Proc.devRef .tc main_v31)) ch) (at64 (V (Proc.devRef .tc main_v35)) ch)) (dte (at64 (V (Proc.devRef .tc main_v24)) ch) (at64 (V (Proc.devRef .tc main_v26)) ch) (at64 (V (Proc.devRef .tc main_v22)) ch) (at64 (V (Proc.devRef .tc main_v31)) ch) (at64 (V (Proc.devRef .tc main_v35)) ch)) := by
  seg_open; host_results
  rfl
theorem s4_k_v2 (V : Valuation τ sig (Elt Ideal)) :
    StableHlo.after seg4 V (Proc.devRef .tc main_v2) = V (Proc.devRef .tc main_v2) := by
  seg_open; kept_results
theorem s4_k_v4 (V : Valuation τ sig (Elt Ideal)) :
    StableHlo.after seg4 V (Proc.devRef .tc main_v4) = V (Proc.devRef .tc main_v4) := by
  seg_open; kept_results
theorem s4_k_arg1 (V : Valuation τ sig (Elt Ideal)) :
    StableHlo.after seg4 V (Proc.devRef .tc main_arg1) = V (Proc.devRef .tc main_arg1) := by
  seg_open; kept_results
theorem s4_k_arg2 (V : Valuation τ sig (Elt Ideal)) :
    StableHlo.after seg4 V (Proc.devRef .tc main_arg2) = V (Proc.devRef .tc main_arg2) := by
  seg_open; kept_results

/-- Piece 5 (gamma times the inverse square root). -/
theorem s5_v63 (V : Valuation τ sig (Elt Ideal)) (ch : Fin 64) :
    at64 (StableHlo.after seg5 V (Proc.devRef .tc main_v63)) ch
      = at3 (V (Proc.devRef .tc main_arg1)) ch 0 0 * at64 (V (Proc.devRef .tc main_v47)) ch + at3 (V (Proc.devRef .tc main_arg1)) ch 0 1 * at64 (V (Proc.devRef .tc main_v51)) ch := by
  seg_open; host_results
  exact lin2 (cast_slice _ 0 0 _ _ ch 0 0 rfl rfl) (cast_slice _ 0 1 _ _ ch 0 1 rfl rfl)
theorem s5_v66 (V : Valuation τ sig (Elt Ideal)) (ch : Fin 64) :
    at64 (StableHlo.after seg5 V (Proc.devRef .tc main_v66)) ch
      = at3 (V (Proc.devRef .tc main_arg1)) ch 0 0 * at64 (V (Proc.devRef .tc main_v49)) ch + at3 (V (Proc.devRef .tc main_arg1)) ch 0 1 * at64 (V (Proc.devRef .tc main_v52)) ch := by
  seg_open; host_results
  exact lin2 (cast_slice _ 0 0 _ _ ch 0 0 rfl rfl) (cast_slice _ 0 1 _ _ ch 0 1 rfl rfl)
theorem s5_v69 (V : Valuation τ sig (Elt Ideal)) (ch : Fin 64) :
    at64 (StableHlo.after seg5 V (Proc.devRef .tc main_v69)) ch
      = at3 (V (Proc.devRef .tc main_arg1)) ch 1 0 * at64 (V (Proc.devRef .tc main_v47)) ch + at3 (V (Proc.devRef .tc main_arg1)) ch 1 1 * at64 (V (Proc.devRef .tc main_v51)) ch := by
  seg_open; host_results
  exact lin2 (cast_slice _ 1 0 _ _ ch 1 0 rfl rfl) (cast_slice _ 1 1 _ _ ch 1 1 rfl rfl)
theorem s5_v72 (V : Valuation τ sig (Elt Ideal)) (ch : Fin 64) :
    at64 (StableHlo.after seg5 V (Proc.devRef .tc main_v72)) ch
      = at3 (V (Proc.devRef .tc main_arg1)) ch 1 0 * at64 (V (Proc.devRef .tc main_v49)) ch + at3 (V (Proc.devRef .tc main_arg1)) ch 1 1 * at64 (V (Proc.devRef .tc main_v52)) ch := by
  seg_open; host_results
  exact lin2 (cast_slice _ 1 0 _ _ ch 1 0 rfl rfl) (cast_slice _ 1 1 _ _ ch 1 1 rfl rfl)
theorem s5_k_v2 (V : Valuation τ sig (Elt Ideal)) :
    StableHlo.after seg5 V (Proc.devRef .tc main_v2) = V (Proc.devRef .tc main_v2) := by
  seg_open; kept_results
theorem s5_k_v4 (V : Valuation τ sig (Elt Ideal)) :
    StableHlo.after seg5 V (Proc.devRef .tc main_v4) = V (Proc.devRef .tc main_v4) := by
  seg_open; kept_results
theorem s5_k_arg2 (V : Valuation τ sig (Elt Ideal)) :
    StableHlo.after seg5 V (Proc.devRef .tc main_arg2) = V (Proc.devRef .tc main_arg2) := by
  seg_open; kept_results

/-- Piece 6 (the two biases, and the six arrays recast to [1, 64, 1, 1]). -/
theorem s6_v85 (V : Valuation τ sig (Elt Ideal)) (ch : Fin 64) :
    (StableHlo.after seg6 V (Proc.devRef .tc main_v85) : S1x64x1x1.Idx → EReal) (ix4 0 ch 0 0)
      = at64 (V (Proc.devRef .tc main_v63)) ch := by
  seg_open; host_results
  exact cast_1x64x1x1 _ _ ch
theorem s6_v86 (V : Valuation τ sig (Elt Ideal)) (ch : Fin 64) :
    (StableHlo.after seg6 V (Proc.devRef .tc main_v86) : S1x64x1x1.Idx → EReal) (ix4 0 ch 0 0)
      = at64 (V (Proc.devRef .tc main_v66)) ch := by
  seg_open; host_results
  exact cast_1x64x1x1 _ _ ch
theorem s6_v87 (V : Valuation τ sig (Elt Ideal)) (ch : Fin 64) :
    (StableHlo.after seg6 V (Proc.devRef .tc main_v87) : S1x64x1x1.Idx → EReal) (ix4 0 ch 0 0)
      = at64 (V (Proc.devRef .tc main_v69)) ch := by
  seg_open; host_results
  exact cast_1x64x1x1 _ _ ch
theorem s6_v88 (V : Valuation τ sig (Elt Ideal)) (ch : Fin 64) :
    (StableHlo.after seg6 V (Proc.devRef .tc main_v88) : S1x64x1x1.Idx → EReal) (ix4 0 ch 0 0)
      = at64 (V (Proc.devRef .tc main_v72)) ch := by
  seg_open; host_results
  exact cast_1x64x1x1 _ _ ch
theorem s6_v89 (V : Valuation τ sig (Elt Ideal)) (ch : Fin 64) :
    (StableHlo.after seg6 V (Proc.devRef .tc main_v89) : S1x64x1x1.Idx → EReal) (ix4 0 ch 0 0)
      = (at3 (V (Proc.devRef .tc main_arg2)) ch 0 0 - at64 (V (Proc.devRef .tc main_v63)) ch * at64 (V (Proc.devRef .tc main_v2)) ch) - at64 (V (Proc.devRef .tc main_v66)) ch * at64 (V (Proc.devRef .tc main_v4)) ch := by
  seg_open; host_results
  exact (cast_1x64x1x1 _ _ ch).trans (bias_cong (cast_slice _ 0 0 _ _ ch 0 0 rfl rfl))
theorem s6_v90 (V : Valuation τ sig (Elt Ideal)) (ch : Fin 64) :
    (StableHlo.after seg6 V (Proc.devRef .tc main_v90) : S1x64x1x1.Idx → EReal) (ix4 0 ch 0 0)
      = (at3 (V (Proc.devRef .tc main_arg2)) ch 1 0 - at64 (V (Proc.devRef .tc main_v69)) ch * at64 (V (Proc.devRef .tc main_v2)) ch) - at64 (V (Proc.devRef .tc main_v72)) ch * at64 (V (Proc.devRef .tc main_v4)) ch := by
  seg_open; host_results
  exact (cast_1x64x1x1 _ _ ch).trans (bias_cong (cast_slice _ 1 0 _ _ ch 1 0 rfl rfl))

/-! ## The valuations between the pieces, and what each holds of a channel in the claim's vocabulary -/

abbrev V1 : Valuation τ sig (Elt Ideal) := StableHlo.after seg1 W
abbrev V2 : Valuation τ sig (Elt Ideal) := StableHlo.after seg2 (V1 W)
abbrev V3 : Valuation τ sig (Elt Ideal) := StableHlo.after seg3 (V2 W)
abbrev V4 : Valuation τ sig (Elt Ideal) := StableHlo.after seg4 (V3 W)
abbrev V5 : Valuation τ sig (Elt Ideal) := StableHlo.after seg5 (V4 W)

/-- The stretch is its six pieces end to end. -/
theorem split : (hostOps1 (F := Ideal)) = seg1 ++ (seg2 ++ (seg3 ++ (seg4 ++ (seg5 ++ seg6)))) := rfl

theorem after_eq : StableHlo.after hostOps1 W = StableHlo.after seg6 (V5 W) :=
  (congrArg (fun l => StableHlo.after l W) split).trans (by simp only [StableHlo.after_append])

section Levels
variable (ch : Fin 64)

/-- After piece 1. -/
theorem L1_v2 : at64 (V1 W (Proc.devRef .tc main_v2)) ch = Ideal.div (S0 W ch) Cert.Spec.nn := s1_v2 W ch
theorem L1_v4 : at64 (V1 W (Proc.devRef .tc main_v4)) ch = Ideal.div (S2 W ch) Cert.Spec.nn := s1_v4 W ch
theorem L1_v10 : at64 (V1 W (Proc.devRef .tc main_v10)) ch = cRR W ch := s1_v10 W ch
theorem L1_arg1 : V1 W (Proc.devRef .tc main_arg1) = W (Proc.devRef .tc main_arg1) := s1_k_arg1 W
theorem L1_arg2 : V1 W (Proc.devRef .tc main_arg2) = W (Proc.devRef .tc main_arg2) := s1_k_arg2 W

/-- After piece 2. -/
theorem L2_v2 : at64 (V2 W (Proc.devRef .tc main_v2)) ch = Ideal.div (S0 W ch) Cert.Spec.nn :=
  (at64_congr (s2_k_v2 (V1 W)) ch).trans (L1_v2 W ch)
theorem L2_v4 : at64 (V2 W (Proc.devRef .tc main_v4)) ch = Ideal.div (S2 W ch) Cert.Spec.nn :=
  (at64_congr (s2_k_v4 (V1 W)) ch).trans (L1_v4 W ch)
theorem L2_v10 : at64 (V2 W (Proc.devRef .tc main_v10)) ch = cRR W ch :=
  (at64_congr (s2_k_v10 (V1 W)) ch).trans (L1_v10 W ch)
theorem L2_v16 : at64 (V2 W (Proc.devRef .tc main_v16)) ch = cII W ch :=
  (s2_v16 (V1 W) ch).trans (by rw [at64_congr (s1_k_v0_3 W) ch, at64_congr (s1_k_v0_2 W) ch]; rfl)
theorem L2_v22 : at64 (V2 W (Proc.devRef .tc main_v22)) ch = cRI W ch :=
  (s2_v22 (V1 W) ch).trans (by rw [at64_congr (s1_k_v0_4 W) ch, at64_congr (s1_k_v0_0 W) ch, at64_congr (s1_k_v0_2 W) ch]; rfl)
theorem L2_arg1 : V2 W (Proc.devRef .tc main_arg1) = W (Proc.devRef .tc main_arg1) :=
  (s2_k_arg1 (V1 W)).trans (L1_arg1 W)
theorem L2_arg2 : V2 W (Proc.devRef .tc main_arg2) = W (Proc.devRef .tc main_arg2) :=
  (s2_k_arg2 (V1 W)).trans (L1_arg2 W)

/-- After piece 3. -/
theorem L3_v2 : at64 (V3 W (Proc.devRef .tc main_v2)) ch = Ideal.div (S0 W ch) Cert.Spec.nn :=
  (at64_congr (s3_k_v2 (V2 W)) ch).trans (L2_v2 W ch)
theorem L3_v4 : at64 (V3 W (Proc.devRef .tc main_v4)) ch = Ideal.div (S2 W ch) Cert.Spec.nn :=
  (at64_congr (s3_k_v4 (V2 W)) ch).trans (L2_v4 W ch)
theorem L3_v22 : at64 (V3 W (Proc.devRef .tc main_v22)) ch = cRI W ch :=
  (at64_congr (s3_k_v22 (V2 W)) ch).trans (L2_v22 W ch)
theorem L3_v24 : at64 (V3 W (Proc.devRef .tc main_v24)) ch = cRR W ch + Cert.Spec.ee :=
  (s3_v24 (V2 W) ch).trans (by rw [L2_v10 W ch])
theorem L3_v26 : at64 (V3 W (Proc.devRef .tc main_v26)) ch = cII W ch + Cert.Spec.ee :=
  (s3_v26 (V2 W) ch).trans (by rw [L2_v16 W ch])
theorem L3_v31 : at64 (V3 W (Proc.devRef .tc main_v31)) ch = Cert.Spec.sq (cRR W ch) (cII W ch) (cRI W ch) :=
  (s3_v31 (V2 W) ch).trans (by rw [L2_v10 W ch, L2_v16 W ch, L2_v22 W ch])
theorem L3_v35 : at64 (V3 W (Proc.devRef .tc main_v35)) ch = Cert.Spec.tq (cRR W ch) (cII W ch) (cRI W ch) :=
  (s3_v35 (V2 W) ch).trans (by rw [L2_v10 W ch, L2_v16 W ch, L2_v22 W ch])
theorem L3_arg1 : V3 W (Proc.devRef .tc main_arg1) = W (Proc.devRef .tc main_arg1) :=
  (s3_k_arg1 (V2 W)).trans (L2_arg1 W)
theorem L3_arg2 : V3 W (Proc.devRef .tc main_arg2) = W (Proc.devRef .tc main_arg2) :=
  (s3_k_arg2 (V2 W)).trans (L2_arg2 W)

/-- After piece 4: the entries of the inverse square root. -/
theorem L4_v2 : at64 (V4 W (Proc.devRef .tc main_v2)) ch = Ideal.div (S0 W ch) Cert.Spec.nn :=
  (at64_congr (s4_k_v2 (V3 W)) ch).trans (L3_v2 W ch)
theorem L4_v4 : at64 (V4 W (Proc.devRef .tc main_v4)) ch = Ideal.div (S2 W ch) Cert.Spec.nn :=
  (at64_congr (s4_k_v4 (V3 W)) ch).trans (L3_v4 W ch)
theorem L4_v47 : at64 (V4 W (Proc.devRef .tc main_v47)) ch = Cert.Spec.v00 (cRR W ch) (cII W ch) (cRI W ch) :=
  (s4_v47 (V3 W) ch).trans (by rw [L3_v24 W ch, L3_v26 W ch, L3_v22 W ch, L3_v31 W ch, L3_v35 W ch]; rfl)
theorem L4_v49 : at64 (V4 W (Proc.devRef .tc main_v49)) ch = Cert.Spec.v01 (cRR W ch) (cII W ch) (cRI W ch) :=
  (s4_v49 (V3 W) ch).trans (by rw [L3_v24 W ch, L3_v26 W ch, L3_v22 W ch, L3_v31 W ch, L3_v35 W ch]; rfl)
theorem L4_v51 : at64 (V4 W (Proc.devRef .tc main_v51)) ch = Cert.Spec.v01 (cRR W ch) (cII W ch) (cRI W ch) :=
  (s4_v51 (V3 W) ch).trans (by rw [L3_v24 W ch, L3_v26 W ch, L3_v22 W ch, L3_v31 W ch, L3_v35 W ch]; rfl)
theorem L4_v52 : at64 (V4 W (Proc.devRef .tc main_v52)) ch = Cert.Spec.v11 (cRR W ch) (cII W ch) (cRI W ch) :=
  (s4_v52 (V3 W) ch).trans (by rw [L3_v24 W ch, L3_v26 W ch, L3_v22 W ch, L3_v31 W ch, L3_v35 W ch]; rfl)
theorem L4_arg1 : V4 W (Proc.devRef .tc main_arg1) = W (Proc.devRef .tc main_arg1) :=
  (s4_k_arg1 (V3 W)).trans (L3_arg1 W)
theorem L4_arg2 : V4 W (Proc.devRef .tc main_arg2) = W (Proc.devRef .tc main_arg2) :=
  (s4_k_arg2 (V3 W)).trans (L3_arg2 W)

/-- After piece 5: the four entries of gamma times the inverse square root. -/
theorem L5_v2 : at64 (V5 W (Proc.devRef .tc main_v2)) ch = Ideal.div (S0 W ch) Cert.Spec.nn :=
  (at64_congr (s5_k_v2 (V4 W)) ch).trans (L4_v2 W ch)
theorem L5_v4 : at64 (V5 W (Proc.devRef .tc main_v4)) ch = Ideal.div (S2 W ch) Cert.Spec.nn :=
  (at64_congr (s5_k_v4 (V4 W)) ch).trans (L4_v4 W ch)
theorem L5_v63 : at64 (V5 W (Proc.devRef .tc main_v63)) ch = aL W ch 0 :=
  (s5_v63 (V4 W) ch).trans (by
    rw [at3_congr (L4_arg1 W) ch 0 0, at3_congr (L4_arg1 W) ch 0 1, L4_v47 W ch, L4_v51 W ch]; rfl)
theorem L5_v66 : at64 (V5 W (Proc.devRef .tc main_v66)) ch = aR W ch 0 :=
  (s5_v66 (V4 W) ch).trans (by
    rw [at3_congr (L4_arg1 W) ch 0 0, at3_congr (L4_arg1 W) ch 0 1, L4_v49 W ch, L4_v52 W ch]; rfl)
theorem L5_v69 : at64 (V5 W (Proc.devRef .tc main_v69)) ch = aL W ch 1 :=
  (s5_v69 (V4 W) ch).trans (by
    rw [at3_congr (L4_arg1 W) ch 1 0, at3_congr (L4_arg1 W) ch 1 1, L4_v47 W ch, L4_v51 W ch]; rfl)
theorem L5_v72 : at64 (V5 W (Proc.devRef .tc main_v72)) ch = aR W ch 1 :=
  (s5_v72 (V4 W) ch).trans (by
    rw [at3_congr (L4_arg1 W) ch 1 0, at3_congr (L4_arg1 W) ch 1 1, L4_v49 W ch, L4_v52 W ch]; rfl)
theorem L5_arg2 : V5 W (Proc.devRef .tc main_arg2) = W (Proc.devRef .tc main_arg2) :=
  (s5_k_arg2 (V4 W)).trans (L4_arg2 W)

end Levels

theorem v85 (ch : Fin 64) :
    (StableHlo.after hostOps1 W (Proc.devRef .tc main_v85) : S1x64x1x1.Idx → EReal) (ix4 0 ch 0 0) = aL W ch 0 := by
  rw [after_eq W]; exact (s6_v85 (V5 W) ch).trans (L5_v63 W ch)

theorem v86 (ch : Fin 64) :
    (StableHlo.after hostOps1 W (Proc.devRef .tc main_v86) : S1x64x1x1.Idx → EReal) (ix4 0 ch 0 0) = aR W ch 0 := by
  rw [after_eq W]; exact (s6_v86 (V5 W) ch).trans (L5_v66 W ch)

theorem v87 (ch : Fin 64) :
    (StableHlo.after hostOps1 W (Proc.devRef .tc main_v87) : S1x64x1x1.Idx → EReal) (ix4 0 ch 0 0) = aL W ch 1 := by
  rw [after_eq W]; exact (s6_v87 (V5 W) ch).trans (L5_v69 W ch)

theorem v88 (ch : Fin 64) :
    (StableHlo.after hostOps1 W (Proc.devRef .tc main_v88) : S1x64x1x1.Idx → EReal) (ix4 0 ch 0 0) = aR W ch 1 := by
  rw [after_eq W]; exact (s6_v88 (V5 W) ch).trans (L5_v72 W ch)

theorem v89 (ch : Fin 64) :
    (StableHlo.after hostOps1 W (Proc.devRef .tc main_v89) : S1x64x1x1.Idx → EReal) (ix4 0 ch 0 0)
      = Cert.Spec.biasK (aL W ch 0) (aR W ch 0) (B W ch 0) (Ideal.div (S0 W ch) Cert.Spec.nn) (Ideal.div (S2 W ch) Cert.Spec.nn) := by
  rw [after_eq W]
  exact (s6_v89 (V5 W) ch).trans (by
    rw [at3_congr (L5_arg2 W) ch 0 0, L5_v63 W ch, L5_v2 W ch, L5_v66 W ch, L5_v4 W ch]; rfl)

theorem v90 (ch : Fin 64) :
    (StableHlo.after hostOps1 W (Proc.devRef .tc main_v90) : S1x64x1x1.Idx → EReal) (ix4 0 ch 0 0)
      = Cert.Spec.biasK (aL W ch 1) (aR W ch 1) (B W ch 1) (Ideal.div (S0 W ch) Cert.Spec.nn) (Ideal.div (S2 W ch) Cert.Spec.nn) := by
  rw [after_eq W]
  exact (s6_v90 (V5 W) ch).trans (by
    rw [at3_congr (L5_arg2 W) ch 1 0, L5_v69 W ch, L5_v2 W ch, L5_v72 W ch, L5_v4 W ch]; rfl)

/-- No operation of the stretch writes the input array. -/
theorem arg0_kept : StableHlo.after hostOps1 W (Proc.devRef .tc main_arg0) = W (Proc.devRef .tc main_arg0) := by
  dsimp only [hostOps1]; kept_results

end Cert.KernelIdeal.HostMid

end
-- ==== Proof.KReg1.lean ====
import proofs.«146568_j43499428774583_1_alg».proof.Proof.Gen.KernelIdeal.Frame
import proofs.«146568_j43499428774583_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-- The input array and the six per-channel coefficient arrays as the second region finds them. -/
abbrev xin (c : Dev nD) : Cert.Spec.SX.Idx → EReal := V c main_arg0
abbrev k85 (c : Dev nD) (ch : Fin 64) : EReal := (V c main_v85 : S1x64x1x1.Idx → EReal) (ix4 0 ch 0 0)
abbrev k86 (c : Dev nD) (ch : Fin 64) : EReal := (V c main_v86 : S1x64x1x1.Idx → EReal) (ix4 0 ch 0 0)
abbrev k87 (c : Dev nD) (ch : Fin 64) : EReal := (V c main_v87 : S1x64x1x1.Idx → EReal) (ix4 0 ch 0 0)
abbrev k88 (c : Dev nD) (ch : Fin 64) : EReal := (V c main_v88 : S1x64x1x1.Idx → EReal) (ix4 0 ch 0 0)
abbrev k89 (c : Dev nD) (ch : Fin 64) : EReal := (V c main_v89 : S1x64x1x1.Idx → EReal) (ix4 0 ch 0 0)
abbrev k90 (c : Dev nD) (ch : Fin 64) : EReal := (V c main_v90 : S1x64x1x1.Idx → EReal) (ix4 0 ch 0 0)

theorem hz4 : (![0, 0, 0, 0] : Fin 4 → Nat) = fun _ => 0 := funext fun a => by fin_cases a <;> rfl

/-- A per-channel coefficient spread over the block reads the coefficient of the channel. -/
theorem bcast_apply (a : Vec Ideal S1x64x1x1 .f32) (ch : Fin 64) (h : Fin 64) (w : Fin 128) :
    broadcastTo S1x64x64x128 a broadcasts_S1x64x1x1_S1x64x64x128 (ix4 0 ch h w) = a (ix4 0 ch 0 0) :=
  broadcastTo_apply a _ (ix4 0 ch h w) (ix4 0 ch 0 0) fun b => match b with
    | ⟨0, _⟩ => rfl | ⟨1, _⟩ => rfl | ⟨2, _⟩ => rfl | ⟨3, _⟩ => rfl

/-- The first half of the block along the channel axis, at an index. -/
theorem sliceRe_apply (x0 : Vec Ideal S1x128x64x128 .f32) (ch : Fin 64) (h : Fin 64) (w : Fin 128) :
    extractStridedSlice S1x64x64x128 ![0, 0, 0, 0] x0 slices_S1x128x64x128_o0_0_0_0_S1x64x64x128 (ix4 0 ch h w)
      = x0 (ix4 0 (Cert.Spec.chRe ch) h w) :=
  extractStridedSlice_apply _ x0 _ (ix4 0 ch h w) (ix4 0 (Cert.Spec.chRe ch) h w) fun b => match b with
    | ⟨0, _⟩ => rfl | ⟨1, _⟩ => by show ch.val = 0 + ch.val; omega | ⟨2, _⟩ => by show h.val = 0 + h.val; omega | ⟨3, _⟩ => by show w.val = 0 + w.val; omega

/-- The second half. -/
theorem sliceIm_apply (x0 : Vec Ideal S1x128x64x128 .f32) (ch : Fin 64) (h : Fin 64) (w : Fin 128) :
    extractStridedSlice S1x64x64x128 ![0, 64, 0, 0] x0 slices_S1x128x64x128_o0_64_0_0_S1x64x64x128 (ix4 0 ch h w)
      = x0 (ix4 0 (Cert.Spec.chIm ch) h w) :=
  extractStridedSlice_apply _ x0 _ (ix4 0 ch h w) (ix4 0 (Cert.Spec.chIm ch) h w) fun b => match b with
    | ⟨0, _⟩ => rfl | ⟨1, _⟩ => by show ch.val + 64 = 64 + ch.val; omega | ⟨2, _⟩ => by show h.val = 0 + h.val; omega | ⟨3, _⟩ => by show w.val = 0 + w.val; omega

def rowB (x0 : Vec Ideal S1x128x64x128 .f32) (a0 a1 bb : Vec Ideal S1x64x1x1 .f32)
    (ch : Fin 64) (h : Fin 64) (w : Fin 128) : EReal :=
  (a0 (ix4 0 ch 0 0) * x0 (ix4 0 (Cert.Spec.chRe ch) h w) + a1 (ix4 0 ch 0 0) * x0 (ix4 0 (Cert.Spec.chIm ch) h w)) + bb (ix4 0 ch 0 0)

theorem pay3_apply (x0 : Vec Ideal S1x128x64x128 .f32) (a0 a1 bb : Vec Ideal S1x64x1x1 .f32)
    (ch : Fin 64) (h : Fin 64) (w : Fin 128) :
    k1_pay3 (View.ld x0 r1_0) (View.ld a0 r1_1) (View.ld a1 r1_1) (View.ld bb r1_1) (ix4 0 ch h w) = rowB x0 a0 a1 bb ch h w := by
  unfold k1_pay3 k1_pay1 k1_pay2 rowB
  simp only [shapeCast_self, addf_apply, mulf_apply, View.ld_unit_zero (S := S1x64x1x1) hz4, View.ld_unit_zero (S := S1x128x64x128) hz4]
  rw [bcast_apply a0, bcast_apply a1, bcast_apply bb, sliceRe_apply, sliceIm_apply]

theorem pay4_apply (x0 : Vec Ideal S1x128x64x128 .f32) (a0 a1 bb : Vec Ideal S1x64x1x1 .f32)
    (ch : Fin 64) (h : Fin 64) (w : Fin 128) :
    k1_pay4 (View.ld x0 r1_0) (View.ld a0 r1_1) (View.ld a1 r1_1) (View.ld bb r1_1) (ix4 0 ch h w) = rowB x0 a0 a1 bb ch h w := by
  unfold k1_pay4 k1_pay1 k1_pay2 rowB
  simp only [shapeCast_self, addf_apply, mulf_apply, View.ld_unit_zero (S := S1x64x1x1) hz4, View.ld_unit_zero (S := S1x128x64x128) hz4]
  rw [bcast_apply a0, bcast_apply a1, bcast_apply bb, sliceRe_apply, sliceIm_apply]

/-- What the body leaves in the output block, by the stored channel: the first 64 channels by the first row of
    coefficients, the last 64 by the second. -/
def Gblk (x0 : Vec Ideal S1x128x64x128 .f32) (x1 x2 x3 x4 x5 x6 : Vec Ideal S1x64x1x1 .f32) : S1x128x64x128.Idx → EReal := fun y =>
  if hlt : (y 1).val < 64 then rowB x0 x1 x2 x5 ⟨(y 1).val, hlt⟩ (y 2) (y 3)
  else rowB x0 x3 x4 x6 ⟨(y 1).val - 64, by have h128 : (y 1).val < 128 := (y 1).isLt; omega⟩ (y 2) (y 3)

theorem Gblk_re (x0 : Vec Ideal S1x128x64x128 .f32) (x1 x2 x3 x4 x5 x6 : Vec Ideal S1x64x1x1 .f32) (ch h : Fin 64) (w : Fin 128) :
    Gblk x0 x1 x2 x3 x4 x5 x6 (ix4 0 (Cert.Spec.chRe ch) h w) = rowB x0 x1 x2 x5 ch h w := by
  unfold Gblk
  rw [dif_pos (show ((ix4 (0 : Fin 1) (Cert.Spec.chRe ch) h w : S1x128x64x128.Idx) 1).val < 64 from ch.isLt)]
  rfl

theorem Gblk_im (x0 : Vec Ideal S1x128x64x128 .f32) (x1 x2 x3 x4 x5 x6 : Vec Ideal S1x64x1x1 .f32) (ch h : Fin 64) (w : Fin 128) :
    Gblk x0 x1 x2 x3 x4 x5 x6 (ix4 0 (Cert.Spec.chIm ch) h w) = rowB x0 x3 x4 x6 ch h w := by
  unfold Gblk
  rw [dif_neg (show ¬ ((ix4 (0 : Fin 1) (Cert.Spec.chIm ch) h w : S1x128x64x128.Idx) 1).val < 64 from by
    show ¬ (ch.val + 64 < 64); omega)]
  exact congrArg (fun cc => rowB x0 x3 x4 x6 cc h w) (Fin.ext (by show ch.val + 64 - 64 = ch.val; omega))

theorem emb2 (a : Fin 1) (ch h : Fin 64) (w : Fin 128) :
    r1_2.emb (ix4 a ch h w) = ix4 0 (Cert.Spec.chRe ch) h w := by
  funext b; apply Fin.ext
  match b with
  | ⟨0, _⟩ => show 0 + 1 * a.val = 0; omega
  | ⟨1, _⟩ => show 0 + 1 * ch.val = ch.val; omega
  | ⟨2, _⟩ => show 0 + 1 * h.val = h.val; omega
  | ⟨3, _⟩ => show 0 + 1 * w.val = w.val; omega

theorem emb3 (a : Fin 1) (ch h : Fin 64) (w : Fin 128) :
    r1_3.emb (ix4 a ch h w) = ix4 0 (Cert.Spec.chIm ch) h w := by
  funext b; apply Fin.ext
  match b with
  | ⟨0, _⟩ => show 0 + 1 * a.val = 0; omega
  | ⟨1, _⟩ => show 64 + 1 * ch.val = ch.val + 64; omega
  | ⟨2, _⟩ => show 0 + 1 * h.val = h.val; omega
  | ⟨3, _⟩ => show 0 + 1 * w.val = w.val; omega

/-- The two stores lay the block down as `Gblk`: each store's value at its own index is `Gblk` at the block index under it. -/
theorem out1_7_eq (x0 : Vec Ideal S1x128x64x128 .f32) (x1 x2 x3 x4 x5 x6 : Vec Ideal S1x64x1x1 .f32) :
    out1_7 x0 x1 x2 x3 x4 x5 x6 = Gblk x0 x1 x2 x3 x4 x5 x6 := by
  funext y
  unfold out1_7
  refine View.canon_apply_of_pieces (Val := Elt Ideal) (S := S1x128x64x128) (e := .f32) (Gblk x0 x1 x2 x3 x4 x5 x6) _ ?_ y (cover1_7 _ _ y)
  intro p hp
  simp only [List.mem_cons, List.not_mem_nil, or_false] at hp
  rcases hp with rfl | rfl
  · intro x
    obtain ⟨a, ch, h, w, rfl⟩ : ∃ (a : Fin 1) (ch h : Fin 64) (w : Fin 128), x = ix4 a ch h w := ⟨x 0, x 1, x 2, x 3, eq_ix4 x⟩
    obtain rfl : a = 0 := Subsingleton.elim _ _
    show k1_pay4 (F := Ideal) _ _ _ _ (ix4 0 ch h w) = Gblk x0 x1 x2 x3 x4 x5 x6 (r1_3.emb (ix4 0 ch h w))
    rw [emb3, Gblk_im, pay4_apply]
  · intro x
    obtain ⟨a, ch, h, w, rfl⟩ : ∃ (a : Fin 1) (ch h : Fin 64) (w : Fin 128), x = ix4 a ch h w := ⟨x 0, x 1, x 2, x 3, eq_ix4 x⟩
    obtain rfl : a = 0 := Subsingleton.elim _ _
    show k1_pay3 (F := Ideal) _ _ _ _ (ix4 0 ch h w) = Gblk x0 x1 x2 x3 x4 x5 x6 (r1_2.emb (ix4 0 ch h w))
    rw [emb2, Gblk_re, pay3_apply]

/-- The printed index maps over the 64 points: the input block moves with the output block (batch on axis 0, half of the
    rows on axis 2, nothing on the channel and column axes), and each coefficient window stays at block 0. -/
theorem idx_facts : ∀ t : Fin cfg1.N,
    win1_7.index t (0 : Fin 4) < 32 ∧ win1_7.index t (1 : Fin 4) = 0 ∧ win1_7.index t (2 : Fin 4) < 2 ∧ win1_7.index t (3 : Fin 4) = 0
    ∧ win1_0.index t (0 : Fin 4) = win1_7.index t (0 : Fin 4) ∧ win1_0.index t (1 : Fin 4) = 0
    ∧ win1_0.index t (2 : Fin 4) = win1_7.index t (2 : Fin 4) ∧ win1_0.index t (3 : Fin 4) = 0
    ∧ (∀ a : Fin 4, win1_1.index t a = 0) ∧ (∀ a : Fin 4, win1_2.index t a = 0) ∧ (∀ a : Fin 4, win1_3.index t a = 0)
    ∧ (∀ a : Fin 4, win1_4.index t a = 0) ∧ (∀ a : Fin 4, win1_5.index t a = 0) ∧ (∀ a : Fin 4, win1_6.index t a = 0) :=
  (by decide +kernel : ∀ t : Fin grid1.N, _)

/-- Every (batch, half) pair is some point's output block. -/
theorem idx_onto : ∀ (q0 : Fin 32) (q2 : Fin 2), ∃ t : Fin cfg1.N, win1_7.index t (0 : Fin 4) = q0.val ∧ win1_7.index t (2 : Fin 4) = q2.val :=
  (by decide +kernel : ∀ (q0 : Fin 32) (q2 : Fin 2), ∃ t : Fin grid1.N, win1_7.index t (0 : Fin 4) = q0.val ∧ win1_7.index t (2 : Fin 4) = q2.val)

/-- The input block at a point, at a block index: the input array at the array index the block's rectangle puts it at. -/
theorem iblk0_apply (c : Dev nD) (t : Fin cfg1.N) (cs : Fin 128) (h : Fin 64) (w : Fin 128) (k : Cert.Spec.SX.Idx)
    (hk0 : (k 0).val = win1_7.index t (0 : Fin 4)) (hk1 : (k 1).val = cs.val)
    (hk2 : (k 2).val = win1_7.index t (2 : Fin 4) * 64 + h.val) (hk3 : (k 3).val = w.val) :
    (iblk1 V c 0 t : Vec Ideal S1x128x64x128 .f32) (ix4 0 cs h w) = xin V c k := by
  obtain ⟨-, -, -, -, e0, e1, e2, e3, -⟩ := idx_facts t
  unfold iblk1
  rw [View.read_apply]
  show V c main_arg0 _ = V c main_arg0 _
  congr 1
  funext a
  apply Fin.ext
  match a with
  | ⟨0, _⟩ => show win1_0.index t (0 : Fin 4) * 1 + 1 * 0 = (k 0).val; rw [e0, hk0]; omega
  | ⟨1, _⟩ => show win1_0.index t (1 : Fin 4) * 128 + 1 * cs.val = (k 1).val; rw [e1, hk1]; omega
  | ⟨2, _⟩ => show win1_0.index t (2 : Fin 4) * 64 + 1 * h.val = (k 2).val; rw [e2, hk2]; omega
  | ⟨3, _⟩ => show win1_0.index t (3 : Fin 4) * 128 + 1 * w.val = (k 3).val; rw [e3, hk3]; omega

/-- Coefficient window 1's block at any point is the whole coefficient array. -/
theorem iblk1_apply (c : Dev nD) (t : Fin cfg1.N) (ch : Fin 64) :
    (iblk1 V c 1 t : Vec Ideal S1x64x1x1 .f32) (ix4 0 ch 0 0) = k85 V c ch := by
  obtain ⟨-, -, -, -, -, -, -, -, e, -, -, -, -, -⟩ := idx_facts t
  unfold iblk1
  rw [View.read_apply]
  show V c main_v85 _ = V c main_v85 _
  congr 1
  funext a
  apply Fin.ext
  match a with
  | ⟨0, _⟩ => show win1_1.index t (0 : Fin 4) * 1 + 1 * 0 = 0; rw [e (0 : Fin 4)]
  | ⟨1, _⟩ => show win1_1.index t (1 : Fin 4) * 64 + 1 * ch.val = ch.val; rw [e (1 : Fin 4)]; omega
  | ⟨2, _⟩ => show win1_1.index t (2 : Fin 4) * 1 + 1 * 0 = 0; rw [e (2 : Fin 4)]
  | ⟨3, _⟩ => show win1_1.index t (3 : Fin 4) * 1 + 1 * 0 = 0; rw [e (3 : Fin 4)]

/-- Coefficient window 2's block at any point is the whole coefficient array. -/
theorem iblk2_apply (c : Dev nD) (t : Fin cfg1.N) (ch : Fin 64) :
    (iblk1 V c 2 t : Vec Ideal S1x64x1x1 .f32) (ix4 0 ch 0 0) = k86 V c ch := by
  obtain ⟨-, -, -, -, -, -, -, -, -, e, -, -, -, -⟩ := idx_facts t
  unfold iblk1
  rw [View.read_apply]
  show V c main_v86 _ = V c main_v86 _
  congr 1
  funext a
  apply Fin.ext
  match a with
  | ⟨0, _⟩ => show win1_2.index t (0 : Fin 4) * 1 + 1 * 0 = 0; rw [e (0 : Fin 4)]
  | ⟨1, _⟩ => show win1_2.index t (1 : Fin 4) * 64 + 1 * ch.val = ch.val; rw [e (1 : Fin 4)]; omega
  | ⟨2, _⟩ => show win1_2.index t (2 : Fin 4) * 1 + 1 * 0 = 0; rw [e (2 : Fin 4)]
  | ⟨3, _⟩ => show win1_2.index t (3 : Fin 4) * 1 + 1 * 0 = 0; rw [e (3 : Fin 4)]

/-- Coefficient window 3's block at any point is the whole coefficient array. -/
theorem iblk3_apply (c : Dev nD) (t : Fin cfg1.N) (ch : Fin 64) :
    (iblk1 V c 3 t : Vec Ideal S1x64x1x1 .f32) (ix4 0 ch 0 0) = k87 V c ch := by
  obtain ⟨-, -, -, -, -, -, -, -, -, -, e, -, -, -⟩ := idx_facts t
  unfold iblk1
  rw [View.read_apply]
  show V c main_v87 _ = V c main_v87 _
  congr 1
  funext a
  apply Fin.ext
  match a with
  | ⟨0, _⟩ => show win1_3.index t (0 : Fin 4) * 1 + 1 * 0 = 0; rw [e (0 : Fin 4)]
  | ⟨1, _⟩ => show win1_3.index t (1 : Fin 4) * 64 + 1 * ch.val = ch.val; rw [e (1 : Fin 4)]; omega
  | ⟨2, _⟩ => show win1_3.index t (2 : Fin 4) * 1 + 1 * 0 = 0; rw [e (2 : Fin 4)]
  | ⟨3, _⟩ => show win1_3.index t (3 : Fin 4) * 1 + 1 * 0 = 0; rw [e (3 : Fin 4)]

/-- Coefficient window 4's block at any point is the whole coefficient array. -/
theorem iblk4_apply (c : Dev nD) (t : Fin cfg1.N) (ch : Fin 64) :
    (iblk1 V c 4 t : Vec Ideal S1x64x1x1 .f32) (ix4 0 ch 0 0) = k88 V c ch := by
  obtain ⟨-, -, -, -, -, -, -, -, -, -, -, e, -, -⟩ := idx_facts t
  unfold iblk1
  rw [View.read_apply]
  show V c main_v88 _ = V c main_v88 _
  congr 1
  funext a
  apply Fin.ext
  match a with
  | ⟨0, _⟩ => show win1_4.index t (0 : Fin 4) * 1 + 1 * 0 = 0; rw [e (0 : Fin 4)]
  | ⟨1, _⟩ => show win1_4.index t (1 : Fin 4) * 64 + 1 * ch.val = ch.val; rw [e (1 : Fin 4)]; omega
  | ⟨2, _⟩ => show win1_4.index t (2 : Fin 4) * 1 + 1 * 0 = 0; rw [e (2 : Fin 4)]
  | ⟨3, _⟩ => show win1_4.index t (3 : Fin 4) * 1 + 1 * 0 = 0; rw [e (3 : Fin 4)]

/-- Coefficient window 5's block at any point is the whole coefficient array. -/
theorem iblk5_apply (c : Dev nD) (t : Fin cfg1.N) (ch : Fin 64) :
    (iblk1 V c 5 t : Vec Ideal S1x64x1x1 .f32) (ix4 0 ch 0 0) = k89 V c ch := by
  obtain ⟨-, -, -, -, -, -, -, -, -, -, -, -, e, -⟩ := idx_facts t
  unfold iblk1
  rw [View.read_apply]
  show V c main_v89 _ = V c main_v89 _
  congr 1
  funext a
  apply Fin.ext
  match a with
  | ⟨0, _⟩ => show win1_5.index t (0 : Fin 4) * 1 + 1 * 0 = 0; rw [e (0 : Fin 4)]
  | ⟨1, _⟩ => show win1_5.index t (1 : Fin 4) * 64 + 1 * ch.val = ch.val; rw [e (1 : Fin 4)]; omega
  | ⟨2, _⟩ => show win1_5.index t (2 : Fin 4) * 1 + 1 * 0 = 0; rw [e (2 : Fin 4)]
  | ⟨3, _⟩ => show win1_5.index t (3 : Fin 4) * 1 + 1 * 0 = 0; rw [e (3 : Fin 4)]

/-- Coefficient window 6's block at any point is the whole coefficient array. -/
theorem iblk6_apply (c : Dev nD) (t : Fin cfg1.N) (ch : Fin 64) :
    (iblk1 V c 6 t : Vec Ideal S1x64x1x1 .f32) (ix4 0 ch 0 0) = k90 V c ch := by
  obtain ⟨-, -, -, -, -, -, -, -, -, -, -, -, -, e⟩ := idx_facts t
  unfold iblk1
  rw [View.read_apply]
  show V c main_v90 _ = V c main_v90 _
  congr 1
  funext a
  apply Fin.ext
  match a with
  | ⟨0, _⟩ => show win1_6.index t (0 : Fin 4) * 1 + 1 * 0 = 0; rw [e (0 : Fin 4)]
  | ⟨1, _⟩ => show win1_6.index t (1 : Fin 4) * 64 + 1 * ch.val = ch.val; rw [e (1 : Fin 4)]; omega
  | ⟨2, _⟩ => show win1_6.index t (2 : Fin 4) * 1 + 1 * 0 = 0; rw [e (2 : Fin 4)]
  | ⟨3, _⟩ => show win1_6.index t (3 : Fin 4) * 1 + 1 * 0 = 0; rw [e (3 : Fin 4)]

/-- One element of the result, from the arrays as the region finds them. -/
def rowA (c : Dev nD) (a0 a1 bb : Fin 64 → EReal) (ch : Fin 64) (b : Fin 32) (h w : Fin 128) : EReal :=
  (a0 ch * Cert.Spec.xr (xin V c) ch b h w + a1 ch * Cert.Spec.xi (xin V c) ch b h w) + bb ch

/-- The whole result array: stored channels 0..63 by the first row of coefficients, 64..127 by the second. -/
def G (c : Dev nD) : S32x128x128x128.Idx → EReal := fun i =>
  if hlt : (i 1).val < 64 then rowA V c (k85 V c) (k86 V c) (k89 V c) ⟨(i 1).val, hlt⟩ (i 0) (i 2) (i 3)
  else rowA V c (k87 V c) (k88 V c) (k90 V c) ⟨(i 1).val - 64, by have h128 : (i 1).val < 128 := (i 1).isLt; omega⟩ (i 0) (i 2) (i 3)

theorem G_re (c : Dev nD) (b : Fin 32) (ch : Fin 64) (h w : Fin 128) :
    G V c (ix4 b (Cert.Spec.chRe ch) h w) = rowA V c (k85 V c) (k86 V c) (k89 V c) ch b h w := by
  unfold G
  rw [dif_pos (show ((ix4 b (Cert.Spec.chRe ch) h w : S32x128x128x128.Idx) 1).val < 64 from ch.isLt)]
  rfl

theorem G_im (c : Dev nD) (b : Fin 32) (ch : Fin 64) (h w : Fin 128) :
    G V c (ix4 b (Cert.Spec.chIm ch) h w) = rowA V c (k87 V c) (k88 V c) (k90 V c) ch b h w := by
  unfold G
  rw [dif_neg (show ¬ ((ix4 b (Cert.Spec.chIm ch) h w : S32x128x128x128.Idx) 1).val < 64 from by
    show ¬ (ch.val + 64 < 64); omega)]
  exact congrArg (fun cc => rowA V c (k87 V c) (k88 V c) (k90 V c) cc b h w) (Fin.ext (by show ch.val + 64 - 64 = ch.val; omega))

/-- At a point, the block function of the point's input blocks at a first-half channel is the whole-array function at the
    array index under it (batch = the point's batch, row = the point's half of the rows plus the row inside the block). -/
theorem point_re (c : Dev nD) (t : Fin cfg1.N) (ch h : Fin 64) (w : Fin 128) (b : Fin 32) (hr : Fin 128)
    (hb : b.val = win1_7.index t (0 : Fin 4)) (hh : hr.val = win1_7.index t (2 : Fin 4) * 64 + h.val) :
    Gblk (iblk1 V c 0 t) (iblk1 V c 1 t) (iblk1 V c 2 t) (iblk1 V c 3 t) (iblk1 V c 4 t) (iblk1 V c 5 t) (iblk1 V c 6 t) (ix4 0 (Cert.Spec.chRe ch) h w)
      = G V c (ix4 b (Cert.Spec.chRe ch) hr w) := by
  rw [Gblk_re, G_re]
  unfold rowB rowA Cert.Spec.xr Cert.Spec.xi
  rw [iblk1_apply, iblk2_apply, iblk5_apply,
    iblk0_apply V c t (Cert.Spec.chRe ch) h w (ix4 b (Cert.Spec.chRe ch) hr w) hb rfl hh rfl,
    iblk0_apply V c t (Cert.Spec.chIm ch) h w (ix4 b (Cert.Spec.chIm ch) hr w) hb rfl hh rfl]

/-- The same at a second-half channel. -/
theorem point_im (c : Dev nD) (t : Fin cfg1.N) (ch h : Fin 64) (w : Fin 128) (b : Fin 32) (hr : Fin 128)
    (hb : b.val = win1_7.index t (0 : Fin 4)) (hh : hr.val = win1_7.index t (2 : Fin 4) * 64 + h.val) :
    Gblk (iblk1 V c 0 t) (iblk1 V c 1 t) (iblk1 V c 2 t) (iblk1 V c 3 t) (iblk1 V c 4 t) (iblk1 V c 5 t) (iblk1 V c 6 t) (ix4 0 (Cert.Spec.chIm ch) h w)
      = G V c (ix4 b (Cert.Spec.chIm ch) hr w) := by
  rw [Gblk_im, G_im]
  unfold rowB rowA Cert.Spec.xr Cert.Spec.xi
  rw [iblk3_apply, iblk4_apply, iblk6_apply,
    iblk0_apply V c t (Cert.Spec.chRe ch) h w (ix4 b (Cert.Spec.chRe ch) hr w) hb rfl hh rfl,
    iblk0_apply V c t (Cert.Spec.chIm ch) h w (ix4 b (Cert.Spec.chIm ch) hr w) hb rfl hh rfl]

/-- The output block's index under a block index: on each axis the block index times the block size plus the index inside. -/
theorem emb7_val (t : Fin cfg1.N) (y : S1x128x64x128.Idx) (a : Fin 4) :
    ((((cfg1.win 7).blk t).view.emb y) a : Nat) = win1_7.index t a * S1x128x64x128.size a + (y a).val :=
  win1_7.rect_emb_val t y a

/-- What a point writes back is its block of the whole-array function. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7, out1_7_eq]
  obtain ⟨f0, f1, f2, f3, -⟩ := idx_facts t
  funext j
  rw [View.read_apply]
  show Gblk (iblk1 V c 0 t) (iblk1 V c 1 t) (iblk1 V c 2 t) (iblk1 V c 3 t) (iblk1 V c 4 t) (iblk1 V c 5 t) (iblk1 V c 6 t) j
    = G V c (((cfg1.win 7).blk t).view.emb j)
  obtain ⟨a, cs, h, w, rfl⟩ : ∃ (a : Fin 1) (cs : Fin 128) (h : Fin 64) (w : Fin 128), j = (ix4 a cs h w : S1x128x64x128.Idx) :=
    ⟨j 0, j 1, j 2, j 3, eq_ix4 j⟩
  obtain rfl : a = 0 := Subsingleton.elim _ _
  have e0 := emb7_val t (ix4 0 cs h w) 0
  have e1 := emb7_val t (ix4 0 cs h w) 1
  have e2 := emb7_val t (ix4 0 cs h w) 2
  have e3 := emb7_val t (ix4 0 cs h w) 3
  by_cases hlt : cs.val < 64
  · have hcs : cs = Cert.Spec.chRe ⟨cs.val, hlt⟩ := Fin.ext rfl
    have hemb : ((cfg1.win 7).blk t).view.emb (ix4 0 cs h w)
        = ix4 (⟨win1_7.index t (0 : Fin 4), f0⟩ : Fin 32) (Cert.Spec.chRe ⟨cs.val, hlt⟩)
            (⟨win1_7.index t (2 : Fin 4) * 64 + h.val, by have := h.isLt; omega⟩ : Fin 128) w := by
      funext a; apply Fin.ext
      match a with
      | ⟨0, _⟩ => refine e0.trans ?_; show win1_7.index t (0 : Fin 4) * 1 + 0 = win1_7.index t (0 : Fin 4); omega
      | ⟨1, _⟩ => refine e1.trans ?_; show win1_7.index t (1 : Fin 4) * 128 + cs.val = cs.val; rw [f1]; omega
      | ⟨2, _⟩ => refine e2.trans ?_; show win1_7.index t (2 : Fin 4) * 64 + h.val = win1_7.index t (2 : Fin 4) * 64 + h.val; rfl
      | ⟨3, _⟩ => refine e3.trans ?_; show win1_7.index t (3 : Fin 4) * 128 + w.val = w.val; rw [f3]; omega
    rw [hemb]
    conv_lhs => rw [hcs]
    exact point_re V c t _ h w _ _ rfl rfl
  · have h128 : cs.val < 128 := cs.isLt
    have hcs : cs = Cert.Spec.chIm ⟨cs.val - 64, by omega⟩ := Fin.ext (by show cs.val = cs.val - 64 + 64; omega)
    have hemb : ((cfg1.win 7).blk t).view.emb (ix4 0 cs h w)
        = ix4 (⟨win1_7.index t (0 : Fin 4), f0⟩ : Fin 32) (Cert.Spec.chIm ⟨cs.val - 64, by omega⟩)
            (⟨win1_7.index t (2 : Fin 4) * 64 + h.val, by have := h.isLt; omega⟩ : Fin 128) w := by
      funext a; apply Fin.ext
      match a with
      | ⟨0, _⟩ => refine e0.trans ?_; show win1_7.index t (0 : Fin 4) * 1 + 0 = win1_7.index t (0 : Fin 4); omega
      | ⟨1, _⟩ => refine e1.trans ?_; show win1_7.index t (1 : Fin 4) * 128 + cs.val = cs.val - 64 + 64; rw [f1]; omega
      | ⟨2, _⟩ => refine e2.trans ?_; show win1_7.index t (2 : Fin 4) * 64 + h.val = win1_7.index t (2 : Fin 4) * 64 + h.val; rfl
      | ⟨3, _⟩ => refine e3.trans ?_; show win1_7.index t (3 : Fin 4) * 128 + w.val = w.val; rw [f3]; omega
    rw [hemb]
    conv_lhs => rw [hcs]
    exact point_im V c t _ h w _ _ rfl rfl

/-- An index of the array is in a point's block iff each coordinate is in the block's range on its axis. -/
theorem mem_blk (t : Fin cfg1.N) (i : S32x128x128x128.Idx) :
    i ∈ ((cfg1.win 7).blk t).view.set ↔ ∀ a : Fin 4, win1_7.index t a * S1x128x64x128.size a ≤ (i a).val
      ∧ (i a).val < win1_7.index t a * S1x128x64x128.size a + S1x128x64x128.size a := by
  show i ∈ ((View.whole main_v91).slice (win1_7.rect t)).set ↔ _
  rw [View.set_slice_whole, Rect.mem_set_unit]
  exact Iff.rfl

/-- Every index is in some point's block: batch b and row h lie in the block of the point with that batch and the half h / 64. -/
theorem cover (i : S32x128x128x128.Idx) :
    ∃ t : Fin cfg1.N, (cfg1.win 7).flush t = true ∧ i ∈ ((cfg1.win 7).blk t).view.set := by
  have hi0 : (i 0).val < 32 := (i 0).isLt
  have hi1 : (i 1).val < 128 := (i 1).isLt
  have hi2 : (i 2).val < 128 := (i 2).isLt
  have hi3 : (i 3).val < 128 := (i 3).isLt
  obtain ⟨t, ht0, ht2⟩ := idx_onto ⟨(i 0).val, hi0⟩ ⟨(i 2).val / 64, by omega⟩
  obtain ⟨-, f1, -, f3, -⟩ := idx_facts t
  have q0 : win1_7.index t (0 : Fin 4) = (i 0).val := ht0
  have q2 : win1_7.index t (2 : Fin 4) = (i 2).val / 64 := ht2
  refine ⟨t, flush1_7 t, ?_⟩
  rw [mem_blk]
  intro a
  match a with
  | ⟨0, _⟩ => show win1_7.index t (0 : Fin 4) * 1 ≤ (i 0).val ∧ (i 0).val < win1_7.index t (0 : Fin 4) * 1 + 1; omega
  | ⟨1, _⟩ => show win1_7.index t (1 : Fin 4) * 128 ≤ (i 1).val ∧ (i 1).val < win1_7.index t (1 : Fin 4) * 128 + 128; omega
  | ⟨2, _⟩ => show win1_7.index t (2 : Fin 4) * 64 ≤ (i 2).val ∧ (i 2).val < win1_7.index t (2 : Fin 4) * 64 + 64; omega
  | ⟨3, _⟩ => show win1_7.index t (3 : Fin 4) * 128 ≤ (i 3).val ∧ (i 3).val < win1_7.index t (3 : Fin 4) * 128 + 128; omega

/-- The array after the region is the whole-array function. -/
theorem final7 (c : Dev nD) : (dat1 V c).arrAt 7 cfg1.N = G V c :=
  (dat1 V c).arrAt_eq_of_cover 7 (G V c) (fun t _ => flushed_eq V c t) cover

theorem final7_re (c : Dev nD) (b : Fin 32) (ch : Fin 64) (h w : Fin 128) :
    ((dat1 V c).arrAt 7 cfg1.N : S32x128x128x128.Idx → EReal) (ix4 b (Cert.Spec.chRe ch) h w)
      = (k85 V c ch * Cert.Spec.xr (xin V c) ch b h w + k86 V c ch * Cert.Spec.xi (xin V c) ch b h w) + k89 V c ch := by
  rw [final7, G_re]
  rfl

theorem final7_im (c : Dev nD) (b : Fin 32) (ch : Fin 64) (h w : Fin 128) :
    ((dat1 V c).arrAt 7 cfg1.N : S32x128x128x128.Idx → EReal) (ix4 b (Cert.Spec.chIm ch) h w)
      = (k87 V c ch * Cert.Spec.xr (xin V c) ch b h w + k88 V c ch * Cert.Spec.xi (xin V c) ch b h w) + k90 V c ch := by
  rw [final7, G_im]
  rfl

end Cert.KernelIdeal.Reg1

end
-- ==== Proof.KValue.lean ====
/-
  The kernel's result array as one function of the three arguments.

  Read back from the last boundary of the run: the second region's output array is, element by element, the affine
  map of the input with the six per-channel coefficients it finds; those are what the host stretch between the regions
  computes, per channel, from the five channel sums; and those are what the first region leaves. No operation on the
  way writes the input array, gamma or beta, so every read of them is a read of the launch contents.
-/
import proofs.«146568_j43499428774583_1_alg».proof.Proof.Gen.KernelIdeal.Frame
import proofs.«146568_j43499428774583_1_alg».proof.Proof.Spec
import proofs.«146568_j43499428774583_1_alg».proof.Proof.KRun
import proofs.«146568_j43499428774583_1_alg».proof.Proof.KReg0
import proofs.«146568_j43499428774583_1_alg».proof.Proof.KHost
import proofs.«146568_j43499428774583_1_alg».proof.Proof.KReg1
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- The three arguments at launch. -/
abbrev xa (c : Dev nD) : Cert.Spec.SX.Idx → EReal := m ((c.tc : Thread nD τ).loc main_arg0)
abbrev ga (c : Dev nD) : Cert.Spec.SG.Idx → EReal := m ((c.tc : Thread nD τ).loc main_arg1)
abbrev ba (c : Dev nD) : Cert.Spec.SB.Idx → EReal := m ((c.tc : Thread nD τ).loc main_arg2)

/-! ## After the first region -/

/-- The input array is as launched (the region only reads it). -/
theorem W1_arg0 (c : Dev nD) : W1 m ρ c (Proc.devRef .tc main_arg0) = m ((c.tc : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c.tc : Thread nD τ).loc main_arg1) :=
  W1_of_ne m ρ c main_arg1 (by decide)
theorem W1_arg2 (c : Dev nD) : W1 m ρ c (Proc.devRef .tc main_arg2) = m ((c.tc : Thread nD τ).loc main_arg2) :=
  W1_of_ne m ρ c main_arg2 (by decide)

/-- The five output arrays hold the five channel sums of the launch input. -/
theorem S0_eq (c : Dev nD) (ch : Fin 64) : HostMid.S0 (W1 m ρ c) ch = Cert.Spec.sR (xa m c) ch :=
  (congrFun (W1_arr m ρ c 1) (ix1 ch)).trans (Reg0.final1 (V0 m ρ) c ch)
theorem S1_eq (c : Dev nD) (ch : Fin 64) : HostMid.S1 (W1 m ρ c) ch = Cert.Spec.sRR (xa m c) ch :=
  (congrFun (W1_arr m ρ c 2) (ix1 ch)).trans (Reg0.final2 (V0 m ρ) c ch)
theorem S2_eq (c : Dev nD) (ch : Fin 64) : HostMid.S2 (W1 m ρ c) ch = Cert.Spec.sI (xa m c) ch :=
  (congrFun (W1_arr m ρ c 3) (ix1 ch)).trans (Reg0.final3 (V0 m ρ) c ch)
theorem S3_eq (c : Dev nD) (ch : Fin 64) : HostMid.S3 (W1 m ρ c) ch = Cert.Spec.sII (xa m c) ch :=
  (congrFun (W1_arr m ρ c 4) (ix1 ch)).trans (Reg0.final4 (V0 m ρ) c ch)
theorem S4_eq (c : Dev nD) (ch : Fin 64) : HostMid.S4 (W1 m ρ c) ch = Cert.Spec.sRI (xa m c) ch :=
  (congrFun (W1_arr m ρ c 5) (ix1 ch)).trans (Reg0.final5 (V0 m ρ) c ch)

/-- So the host stretch's covariances and coefficients are the specification's, of the launch arguments. -/
theorem cRR_eq (c : Dev nD) (ch : Fin 64) : HostMid.cRR (W1 m ρ c) ch = Cert.Spec.cRRK (xa m c) ch := by
  unfold HostMid.cRR Cert.Spec.cRRK; rw [S0_eq, S1_eq]
theorem cII_eq (c : Dev nD) (ch : Fin 64) : HostMid.cII (W1 m ρ c) ch = Cert.Spec.cIIK (xa m c) ch := by
  unfold HostMid.cII Cert.Spec.cIIK; rw [S2_eq, S3_eq]
theorem cRI_eq (c : Dev nD) (ch : Fin 64) : HostMid.cRI (W1 m ρ c) ch = Cert.Spec.cRIK (xa m c) ch := by
  unfold HostMid.cRI Cert.Spec.cRIK; rw [S0_eq, S2_eq, S4_eq]

theorem G_eq (c : Dev nD) (ch : Fin 64) (r k : Fin 2) : HostMid.G (W1 m ρ c) ch r k = ga m c (ix3 ch r k) :=
  congrFun (W1_arg1 m ρ c) (ix3 ch r k)
theorem B_eq (c : Dev nD) (ch : Fin 64) (r : Fin 2) : HostMid.B (W1 m ρ c) ch r = ba m c (ix3 ch r 0) :=
  congrFun (W1_arg2 m ρ c) (ix3 ch r 0)

theorem aL_eq (c : Dev nD) (ch : Fin 64) (r : Fin 2) : HostMid.aL (W1 m ρ c) ch r
    = Cert.Spec.aL (Cert.Spec.cRRK (xa m c) ch) (Cert.Spec.cIIK (xa m c) ch) (Cert.Spec.cRIK (xa m c) ch) (ga m c (ix3 ch r 0)) (ga m c (ix3 ch r 1)) := by
  unfold HostMid.aL; rw [cRR_eq, cII_eq, cRI_eq, G_eq, G_eq]
theorem aR_eq (c : Dev nD) (ch : Fin 64) (r : Fin 2) : HostMid.aR (W1 m ρ c) ch r
    = Cert.Spec.aR (Cert.Spec.cRRK (xa m c) ch) (Cert.Spec.cIIK (xa m c) ch) (Cert.Spec.cRIK (xa m c) ch) (ga m c (ix3 ch r 0)) (ga m c (ix3 ch r 1)) := by
  unfold HostMid.aR; rw [cRR_eq, cII_eq, cRI_eq, G_eq, G_eq]

/-! ## At the second region's entry -/

theorem V2_arg0 (c : Dev nD) : Reg1.xin (V2 m ρ) c = xa m c :=
  (HostMid.arg0_kept (W1 m ρ c)).trans (W1_arg0 m ρ c)

theorem k85_eq (c : Dev nD) (ch : Fin 64) : Reg1.k85 (V2 m ρ) c ch = HostMid.aL (W1 m ρ c) ch 0 := HostMid.v85 (W1 m ρ c) ch
theorem k86_eq (c : Dev nD) (ch : Fin 64) : Reg1.k86 (V2 m ρ) c ch = HostMid.aR (W1 m ρ c) ch 0 := HostMid.v86 (W1 m ρ c) ch
theorem k87_eq (c : Dev nD) (ch : Fin 64) : Reg1.k87 (V2 m ρ) c ch = HostMid.aL (W1 m ρ c) ch 1 := HostMid.v87 (W1 m ρ c) ch
theorem k88_eq (c : Dev nD) (ch : Fin 64) : Reg1.k88 (V2 m ρ) c ch = HostMid.aR (W1 m ρ c) ch 1 := HostMid.v88 (W1 m ρ c) ch
theorem k89_eq (c : Dev nD) (ch : Fin 64) : Reg1.k89 (V2 m ρ) c ch
    = Cert.Spec.biasK (HostMid.aL (W1 m ρ c) ch 0) (HostMid.aR (W1 m ρ c) ch 0) (HostMid.B (W1 m ρ c) ch 0)
        (Ideal.div (HostMid.S0 (W1 m ρ c) ch) Cert.Spec.nn) (Ideal.div (HostMid.S2 (W1 m ρ c) ch) Cert.Spec.nn) := HostMid.v89 (W1 m ρ c) ch
theorem k90_eq (c : Dev nD) (ch : Fin 64) : Reg1.k90 (V2 m ρ) c ch
    = Cert.Spec.biasK (HostMid.aL (W1 m ρ c) ch 1) (HostMid.aR (W1 m ρ c) ch 1) (HostMid.B (W1 m ρ c) ch 1)
        (Ideal.div (HostMid.S0 (W1 m ρ c) ch) Cert.Spec.nn) (Ideal.div (HostMid.S2 (W1 m ρ c) ch) Cert.Spec.nn) := HostMid.v90 (W1 m ρ c) ch

/-! ## The result array -/

/-- The real half: stored channel `ch`. -/
theorem result_re (c : Dev nD) (b : Fin 32) (ch : Fin 64) (h w : Fin 128) :
    (W3 m ρ c (Proc.devRef .tc main_v91) : S32x128x128x128.Idx → EReal) (ix4 b (Cert.Spec.chRe ch) h w)
      = Cert.Spec.yK (xa m c) (ga m c) (ba m c) 0 ch b h w := by
  have e := Reg1.final7_re (V2 m ρ) c b ch h w
  rw [V2_arg0, k85_eq, k86_eq, k89_eq, aL_eq, aR_eq, B_eq, S0_eq, S2_eq] at e
  exact (congrFun (W3_arr m ρ c 7) (ix4 b (Cert.Spec.chRe ch) h w)).trans e

/-- The imaginary half: stored channel `ch + 64`. -/
theorem result_im (c : Dev nD) (b : Fin 32) (ch : Fin 64) (h w : Fin 128) :
    (W3 m ρ c (Proc.devRef .tc main_v91) : S32x128x128x128.Idx → EReal) (ix4 b (Cert.Spec.chIm ch) h w)
      = Cert.Spec.yK (xa m c) (ga m c) (ba m c) 1 ch b h w := by
  have e := Reg1.final7_im (V2 m ρ) c b ch h w
  rw [V2_arg0, k87_eq, k88_eq, k90_eq, aL_eq, aR_eq, B_eq, S0_eq, S2_eq] at e
  exact (congrFun (W3_arr m ρ c 7) (ix4 b (Cert.Spec.chIm ch) h w)).trans e

/-- The whole result array is the specification's raw-moment arrangement of the launch arguments. -/
theorem result_eq (c : Dev nD) :
    (W3 m ρ c (Proc.devRef .tc main_v91) : Cert.Spec.SX.Idx → EReal) = Cert.Spec.outK (xa m c) (ga m c) (ba m c) := by
  funext i
  obtain ⟨b, c2, h, w, rfl⟩ : ∃ (b : Fin 32) (c2 : Fin 128) (h w : Fin 128), i = ix4 b c2 h w := ⟨i 0, i 1, i 2, i 3, eq_ix4 i⟩
  have h128 : c2.val < 128 := c2.isLt
  by_cases hlt : c2.val < 64
  · have e : Cert.Spec.outK (xa m c) (ga m c) (ba m c) (ix4 b c2 h w) = Cert.Spec.yK (xa m c) (ga m c) (ba m c) 0 ⟨c2.val, hlt⟩ b h w := dif_pos hlt
    rw [e]
    exact result_re m ρ c b ⟨c2.val, hlt⟩ h w
  · have e : Cert.Spec.outK (xa m c) (ga m c) (ba m c) (ix4 b c2 h w) = Cert.Spec.yK (xa m c) (ga m c) (ba m c) 1 ⟨c2.val - 64, by omega⟩ b h w := dif_neg hlt
    rw [e]
    have hc : Cert.Spec.chIm ⟨c2.val - 64, by omega⟩ = c2 := Fin.ext (by show c2.val - 64 + 64 = c2.val; omega)
    have r := result_im m ρ c b ⟨c2.val - 64, by omega⟩ h w
    rw [hc] at r
    exact r

/-- The run, read: the result buffer ends at that array, the arguments as launched. -/
theorem run : θ_run defs (onTc (τ := τ) (main (F := Ideal))) ⟨m, fun _ => 0, ρ⟩ (fun r => ∀ c : Dev nD,
      r.2.mem ((c.tc : Thread nD τ).loc main_v91) = Cert.Spec.outK (xa m c) (ga m c) (ba m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_named m ρ)

end Cert.KernelIdeal.Val

end
-- ==== Proof.RArgs.lean ====
import proofs.«146568_j43499428774583_1_alg».proof.Proof.RRun
import proofs.«146568_j43499428774583_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx Idealize.ShloMosaic.StableHlo

namespace Cert.ReferenceIdeal.RVal

open Cert.ReferenceIdeal Cert.ReferenceIdeal.Gen Cert.ReferenceIdeal.Value

variable (V0 : Valuation τ sig (Elt Ideal))

/-- The three argument arrays as the program finds them. -/
abbrev xin : Cert.Spec.SX.Idx → EReal := V0 (Proc.devRef .tc main_arg0)
abbrev gin : Cert.Spec.SG.Idx → EReal := V0 (Proc.devRef .tc main_arg1)
abbrev bin : Cert.Spec.SB.Idx → EReal := V0 (Proc.devRef .tc main_arg2)

/-- The program's result: the term the generated run ends at, over the launch contents `V0`. -/
def resultTerm : (Proc.devRef .tc main_v97 : DevRef τ sig).ty.Contents (Elt Ideal) :=
  concatenate S32x128x128x128 1 [⟨S32x64x128x128, (addf (addf (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 0] (res_main_v64 V0) slices_S64x2x2_S64x1x1_0_0_0) shapeCasts_S64x1x1_S64))) (res_main_v11 V0)) (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 1] (res_main_v64 V0) slices_S64x2x2_S64x1x1_0_0_1) shapeCasts_S64x1x1_S64))) (res_main_v13 V0))) (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 0] (V0 (Proc.devRef .tc main_arg2)) slices_S64x2x1_S64x1x1_0_0_0) shapeCasts_S64x1x1_S64))))⟩, ⟨S32x64x128x128, (addf (addf (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 0] (res_main_v64 V0) slices_S64x2x2_S64x1x1_0_1_0) shapeCasts_S64x1x1_S64))) (res_main_v11 V0)) (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 1] (res_main_v64 V0) slices_S64x2x2_S64x1x1_0_1_1) shapeCasts_S64x1x1_S64))) (res_main_v13 V0))) (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 0] (V0 (Proc.devRef .tc main_arg2)) slices_S64x2x1_S64x1x1_0_1_0) shapeCasts_S64x1x1_S64))))⟩] concatenates_S32x64x128x128_S32x64x128x128_S32x128x128x128_d1

end Cert.ReferenceIdeal.RVal

end
-- ==== Proof.RStats.lean ====
import proofs.«146568_j43499428774583_1_alg».proof.Proof.RRun
import proofs.«146568_j43499428774583_1_alg».proof.Proof.Spec
import proofs.«146568_j43499428774583_1_alg».proof.Proof.RArgs
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx Idealize.ShloMosaic.StableHlo

namespace Cert.ReferenceIdeal.RVal

open Cert.ReferenceIdeal Cert.ReferenceIdeal.Gen Cert.ReferenceIdeal.Value

variable (V0 : Valuation τ sig (Elt Ideal))

/-- Dropping axes 0, 2 and 3 of a rank-4 index leaves its channel coordinate. -/
theorem drop3_iff (hr : S32x64x128x128.ReducesTo [0, 2, 3] S64) (i : S32x64x128x128.Idx) (ch : Fin 64) :
    hr.drop i = ix1 ch ↔ i 1 = ch := by
  have hv : (hr.drop i 0 : Nat) = i 1 := Shape.ReducesTo.drop_apply_val_of_eq hr i 0 1
  constructor
  · intro e; rw [e] at hv; exact Fin.ext hv.symm
  · intro e; funext b
    match b with
    | ⟨0, _⟩ => exact Fin.ext (hv.trans (congrArg Fin.val e))

/-- The sum over the indices of a [32,64,128,128] array whose channel is `ch` is the nested sum over batch, row, column. -/
theorem sum_filter_drop3 (hr : S32x64x128x128.ReducesTo [0, 2, 3] S64) (y : S32x64x128x128.Idx → EReal) (ch : Fin 64) :
    ∑ i ∈ Finset.univ.filter (fun i : S32x64x128x128.Idx => hr.drop i = ix1 ch), y i
      = Cert.Spec.sum3 fun b h w => y (ix4 b ch h w) := by
  have hback : ∀ i : S32x64x128x128.Idx, i 1 = ch → ix4 (i 0) ch (i 2) (i 3) = i := fun i h1 => by
    funext a; match a with
    | ⟨0, _⟩ => rfl
    | ⟨1, _⟩ => exact h1.symm
    | ⟨2, _⟩ => rfl
    | ⟨3, _⟩ => rfl
  have hsum : ∑ i ∈ Finset.univ.filter (fun i : S32x64x128x128.Idx => hr.drop i = ix1 ch), y i
      = ∑ p : Fin 32 × Fin 128 × Fin 128, y (ix4 p.1 ch p.2.1 p.2.2) := by
    refine Finset.sum_bij' (fun i _ => ((i 0, i 2, i 3) : Fin 32 × Fin 128 × Fin 128)) (fun p _ => ix4 p.1 ch p.2.1 p.2.2)
      (fun _ _ => Finset.mem_univ _)
      (fun p _ => Finset.mem_filter.2 ⟨Finset.mem_univ _, (drop3_iff hr _ ch).2 rfl⟩)
      (fun i hi => hback i ((drop3_iff hr i ch).1 (Finset.mem_filter.1 hi).2))
      (fun _ _ => rfl) ?_
    intro i hi
    exact (congrArg y (hback i ((drop3_iff hr i ch).1 (Finset.mem_filter.1 hi).2))).symm
  rw [hsum, Fintype.sum_prod_type]
  unfold Cert.Spec.sum3
  refine Finset.sum_congr rfl fun b _ => ?_
  rw [Fintype.sum_prod_type]

/-- The host's sum over batch, rows and columns (axes 0, 2, 3) from the zero literal, at a channel. -/
theorem reduce3 (y : FVec Ideal S32x64x128x128 .f32) (ch : Fin 64) :
    (Host.reduceAdd y (constant S_ .f32 0x00000000#32) reducesTo_S32x64x128x128_S64_d0_2_3 h_S_ : S64.Idx → EReal) (ix1 ch)
      = Cert.Spec.sum3 fun b h w => y (ix4 b ch h w) := by
  show Ideal.hostReduceAdd reducesTo_S32x64x128x128_S64_d0_2_3 y (constant (F := Ideal) S_ .f32 0x00000000#32 (Shape.Idx.first h_S_)) (ix1 ch) = _
  unfold Ideal.hostReduceAdd
  rw [constant_apply, Ideal.ofBits_zero_f32, zero_add, sum_filter_drop3]

/-- The stored channels 0..63 of the input are the real parts. -/
theorem r0 (b : Fin 32) (ch : Fin 64) (h w : Fin 128) :
    (res_main_v0 V0 : S32x64x128x128.Idx → EReal) (ix4 b ch h w) = Cert.Spec.xr (xin V0) ch b h w := by
  unfold res_main_v0 Cert.Spec.xr
  refine extractStridedSlice_apply _ _ _ _ (ix4 b (Cert.Spec.chRe ch) h w) ?_
  intro a
  match a with
  | ⟨0, _⟩ => show b.val = 0 + b.val; omega
  | ⟨1, _⟩ => show ch.val = 0 + ch.val; omega
  | ⟨2, _⟩ => show h.val = 0 + h.val; omega
  | ⟨3, _⟩ => show w.val = 0 + w.val; omega

/-- The stored channels 64..127 of the input are the imaginary parts. -/
theorem r1 (b : Fin 32) (ch : Fin 64) (h w : Fin 128) :
    (res_main_v1 V0 : S32x64x128x128.Idx → EReal) (ix4 b ch h w) = Cert.Spec.xi (xin V0) ch b h w := by
  unfold res_main_v1 Cert.Spec.xi
  refine extractStridedSlice_apply _ _ _ _ (ix4 b (Cert.Spec.chIm ch) h w) ?_
  intro a
  match a with
  | ⟨0, _⟩ => show b.val = 0 + b.val; omega
  | ⟨1, _⟩ => show ch.val + 64 = 64 + ch.val; omega
  | ⟨2, _⟩ => show h.val = 0 + h.val; omega
  | ⟨3, _⟩ => show w.val = 0 + w.val; omega

/-- The per-channel mean, broadcast back over batch, rows and columns, read at a position: the channel's sum over n. -/
theorem bcastMean_apply (y : FVec Ideal S32x64x128x128 .f32) (b : Fin 32) (ch : Fin 64) (h w : Fin 128) :
    (broadcastInDim S32x64x128x128 ![0, 1, 2, 3] bcast_S1x64x1x1_S32x64x128x128_0_1_2_3
        (Host.divf (broadcastInDim S1x64x1x1 ![1] bcast_S64_S1x64x1x1_1
            (Host.reduceAdd y (constant S_ .f32 0x00000000#32) reducesTo_S32x64x128x128_S64_d0_2_3 h_S_))
          (broadcastInDim S1x64x1x1 ![] bcast_S_S1x64x1x1 (constant S_ .f32 0x49000000#32)))
      : S32x64x128x128.Idx → EReal) (ix4 b ch h w)
      = Ideal.div (Cert.Spec.sum3 fun b h w => y (ix4 b ch h w)) Cert.Spec.nn := by
  rw [broadcastInDim_apply _ _ _ (ix4 b ch h w) (ix4 (0 : Fin 1) ch (0 : Fin 1) (0 : Fin 1)) (by
    intro a
    match a with
    | ⟨0, _⟩ => rfl
    | ⟨1, _⟩ => rfl
    | ⟨2, _⟩ => rfl
    | ⟨3, _⟩ => rfl)]
  show Ideal.div
      (broadcastInDim S1x64x1x1 ![1] bcast_S64_S1x64x1x1_1
        (Host.reduceAdd y (constant S_ .f32 0x00000000#32) reducesTo_S32x64x128x128_S64_d0_2_3 h_S_)
        (ix4 (0 : Fin 1) ch (0 : Fin 1) (0 : Fin 1)))
      (broadcastInDim S1x64x1x1 ![] bcast_S_S1x64x1x1 (constant (F := Ideal) S_ .f32 0x49000000#32)
        (ix4 (0 : Fin 1) ch (0 : Fin 1) (0 : Fin 1))) = _
  rw [broadcastInDim_apply _ _ _ (ix4 (0 : Fin 1) ch (0 : Fin 1) (0 : Fin 1)) (ix1 ch) (by
    intro a
    match a with
    | ⟨0, _⟩ => rfl),
    broadcastInDim_apply _ _ (constant (F := Ideal) S_ .f32 0x49000000#32) (ix4 (0 : Fin 1) ch (0 : Fin 1) (0 : Fin 1)) ix0 (fun a => a.elim0),
    reduce3, constant_apply]
  rfl

/-- The real part less its channel's mean. -/
theorem r11 (b : Fin 32) (ch : Fin 64) (h w : Fin 128) :
    (res_main_v11 V0 : S32x64x128x128.Idx → EReal) (ix4 b ch h w) = Cert.Spec.xr (xin V0) ch b h w - Cert.Spec.mr (xin V0) ch := by
  unfold res_main_v11
  rw [subf_apply, bcastMean_apply, r0]
  unfold Cert.Spec.mr Cert.Spec.sR
  simp only [r0]

/-- The imaginary part less its channel's mean. -/
theorem r13 (b : Fin 32) (ch : Fin 64) (h w : Fin 128) :
    (res_main_v13 V0 : S32x64x128x128.Idx → EReal) (ix4 b ch h w) = Cert.Spec.xi (xin V0) ch b h w - Cert.Spec.mi (xin V0) ch := by
  unfold res_main_v13
  rw [subf_apply, bcastMean_apply, r1]
  unfold Cert.Spec.mi Cert.Spec.sI
  simp only [r1]

/-- A scalar literal broadcast along the channels reads the literal's value. -/
theorem bcastLit_apply (bits : BitVec 32) (ch : Fin 64) :
    (broadcastInDim S64 ![] bcast_S_S64 (constant (F := Ideal) S_ .f32 bits) : S64.Idx → EReal) (ix1 ch) = Ideal.ofBits .f32 bits := by
  rw [broadcastInDim_apply _ _ (constant (F := Ideal) S_ .f32 bits) (ix1 ch) ix0 (fun a => a.elim0), constant_apply]

/-- The host's sum of a product of two arrays, divided by the broadcast n - 1 literal, at a channel. -/
theorem cov_apply (p q : FVec Ideal S32x64x128x128 .f32) (ch : Fin 64) :
    (Host.divf (Host.reduceAdd (mulf p q) (constant S_ .f32 0x00000000#32) reducesTo_S32x64x128x128_S64_d0_2_3 h_S_)
        (broadcastInDim S64 ![] bcast_S_S64 (constant S_ .f32 0x48FFFFE0#32)) : S64.Idx → EReal) (ix1 ch)
      = Ideal.div (Cert.Spec.sum3 fun b h w => p (ix4 b ch h w) * q (ix4 b ch h w)) Cert.Spec.dd := by
  show Ideal.div
      ((Host.reduceAdd (mulf p q) (constant S_ .f32 0x00000000#32) reducesTo_S32x64x128x128_S64_d0_2_3 h_S_ : S64.Idx → EReal) (ix1 ch))
      ((broadcastInDim S64 ![] bcast_S_S64 (constant (F := Ideal) S_ .f32 0x48FFFFE0#32) : S64.Idx → EReal) (ix1 ch)) = _
  rw [reduce3, bcastLit_apply]
  rfl

/-- The cross covariance of the centred parts. -/
theorem r25 (ch : Fin 64) : (res_main_v25 V0 : S64.Idx → EReal) (ix1 ch) = Cert.Spec.cRIR (xin V0) ch := by
  unfold res_main_v25
  rw [cov_apply]
  unfold Cert.Spec.cRIR
  simp only [r11, r13]

/-- The variance of the centred real part, regularised by eps. -/
theorem r27 (ch : Fin 64) : (res_main_v27 V0 : S64.Idx → EReal) (ix1 ch) = Cert.Spec.cRRR (xin V0) ch + Cert.Spec.ee := by
  unfold res_main_v27
  rw [addf_apply, cov_apply, bcastLit_apply]
  unfold Cert.Spec.cRRR Cert.Spec.ee
  simp only [r11]

/-- The variance of the centred imaginary part, regularised by eps. -/
theorem r29 (ch : Fin 64) : (res_main_v29 V0 : S64.Idx → EReal) (ix1 ch) = Cert.Spec.cIIR (xin V0) ch + Cert.Spec.ee := by
  unfold res_main_v29
  rw [addf_apply, cov_apply, bcastLit_apply]
  unfold Cert.Spec.cIIR Cert.Spec.ee
  simp only [r13]

end Cert.ReferenceIdeal.RVal

end
-- ==== Proof.RWhiten.lean ====
import proofs.«146568_j43499428774583_1_alg».proof.Proof.RRun
import proofs.«146568_j43499428774583_1_alg».proof.Proof.Spec
import proofs.«146568_j43499428774583_1_alg».proof.Proof.RArgs
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

open scoped BigOperators
open Idealize.ShloMosaic Idealize.ShloMosaic.TcCoe Idealize.SL.Sem Idealize.ShloMosaic.ValueIdx Idealize.ShloMosaic.StableHlo

namespace Cert.ReferenceIdeal.RVal

open Cert.ReferenceIdeal Cert.ReferenceIdeal.Gen Cert.ReferenceIdeal.Value

/-! ## Layout: columns, rows, slabs and the stacked 2 x 2 blocks, each read at an index -/

/-- A [64] vector made a [64,1] column reads, at (ch, 0), the vector at ch. -/
theorem whiten_col_apply (v : FVec Ideal S64 .f32) (ch : Fin 64) (z : Fin 1) :
    broadcastInDim S64x1 ![0] bcast_S64_S64x1_0 v (ix2 ch z) = v (ix1 ch) := by
  refine broadcastInDim_apply _ _ _ _ (ix1 ch) (fun a => ?_)
  match a with
  | ⟨0, _⟩ => rfl

/-- Two [64,1] columns side by side: at (ch, 0) the first column. -/
theorem whiten_row2_apply0 (a b : FVec Ideal S64x1 .f32) (ch : Fin 64) :
    concatenate S64x2 1 [⟨S64x1, a⟩, ⟨S64x1, b⟩] concatenates_S64x1_S64x1_S64x2_d1 (ix2 ch (0 : Fin 2)) = a (ix2 ch (0 : Fin 1)) := by
  refine concatenate_pair_apply_left (t := S64x2) (s₁ := S64x1) (s₂ := S64x1) (1 : Fin 2) a b _ _ rfl (ix2 ch (0 : Fin 1)) (fun c => ?_)
  match c with
  | ⟨0, _⟩ => rfl
  | ⟨1, _⟩ => rfl

/-- Two [64,1] columns side by side: at (ch, 1) the second column. -/
theorem whiten_row2_apply1 (a b : FVec Ideal S64x1 .f32) (ch : Fin 64) :
    concatenate S64x2 1 [⟨S64x1, a⟩, ⟨S64x1, b⟩] concatenates_S64x1_S64x1_S64x2_d1 (ix2 ch (1 : Fin 2)) = b (ix2 ch (0 : Fin 1)) := by
  refine concatenate_pair_apply_right (t := S64x2) (s₁ := S64x1) (s₂ := S64x1) (1 : Fin 2) a b _ _ rfl rfl (ix2 ch (0 : Fin 1)) (fun c hc => ?_) rfl
  match c with
  | ⟨0, _⟩ => rfl
  | ⟨1, _⟩ => exact absurd rfl hc

/-- A [64,2] array made a [64,1,2] slab reads, at (ch, 0, k), the array at (ch, k). -/
theorem whiten_slab_apply (m : FVec Ideal S64x2 .f32) (ch : Fin 64) (z : Fin 1) (k : Fin 2) :
    broadcastInDim S64x1x2 ![0, 2] bcast_S64x2_S64x1x2_0_2 m (ix3 ch z k) = m (ix2 ch k) := by
  refine broadcastInDim_apply _ _ _ _ (ix2 ch k) (fun a => ?_)
  match a with
  | ⟨0, _⟩ => rfl
  | ⟨1, _⟩ => rfl

/-- Two [64,1,2] slabs stacked along the middle axis: at (ch, 0, k) the first slab. -/
theorem whiten_stack2_apply0 (a b : FVec Ideal S64x1x2 .f32) (ch : Fin 64) (k : Fin 2) :
    concatenate S64x2x2 1 [⟨S64x1x2, a⟩, ⟨S64x1x2, b⟩] concatenates_S64x1x2_S64x1x2_S64x2x2_d1 (ix3 ch (0 : Fin 2) k)
      = a (ix3 ch (0 : Fin 1) k) := by
  refine concatenate_pair_apply_left (t := S64x2x2) (s₁ := S64x1x2) (s₂ := S64x1x2) (1 : Fin 3) a b _ _ rfl (ix3 ch (0 : Fin 1) k) (fun c => ?_)
  match c with
  | ⟨0, _⟩ => rfl
  | ⟨1, _⟩ => rfl
  | ⟨2, _⟩ => rfl

/-- Two [64,1,2] slabs stacked along the middle axis: at (ch, 1, k) the second slab. -/
theorem whiten_stack2_apply1 (a b : FVec Ideal S64x1x2 .f32) (ch : Fin 64) (k : Fin 2) :
    concatenate S64x2x2 1 [⟨S64x1x2, a⟩, ⟨S64x1x2, b⟩] concatenates_S64x1x2_S64x1x2_S64x2x2_d1 (ix3 ch (1 : Fin 2) k)
      = b (ix3 ch (0 : Fin 1) k) := by
  refine concatenate_pair_apply_right (t := S64x2x2) (s₁ := S64x1x2) (s₂ := S64x1x2) (1 : Fin 3) a b _ _ rfl rfl (ix3 ch (0 : Fin 1) k) (fun c hc => ?_) rfl
  match c with
  | ⟨0, _⟩ => rfl
  | ⟨1, _⟩ => exact absurd rfl hc
  | ⟨2, _⟩ => rfl

/-- A [64] vector spread over every entry of its channel's 2 x 2 block reads, at (ch, j, k), the vector at ch. -/
theorem whiten_spread_apply (v : FVec Ideal S64 .f32) (ch : Fin 64) (j k : Fin 2) :
    broadcastInDim S64x2x2 ![0, 1, 2] bcast_S64x1x1_S64x2x2_0_1_2 (broadcastInDim S64x1x1 ![0] bcast_S64_S64x1x1_0 v) (ix3 ch j k)
      = v (ix1 ch) := by
  have h1 : broadcastInDim S64x2x2 ![0, 1, 2] bcast_S64x1x1_S64x2x2_0_1_2 (broadcastInDim S64x1x1 ![0] bcast_S64_S64x1x1_0 v) (ix3 ch j k)
      = broadcastInDim S64x1x1 ![0] bcast_S64_S64x1x1_0 v (ix3 ch (0 : Fin 1) (0 : Fin 1)) := by
    refine broadcastInDim_apply _ _ _ _ (ix3 ch (0 : Fin 1) (0 : Fin 1)) (fun a => ?_)
    match a with
    | ⟨0, _⟩ => rfl
    | ⟨1, _⟩ => rfl
    | ⟨2, _⟩ => rfl
  rw [h1]
  refine broadcastInDim_apply _ _ _ _ (ix1 ch) (fun a => ?_)
  match a with
  | ⟨0, _⟩ => rfl

/-! ## The batched 2 x 2 product and the pointwise host operations at an index -/

/-- The batched product (batch axis the channel, the left operand's columns against the right operand's rows) read at
    (ch, r, k) is the two-term sum over the contracted coordinate. -/
theorem whiten_bdot_apply (A B : FVec Ideal S64x2x2 .f32) (ch : Fin 64) (r k : Fin 2) :
    Host.dotGeneral dot_S64x2x2_S64x2x2_S64x2x2_2_1_1_2_0_0 none A B (ix3 ch r k)
      = A (ix3 ch r 0) * B (ix3 ch 0 k) + A (ix3 ch r 1) * B (ix3 ch 1 k) := by
  have h := StackMember.dotGeneral_stack_apply (G := 64) (m := 2) (n := 2) (k := 2)
    dot_S64x2x2_S64x2x2_S64x2x2_2_1_1_2_0_0_wf none A B ch r k
  rw [Fin.sum_univ_two] at h
  exact h

/-- The host's pointwise quotient, negation and square root at an index, over the extended reals. -/
theorem whiten_hdiv_apply {s : Shape} (a b : FVec Ideal s .f32) (i : s.Idx) : Host.divf a b i = Ideal.div (a i) (b i) := rfl
theorem whiten_hneg_apply {s : Shape} (a : FVec Ideal s .f32) (i : s.Idx) : Host.negf a i = -(a i) := rfl
theorem whiten_hsqrt_apply {s : Shape} (a : FVec Ideal s .f32) (i : s.Idx) : Host.sqrt a i = Ideal.sqrt (a i) := rfl

/-- The literal two, broadcast to [64], at a channel. -/
theorem whiten_two_apply (ch : Fin 64) :
    (broadcastInDim S64 ![] bcast_S_S64 (constant (F := Ideal) S_ .f32 0x40000000#32) : FVec Ideal S64 .f32) (ix1 ch) = Cert.Spec.tw := rfl

/-! ## The inverse matrix -/

/-- The inverse matrix as the program assembles it from five [64] vectors: rows (q11, -q01) and (-q10, q00), every
    entry over det. -/
def whiten_invMat (q00 q01 q10 q11 det : FVec Ideal S64 .f32) : FVec Ideal S64x2x2 .f32 :=
  Host.divf (concatenate S64x2x2 1 [⟨S64x1x2, (broadcastInDim S64x1x2 ![0, 2] bcast_S64x2_S64x1x2_0_2 (concatenate S64x2 1 [⟨S64x1, (broadcastInDim S64x1 ![0] bcast_S64_S64x1_0 q11)⟩, ⟨S64x1, (broadcastInDim S64x1 ![0] bcast_S64_S64x1_0 (Host.negf q01))⟩] concatenates_S64x1_S64x1_S64x2_d1))⟩, ⟨S64x1x2, (broadcastInDim S64x1x2 ![0, 2] bcast_S64x2_S64x1x2_0_2 (concatenate S64x2 1 [⟨S64x1, (broadcastInDim S64x1 ![0] bcast_S64_S64x1_0 (Host.negf q10))⟩, ⟨S64x1, (broadcastInDim S64x1 ![0] bcast_S64_S64x1_0 q00)⟩] concatenates_S64x1_S64x1_S64x2_d1))⟩] concatenates_S64x1x2_S64x1x2_S64x2x2_d1) (broadcastInDim S64x2x2 ![0, 1, 2] bcast_S64x1x1_S64x2x2_0_1_2 (broadcastInDim S64x1x1 ![0] bcast_S64_S64x1x1_0 det))

section entries
variable (q00 q01 q10 q11 det : FVec Ideal S64 .f32) (ch : Fin 64)

/-- Its four entries at a channel. -/
theorem whiten_invMat_00 : whiten_invMat q00 q01 q10 q11 det (ix3 ch 0 0) = Ideal.div (q11 (ix1 ch)) (det (ix1 ch)) := by
  unfold whiten_invMat
  rw [whiten_hdiv_apply, whiten_spread_apply, whiten_stack2_apply0, whiten_slab_apply, whiten_row2_apply0, whiten_col_apply]

theorem whiten_invMat_01 : whiten_invMat q00 q01 q10 q11 det (ix3 ch 0 1) = Ideal.div (-(q01 (ix1 ch))) (det (ix1 ch)) := by
  unfold whiten_invMat
  rw [whiten_hdiv_apply, whiten_spread_apply, whiten_stack2_apply0, whiten_slab_apply, whiten_row2_apply1, whiten_col_apply,
    whiten_hneg_apply]

theorem whiten_invMat_10 : whiten_invMat q00 q01 q10 q11 det (ix3 ch 1 0) = Ideal.div (-(q10 (ix1 ch))) (det (ix1 ch)) := by
  unfold whiten_invMat
  rw [whiten_hdiv_apply, whiten_spread_apply, whiten_stack2_apply1, whiten_slab_apply, whiten_row2_apply0, whiten_col_apply,
    whiten_hneg_apply]

theorem whiten_invMat_11 : whiten_invMat q00 q01 q10 q11 det (ix3 ch 1 1) = Ideal.div (q00 (ix1 ch)) (det (ix1 ch)) := by
  unfold whiten_invMat
  rw [whiten_hdiv_apply, whiten_spread_apply, whiten_stack2_apply1, whiten_slab_apply, whiten_row2_apply1, whiten_col_apply]

end entries

section product
variable (g : FVec Ideal S64x2x2 .f32) (q00 q01 q10 q11 det : FVec Ideal S64 .f32) (ch : Fin 64) (r : Fin 2)

/-- Row r of the left matrix against column 0 of the inverse matrix. -/
theorem whiten_prodL : Host.dotGeneral dot_S64x2x2_S64x2x2_S64x2x2_2_1_1_2_0_0 none g (whiten_invMat q00 q01 q10 q11 det) (ix3 ch r 0)
    = g (ix3 ch r 0) * Ideal.div (q11 (ix1 ch)) (det (ix1 ch)) + g (ix3 ch r 1) * Ideal.div (-(q10 (ix1 ch))) (det (ix1 ch)) := by
  rw [whiten_bdot_apply, whiten_invMat_00, whiten_invMat_10]

/-- Row r of the left matrix against column 1 of the inverse matrix. -/
theorem whiten_prodR : Host.dotGeneral dot_S64x2x2_S64x2x2_S64x2x2_2_1_1_2_0_0 none g (whiten_invMat q00 q01 q10 q11 det) (ix3 ch r 1)
    = g (ix3 ch r 0) * Ideal.div (-(q01 (ix1 ch))) (det (ix1 ch)) + g (ix3 ch r 1) * Ideal.div (q00 (ix1 ch)) (det (ix1 ch)) := by
  rw [whiten_bdot_apply, whiten_invMat_01, whiten_invMat_11]

end product

variable (V0 : Valuation τ sig (Elt Ideal)) (cRR cII cRI : Fin 64 → EReal)

/-! ## The [64] vectors of the closed-form square root, channel by channel -/

section chain
variable (h25 : ∀ ch, (res_main_v25 V0 : S64.Idx → EReal) (ix1 ch) = cRI ch)
    (h27 : ∀ ch, (res_main_v27 V0 : S64.Idx → EReal) (ix1 ch) = cRR ch + Cert.Spec.ee)
    (h29 : ∀ ch, (res_main_v29 V0 : S64.Idx → EReal) (ix1 ch) = cII ch + Cert.Spec.ee) (ch : Fin 64)
include h25 h27 h29

/-- The determinant of the regularised covariance matrix. -/
theorem whiten_r33 : (res_main_v33 V0 : S64.Idx → EReal) (ix1 ch) = Cert.Spec.dl (cRR ch) (cII ch) (cRI ch) := by
  unfold res_main_v33
  rw [subf_apply, mulf_apply, mulf_apply, h27, h29, h25]
  rfl

/-- Its square root. -/
theorem whiten_r34 : (res_main_v34 V0 : S64.Idx → EReal) (ix1 ch) = Cert.Spec.sq (cRR ch) (cII ch) (cRI ch) := by
  unfold res_main_v34
  rw [whiten_hsqrt_apply, whiten_r33 V0 cRR cII cRI h25 h27 h29]
  rfl

/-- The normaliser: the square root of the trace plus twice the determinant. -/
theorem whiten_r38 : (res_main_v38 V0 : S64.Idx → EReal) (ix1 ch) = Cert.Spec.tq (cRR ch) (cII ch) (cRI ch) := by
  unfold res_main_v38
  rw [whiten_hsqrt_apply, addf_apply, addf_apply, mulf_apply, whiten_two_apply, h27, h29, whiten_r33 V0 cRR cII cRI h25 h27 h29]
  rfl

/-- The entries of the square root matrix. -/
theorem whiten_r40 : (res_main_v40 V0 : S64.Idx → EReal) (ix1 ch) = Cert.Spec.q00 (cRR ch) (cII ch) (cRI ch) := by
  unfold res_main_v40
  rw [whiten_hdiv_apply, addf_apply, h27, whiten_r34 V0 cRR cII cRI h25 h27 h29, whiten_r38 V0 cRR cII cRI h25 h27 h29]
  rfl

theorem whiten_r42 : (res_main_v42 V0 : S64.Idx → EReal) (ix1 ch) = Cert.Spec.q01 (cRR ch) (cII ch) (cRI ch) := by
  unfold res_main_v42
  rw [whiten_hdiv_apply, addf_apply, h25, whiten_r34 V0 cRR cII cRI h25 h27 h29, whiten_r38 V0 cRR cII cRI h25 h27 h29]
  rfl

theorem whiten_r44 : (res_main_v44 V0 : S64.Idx → EReal) (ix1 ch) = Cert.Spec.q01 (cRR ch) (cII ch) (cRI ch) := by
  unfold res_main_v44
  rw [whiten_hdiv_apply, addf_apply, h25, whiten_r34 V0 cRR cII cRI h25 h27 h29, whiten_r38 V0 cRR cII cRI h25 h27 h29]
  rfl

theorem whiten_r46 : (res_main_v46 V0 : S64.Idx → EReal) (ix1 ch) = Cert.Spec.q11 (cRR ch) (cII ch) (cRI ch) := by
  unfold res_main_v46
  rw [whiten_hdiv_apply, addf_apply, h29, whiten_r34 V0 cRR cII cRI h25 h27 h29, whiten_r38 V0 cRR cII cRI h25 h27 h29]
  rfl

/-- The determinant of the square root matrix. -/
theorem whiten_rdet :
    (subf (mulf (res_main_v40 V0) (res_main_v46 V0)) (mulf (res_main_v42 V0) (res_main_v44 V0)) : S64.Idx → EReal) (ix1 ch)
      = Cert.Spec.dt (cRR ch) (cII ch) (cRI ch) := by
  rw [subf_apply, mulf_apply, mulf_apply, whiten_r40 V0 cRR cII cRI h25 h27 h29, whiten_r46 V0 cRR cII cRI h25 h27 h29,
    whiten_r42 V0 cRR cII cRI h25 h27 h29, whiten_r44 V0 cRR cII cRI h25 h27 h29]
  rfl

end chain

/-- The product array is the left argument against the inverse matrix of the five vectors. -/
theorem whiten_r64_eq :
    (res_main_v64 V0 : S64x2x2.Idx → EReal)
      = Host.dotGeneral (φ₁ := .f32) dot_S64x2x2_S64x2x2_S64x2x2_2_1_1_2_0_0 none (V0 (Proc.devRef .tc main_arg1))
          (whiten_invMat (res_main_v40 V0) (res_main_v42 V0) (res_main_v44 V0) (res_main_v46 V0)
            (subf (mulf (res_main_v40 V0) (res_main_v46 V0)) (mulf (res_main_v42 V0) (res_main_v44 V0)))) := by
  unfold res_main_v64 whiten_invMat
  rfl

/-- The batched 2 x 2 product gamma · inverse square root, column 0 of row `r`, from the three covariances. -/
theorem r64L (h25 : ∀ ch, (res_main_v25 V0 : S64.Idx → EReal) (ix1 ch) = cRI ch)
    (h27 : ∀ ch, (res_main_v27 V0 : S64.Idx → EReal) (ix1 ch) = cRR ch + Cert.Spec.ee)
    (h29 : ∀ ch, (res_main_v29 V0 : S64.Idx → EReal) (ix1 ch) = cII ch + Cert.Spec.ee) (ch : Fin 64) (r : Fin 2) :
    (res_main_v64 V0 : S64x2x2.Idx → EReal) (ix3 ch r 0)
      = Cert.Spec.aL (cRR ch) (cII ch) (cRI ch) (gin V0 (ix3 ch r 0)) (gin V0 (ix3 ch r 1)) := by
  rw [whiten_r64_eq, whiten_prodL, whiten_r46 V0 cRR cII cRI h25 h27 h29, whiten_r44 V0 cRR cII cRI h25 h27 h29,
    whiten_rdet V0 cRR cII cRI h25 h27 h29]
  rfl

/-- Column 1 of row `r`. -/
theorem r64R (h25 : ∀ ch, (res_main_v25 V0 : S64.Idx → EReal) (ix1 ch) = cRI ch)
    (h27 : ∀ ch, (res_main_v27 V0 : S64.Idx → EReal) (ix1 ch) = cRR ch + Cert.Spec.ee)
    (h29 : ∀ ch, (res_main_v29 V0 : S64.Idx → EReal) (ix1 ch) = cII ch + Cert.Spec.ee) (ch : Fin 64) (r : Fin 2) :
    (res_main_v64 V0 : S64x2x2.Idx → EReal) (ix3 ch r 1)
      = Cert.Spec.aR (cRR ch) (cII ch) (cRI ch) (gin V0 (ix3 ch r 0)) (gin V0 (ix3 ch r 1)) := by
  rw [whiten_r64_eq, whiten_prodR, whiten_r42 V0 cRR cII cRI h25 h27 h29, whiten_r40 V0 cRR cII cRI h25 h27 h29,
    whiten_rdet V0 cRR cII cRI h25 h27 h29]
  rfl

end Cert.ReferenceIdeal.RVal

end
-- ==== Proof.RFinal.lean ====
import proofs.«146568_j43499428774583_1_alg».proof.Proof.RRun
import proofs.«146568_j43499428774583_1_alg».proof.Proof.Spec
import proofs.«146568_j43499428774583_1_alg».proof.Proof.RArgs
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx Idealize.ShloMosaic.StableHlo

namespace Cert.ReferenceIdeal.RVal

open Cert.ReferenceIdeal Cert.ReferenceIdeal.Gen Cert.ReferenceIdeal.Value

/-! ## The last stage read at one position

The result is two [32,64,128,128] arrays joined along the channel axis. Each of them is, position by position,
(coefficient · first centred part + coefficient · second centred part) + bias, where a coefficient is one entry per
channel of a small [64,2,m] array, picked at a fixed (row, column), flattened to a vector of 64 entries and spread
over batch, rows and columns. The lemmas below read each layer at one position, in the order they are nested. -/

section Layout
variable {α : Type}

/-- A per-channel coefficient held as a [64,1,1] array, flattened to 64 entries and spread over batch, rows and
    columns: at every position of channel `ch` the spread array holds the entry of `ch`. The spreading reads the
    [1,64,1,1] array at (0, ch, 0, 0), which reads the vector at `ch`; flattening keeps the row-major position,
    and (ch, 0, 0) has row-major position `ch` in [64,1,1]. -/
theorem coef_bcast_apply (src : S64x1x1.Idx → α)
    (h1 : S1x64x1x1.BroadcastsInDim S32x64x128x128 (![0, 1, 2, 3] : Fin 4 → Fin S32x64x128x128.rank))
    (h2 : S64.BroadcastsInDim S1x64x1x1 (![1] : Fin 1 → Fin S1x64x1x1.rank))
    (h3 : S64x1x1.ShapeCasts S64) (b : Fin 32) (ch : Fin 64) (h w : Fin 128) :
    broadcastInDim S32x64x128x128 ![0, 1, 2, 3] h1 (broadcastInDim S1x64x1x1 ![1] h2 (shapeCast S64 src h3)) (ix4 b ch h w)
      = src (ix3 ch 0 0) := by
  refine (broadcastInDim_apply _ h1 _ (ix4 b ch h w) (ix4 0 ch 0 0) fun a => ?_).trans ?_
  · match a with
    | ⟨0, _⟩ => rfl
    | ⟨1, _⟩ => rfl
    | ⟨2, _⟩ => rfl
    | ⟨3, _⟩ => rfl
  refine (broadcastInDim_apply _ h2 _ (ix4 0 ch 0 0) (ix1 ch) fun a => ?_).trans ?_
  · match a with
    | ⟨0, _⟩ => rfl
  refine shapeCast_apply src h3 (ix1 ch) (ix3 ch 0 0) ?_
  rw [Shape.rowMajor_val_three, Shape.rowMajor_val_one]
  show (ch.val * 1 + 0) * 1 + 0 = ch.val
  omega

/-- The [64,1,1] corner of a [64,2,m] array starting at row `r`, column `k` holds, at channel `ch`, the entry
    (ch, r, k): a corner read at an index is the array at offset plus index. -/
theorem slice_corner_apply {m : Nat} (off : Fin 3 → Nat) (X : (⟨3, ![64, 2, m]⟩ : Shape).Idx → α)
    (hs : (⟨3, ![64, 2, m]⟩ : Shape).Slices off S64x1x1) (ch : Fin 64) (r : Fin 2) (k : Fin m)
    (h0 : off 0 = 0) (hr : off 1 = r.val) (hk : off 2 = k.val) :
    extractStridedSlice S64x1x1 off X hs (ix3 ch 0 0) = X (ix3 ch r k) := by
  refine extractStridedSlice_apply off X hs (ix3 ch 0 0) (ix3 ch r k) fun a => ?_
  match a with
  | ⟨0, _⟩ => show ch.val = off 0 + ch.val; rw [h0]; omega
  | ⟨1, _⟩ => show r.val = off 1 + 0; rw [hr]; omega
  | ⟨2, _⟩ => show k.val = off 2 + 0; rw [hk]; omega

/-- The two together: a coefficient picked from a [64,2,m] array at (·, r, k), flattened and spread, is at every
    position of channel `ch` the array's entry (ch, r, k). -/
theorem coef_apply {m : Nat} (off : Fin 3 → Nat) (X : (⟨3, ![64, 2, m]⟩ : Shape).Idx → α)
    (hs : (⟨3, ![64, 2, m]⟩ : Shape).Slices off S64x1x1)
    (h1 : S1x64x1x1.BroadcastsInDim S32x64x128x128 (![0, 1, 2, 3] : Fin 4 → Fin S32x64x128x128.rank))
    (h2 : S64.BroadcastsInDim S1x64x1x1 (![1] : Fin 1 → Fin S1x64x1x1.rank))
    (h3 : S64x1x1.ShapeCasts S64) (r : Fin 2) (k : Fin m)
    (h0 : off 0 = 0) (hr : off 1 = r.val) (hk : off 2 = k.val) (b : Fin 32) (ch : Fin 64) (h w : Fin 128) :
    broadcastInDim S32x64x128x128 ![0, 1, 2, 3] h1
        (broadcastInDim S1x64x1x1 ![1] h2 (shapeCast S64 (extractStridedSlice S64x1x1 off X hs) h3)) (ix4 b ch h w)
      = X (ix3 ch r k) :=
  (coef_bcast_apply _ h1 h2 h3 b ch h w).trans (slice_corner_apply off X hs ch r k h0 hr hk)

/-- Joining two [32,64,128,128] arrays along the channel axis: stored channel `ch` below 64 reads the first array
    at channel `ch` … -/
theorem concat_re_apply (x₁ x₂ : S32x64x128x128.Idx → α)
    (hc : Shape.Concatenates [S32x64x128x128, S32x64x128x128] S32x128x128x128 1)
    (b : Fin 32) (ch : Fin 64) (h w : Fin 128) :
    concatenate S32x128x128x128 1 [⟨S32x64x128x128, x₁⟩, ⟨S32x64x128x128, x₂⟩] hc (ix4 b (Cert.Spec.chRe ch) h w)
      = x₁ (ix4 b ch h w) := by
  refine concatenate_pair_apply_left 1 x₁ x₂ hc _ rfl (ix4 b ch h w) fun a => ?_
  match a with
  | ⟨0, _⟩ => rfl
  | ⟨1, _⟩ => rfl
  | ⟨2, _⟩ => rfl
  | ⟨3, _⟩ => rfl

/-- … and stored channel `ch + 64` reads the second array at channel `ch`. -/
theorem concat_im_apply (x₁ x₂ : S32x64x128x128.Idx → α)
    (hc : Shape.Concatenates [S32x64x128x128, S32x64x128x128] S32x128x128x128 1)
    (b : Fin 32) (ch : Fin 64) (h w : Fin 128) :
    concatenate S32x128x128x128 1 [⟨S32x64x128x128, x₁⟩, ⟨S32x64x128x128, x₂⟩] hc (ix4 b (Cert.Spec.chIm ch) h w)
      = x₂ (ix4 b ch h w) := by
  refine concatenate_pair_apply_right 1 x₁ x₂ hc _ rfl rfl (ix4 b ch h w) (fun a ha => ?_) rfl
  match a with
  | ⟨0, _⟩ => rfl
  | ⟨1, _⟩ => exact absurd rfl ha
  | ⟨2, _⟩ => rfl
  | ⟨3, _⟩ => rfl

end Layout

/-- Over the extended reals the sum of two products plus a third array, at an index, is that combination of the
    entries. -/
theorem affine_apply {s : Shape} (B1 B2 B3 u1 u2 : FVec Ideal s .f32) (i : s.Idx) :
    addf (addf (mulf B1 u1) (mulf B2 u2)) B3 i = (B1 i * u1 i + B2 i * u2 i) + B3 i := rfl

/-- One output row at a position: the two coefficients of row `r` (columns 0 and 1 of the coefficient array) against
    the two centred parts, plus the bias of row `r`. -/
theorem row_apply (A : FVec Ideal S64x2x2 .f32) (u1 u2 : FVec Ideal S32x64x128x128 .f32) (bt : FVec Ideal S64x2x1 .f32)
    (offL offR offB : Fin 3 → Nat)
    (hsL : S64x2x2.Slices offL S64x1x1) (hsR : S64x2x2.Slices offR S64x1x1) (hsB : S64x2x1.Slices offB S64x1x1)
    (h1 : S1x64x1x1.BroadcastsInDim S32x64x128x128 (![0, 1, 2, 3] : Fin 4 → Fin S32x64x128x128.rank))
    (h2 : S64.BroadcastsInDim S1x64x1x1 (![1] : Fin 1 → Fin S1x64x1x1.rank))
    (h3 : S64x1x1.ShapeCasts S64) (r : Fin 2)
    (hL0 : offL 0 = 0) (hL1 : offL 1 = r.val) (hL2 : offL 2 = 0)
    (hR0 : offR 0 = 0) (hR1 : offR 1 = r.val) (hR2 : offR 2 = 1)
    (hB0 : offB 0 = 0) (hB1 : offB 1 = r.val) (hB2 : offB 2 = 0)
    (b : Fin 32) (ch : Fin 64) (h w : Fin 128) :
    addf (addf (mulf (broadcastInDim S32x64x128x128 ![0, 1, 2, 3] h1 (broadcastInDim S1x64x1x1 ![1] h2 (shapeCast S64 (extractStridedSlice S64x1x1 offL A hsL) h3))) u1)
               (mulf (broadcastInDim S32x64x128x128 ![0, 1, 2, 3] h1 (broadcastInDim S1x64x1x1 ![1] h2 (shapeCast S64 (extractStridedSlice S64x1x1 offR A hsR) h3))) u2))
         (broadcastInDim S32x64x128x128 ![0, 1, 2, 3] h1 (broadcastInDim S1x64x1x1 ![1] h2 (shapeCast S64 (extractStridedSlice S64x1x1 offB bt hsB) h3))) (ix4 b ch h w)
      = (A (ix3 ch r 0) * u1 (ix4 b ch h w) + A (ix3 ch r 1) * u2 (ix4 b ch h w)) + bt (ix3 ch r 0) := by
  refine (affine_apply _ _ _ _ _ _).trans ?_
  rw [coef_apply offL A hsL h1 h2 h3 r 0 hL0 hL1 hL2 b ch h w, coef_apply offR A hsR h1 h2 h3 r 1 hR0 hR1 hR2 b ch h w,
    coef_apply offB bt hsB h1 h2 h3 r 0 hB0 hB1 hB2 b ch h w]

variable (V0 : Valuation τ sig (Elt Ideal)) (aL aR : Fin 64 → Fin 2 → EReal) (dr di : Fin 64 → Fin 32 → Fin 128 → Fin 128 → EReal)

/-- The result at a stored channel of the real half: row 0 of the coefficients against the two centred parts, plus beta. -/
theorem result_re (h11 : ∀ b ch h w, (res_main_v11 V0 : S32x64x128x128.Idx → EReal) (ix4 b ch h w) = dr ch b h w)
    (h13 : ∀ b ch h w, (res_main_v13 V0 : S32x64x128x128.Idx → EReal) (ix4 b ch h w) = di ch b h w)
    (h64L : ∀ ch r, (res_main_v64 V0 : S64x2x2.Idx → EReal) (ix3 ch r 0) = aL ch r)
    (h64R : ∀ ch r, (res_main_v64 V0 : S64x2x2.Idx → EReal) (ix3 ch r 1) = aR ch r)
    (b : Fin 32) (ch : Fin 64) (h w : Fin 128) :
    (resultTerm V0 : S32x128x128x128.Idx → EReal) (ix4 b (Cert.Spec.chRe ch) h w)
      = (aL ch 0 * dr ch b h w + aR ch 0 * di ch b h w) + bin V0 (ix3 ch 0 0) := by
  unfold resultTerm
  refine (concat_re_apply _ _ _ b ch h w).trans ?_
  refine (row_apply _ _ _ _ _ _ _ _ _ _ _ _ _ 0 rfl rfl rfl rfl rfl rfl rfl rfl rfl b ch h w).trans ?_
  exact congrArg₂ (· + ·) (congrArg₂ (· + ·) (congrArg₂ (· * ·) (h64L ch 0) (h11 b ch h w))
    (congrArg₂ (· * ·) (h64R ch 0) (h13 b ch h w))) rfl

/-- The result at a stored channel of the imaginary half: row 1. -/
theorem result_im (h11 : ∀ b ch h w, (res_main_v11 V0 : S32x64x128x128.Idx → EReal) (ix4 b ch h w) = dr ch b h w)
    (h13 : ∀ b ch h w, (res_main_v13 V0 : S32x64x128x128.Idx → EReal) (ix4 b ch h w) = di ch b h w)
    (h64L : ∀ ch r, (res_main_v64 V0 : S64x2x2.Idx → EReal) (ix3 ch r 0) = aL ch r)
    (h64R : ∀ ch r, (res_main_v64 V0 : S64x2x2.Idx → EReal) (ix3 ch r 1) = aR ch r)
    (b : Fin 32) (ch : Fin 64) (h w : Fin 128) :
    (resultTerm V0 : S32x128x128x128.Idx → EReal) (ix4 b (Cert.Spec.chIm ch) h w)
      = (aL ch 1 * dr ch b h w + aR ch 1 * di ch b h w) + bin V0 (ix3 ch 1 0) := by
  unfold resultTerm
  refine (concat_im_apply _ _ _ b ch h w).trans ?_
  refine (row_apply _ _ _ _ _ _ _ _ _ _ _ _ _ 1 rfl rfl rfl rfl rfl rfl rfl rfl rfl b ch h w).trans ?_
  exact congrArg₂ (· + ·) (congrArg₂ (· + ·) (congrArg₂ (· * ·) (h64L ch 1) (h11 b ch h w))
    (congrArg₂ (· * ·) (h64R ch 1) (h13 b ch h w))) rfl

end Cert.ReferenceIdeal.RVal

end
-- ==== Proof.RValue.lean ====
/-
  The reference's result array as one function of the three arguments: its run ends at a composed term; read at an
  index that term is, for a stored channel of the real half, row 0 of (gamma · inverse square root of the centred
  covariance) against the two centred parts plus beta, and for the imaginary half row 1.
-/
import proofs.«146568_j43499428774583_1_alg».proof.Proof.RRun
import proofs.«146568_j43499428774583_1_alg».proof.Proof.Spec
import proofs.«146568_j43499428774583_1_alg».proof.Proof.RArgs
import proofs.«146568_j43499428774583_1_alg».proof.Proof.RStats
import proofs.«146568_j43499428774583_1_alg».proof.Proof.RWhiten
import proofs.«146568_j43499428774583_1_alg».proof.Proof.RFinal
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx Idealize.ShloMosaic.StableHlo

namespace Cert.ReferenceIdeal.RVal

open Cert.ReferenceIdeal Cert.ReferenceIdeal.Gen Cert.ReferenceIdeal.Value

variable (V0 : Valuation τ sig (Elt Ideal))

/-- The coefficients of the centred arrangement. -/
abbrev cL (ch : Fin 64) (r : Fin 2) : EReal :=
  Cert.Spec.aL (Cert.Spec.cRRR (xin V0) ch) (Cert.Spec.cIIR (xin V0) ch) (Cert.Spec.cRIR (xin V0) ch) (gin V0 (ix3 ch r 0)) (gin V0 (ix3 ch r 1))
abbrev cR (ch : Fin 64) (r : Fin 2) : EReal :=
  Cert.Spec.aR (Cert.Spec.cRRR (xin V0) ch) (Cert.Spec.cIIR (xin V0) ch) (Cert.Spec.cRIR (xin V0) ch) (gin V0 (ix3 ch r 0)) (gin V0 (ix3 ch r 1))
/-- The two centred parts. -/
abbrev dR (ch : Fin 64) (b : Fin 32) (h w : Fin 128) : EReal := Cert.Spec.xr (xin V0) ch b h w - Cert.Spec.mr (xin V0) ch
abbrev dI (ch : Fin 64) (b : Fin 32) (h w : Fin 128) : EReal := Cert.Spec.xi (xin V0) ch b h w - Cert.Spec.mi (xin V0) ch

theorem c64L (ch : Fin 64) (r : Fin 2) : (res_main_v64 V0 : S64x2x2.Idx → EReal) (ix3 ch r 0) = cL V0 ch r :=
  r64L V0 (Cert.Spec.cRRR (xin V0)) (Cert.Spec.cIIR (xin V0)) (Cert.Spec.cRIR (xin V0)) (r25 V0) (r27 V0) (r29 V0) ch r
theorem c64R (ch : Fin 64) (r : Fin 2) : (res_main_v64 V0 : S64x2x2.Idx → EReal) (ix3 ch r 1) = cR V0 ch r :=
  r64R V0 (Cert.Spec.cRRR (xin V0)) (Cert.Spec.cIIR (xin V0)) (Cert.Spec.cRIR (xin V0)) (r25 V0) (r27 V0) (r29 V0) ch r

/-- The whole result array is the specification's centred arrangement of the arguments. -/
theorem result_eq : (resultTerm V0 : Cert.Spec.SX.Idx → EReal) = Cert.Spec.outR (xin V0) (gin V0) (bin V0) := by
  funext i
  obtain ⟨b, c2, h, w, rfl⟩ : ∃ (b : Fin 32) (c2 : Fin 128) (h w : Fin 128), i = ix4 b c2 h w := ⟨i 0, i 1, i 2, i 3, eq_ix4 i⟩
  have h128 : c2.val < 128 := c2.isLt
  by_cases hlt : c2.val < 64
  · have e : Cert.Spec.outR (xin V0) (gin V0) (bin V0) (ix4 b c2 h w) = Cert.Spec.yR (xin V0) (gin V0) (bin V0) 0 ⟨c2.val, hlt⟩ b h w := dif_pos hlt
    rw [e]
    exact result_re V0 (cL V0) (cR V0) (dR V0) (dI V0) (fun b ch h w => r11 V0 b ch h w) (fun b ch h w => r13 V0 b ch h w) (c64L V0) (c64R V0) b ⟨c2.val, hlt⟩ h w
  · have e : Cert.Spec.outR (xin V0) (gin V0) (bin V0) (ix4 b c2 h w) = Cert.Spec.yR (xin V0) (gin V0) (bin V0) 1 ⟨c2.val - 64, by omega⟩ b h w := dif_neg hlt
    rw [e]
    have hc : Cert.Spec.chIm ⟨c2.val - 64, by omega⟩ = c2 := Fin.ext (by show c2.val - 64 + 64 = c2.val; omega)
    have r := result_im V0 (cL V0) (cR V0) (dR V0) (dI V0) (fun b ch h w => r11 V0 b ch h w) (fun b ch h w => r13 V0 b ch h w) (c64L V0) (c64R V0) b ⟨c2.val - 64, by omega⟩ h w
    rw [hc] at r
    exact r

variable (m : (ℓ : Loc nD τ sig) → Buf (Elt Ideal) ℓ) (ρ : Dev nD → PrngReg)

/-- The run, read: the result buffer ends at that array, the arguments as launched. -/
theorem run : θ_run defs (onTc (τ := τ) (main (F := Ideal))) ⟨m, fun _ => 0, ρ⟩ (fun r => ∀ c : Dev nD,
      r.2.mem ((c.tc : Thread nD τ).loc main_v97)
        = Cert.Spec.outR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq (launchContents m c)), (h c).2⟩)
    (Cert.ReferenceIdeal.Value.run (F := Ideal) m ρ)

end Cert.ReferenceIdeal.RVal

end
-- ==== Proof.AlgReal.lean ====
import Idealize.ShloMosaic.PureOps.Ideal
import Mathlib.Algebra.Order.BigOperators.Ring.Finset
import Mathlib.Analysis.Real.Sqrt

noncomputable section

open scoped BigOperators

namespace Cert.AlgReal

variable {ι : Type} [Fintype ι]

/-- The same identity with the two totals named: the constants leave the sums, the constant term is counted
N times, and N * (Su / N) * (Sv / N) cancels one of the two cross terms. -/
theorem centred_eq_raw_aux (u v : ι → ℝ) (N Su Sv : ℝ) (hN : (Fintype.card ι : ℝ) = N) (hN0 : N ≠ 0)
    (hu : ∑ j, u j = Su) (hv : ∑ j, v j = Sv) :
    ∑ k, (u k - Su / N) * (v k - Sv / N) = (∑ k, u k * v k) - (Su * Sv) / N := by
  have h1 : ∀ k, (u k - Su / N) * (v k - Sv / N)
      = u k * v k - (Sv / N) * u k - (Su / N) * v k + (Su / N) * (Sv / N) := by
    intro k; ring
  simp only [h1]
  rw [Finset.sum_add_distrib, Finset.sum_sub_distrib, Finset.sum_sub_distrib, ← Finset.mul_sum,
    ← Finset.mul_sum, Finset.sum_const, Finset.card_univ, nsmul_eq_mul, hN, hu, hv]
  field_simp
  ring

/-- The centred cross sum is the raw cross sum minus the product of the sums over the count. -/
theorem centred_eq_raw (u v : ι → ℝ) (N : ℝ) (hN : (Fintype.card ι : ℝ) = N) (hN0 : N ≠ 0) :
    ∑ k, (u k - (∑ j, u j) / N) * (v k - (∑ j, v j) / N) = (∑ k, u k * v k) - ((∑ k, u k) * (∑ k, v k)) / N :=
  centred_eq_raw_aux u v N _ _ hN hN0 rfl rfl

/-- A sum of squares of deviations is not negative. -/
theorem centred_sq_nonneg (u : ι → ℝ) (a : ℝ) : 0 ≤ ∑ k, (u k - a) * (u k - a) :=
  Finset.sum_nonneg fun k _ => mul_self_nonneg (u k - a)

/-- Cauchy–Schwarz for deviations. -/
theorem centred_cs (u v : ι → ℝ) (a b : ℝ) :
    (∑ k, (u k - a) * (v k - b)) * (∑ k, (u k - a) * (v k - b))
      ≤ (∑ k, (u k - a) * (u k - a)) * (∑ k, (v k - b) * (v k - b)) := by
  have h := Finset.sum_mul_sq_le_sq_mul_sq (Finset.univ : Finset ι) (fun k => u k - a) (fun k => v k - b)
  simpa only [pow_two] using h

section whiten
variable {a b r e : ℝ}

/-- The determinant of the regularised covariance matrix is positive:
it is (a b - r²) + e (a + b) + e², and the last term is positive. -/
theorem dl_pos (ha : 0 ≤ a) (hb : 0 ≤ b) (hr : r * r ≤ a * b) (he : 0 < e) : 0 < (a + e) * (b + e) - r * r := by
  have h1 : 0 < e * e := mul_pos he he
  have h2 : 0 ≤ e * a := mul_nonneg he.le ha
  have h3 : 0 ≤ e * b := mul_nonneg he.le hb
  have h4 : (a + e) * (b + e) - r * r = (a * b - r * r) + e * a + e * b + e * e := by ring
  rw [h4]
  linarith

/-- So is trace + 2 · determinant. -/
theorem tq_arg_pos (ha : 0 ≤ a) (hb : 0 ≤ b) (hr : r * r ≤ a * b) (he : 0 < e) :
    0 < ((a + e) + (b + e)) + 2 * ((a + e) * (b + e) - r * r) := by
  have h := dl_pos ha hb hr he
  linarith

/-- With both diagonal entries positive and the product of them above the square of the off-diagonal entry,
the trace exceeds twice the off-diagonal entry: otherwise (A + B)² ≤ 4 r² < 4 A B, that is (A - B)² < 0. -/
theorem trace_gt_two_mul {A B r : ℝ} (hA : 0 < A) (hB : 0 < B) (hd : 0 < A * B - r * r) : 0 < A + B - 2 * r := by
  by_contra hcon
  have hle : A + B ≤ 2 * r := by linarith [not_lt.mp hcon]
  have h0 : 0 ≤ A + B := by linarith
  have hsq : (A + B) * (A + B) ≤ (2 * r) * (2 * r) := mul_self_le_mul_self h0 hle
  have hdiff : 0 ≤ (A - B) * (A - B) := mul_self_nonneg (A - B)
  have hexp : (A - B) * (A - B) = (A + B) * (A + B) - 4 * (A * B) := by ring
  have hexp2 : (2 * r) * (2 * r) = 4 * (r * r) := by ring
  linarith

/-- The determinant of the closed-form square root is positive: over the common denominator t² its numerator is
(A + s)(B + s) - (r + s)² = (A B - r²) + s (A + B - 2 r), a positive number plus a product of positive numbers. -/
theorem dt_pos (ha : 0 ≤ a) (hb : 0 ≤ b) (hr : r * r ≤ a * b) (he : 0 < e) :
    0 < (((a + e) + Real.sqrt ((a + e) * (b + e) - r * r)) / Real.sqrt (((a + e) + (b + e)) + 2 * ((a + e) * (b + e) - r * r)))
          * (((b + e) + Real.sqrt ((a + e) * (b + e) - r * r)) / Real.sqrt (((a + e) + (b + e)) + 2 * ((a + e) * (b + e) - r * r)))
        - ((r + Real.sqrt ((a + e) * (b + e) - r * r)) / Real.sqrt (((a + e) + (b + e)) + 2 * ((a + e) * (b + e) - r * r)))
          * ((r + Real.sqrt ((a + e) * (b + e) - r * r)) / Real.sqrt (((a + e) + (b + e)) + 2 * ((a + e) * (b + e) - r * r))) := by
  have hdl : 0 < (a + e) * (b + e) - r * r := dl_pos ha hb hr he
  have htq : 0 < ((a + e) + (b + e)) + 2 * ((a + e) * (b + e) - r * r) := tq_arg_pos ha hb hr he
  have hs : 0 < Real.sqrt ((a + e) * (b + e) - r * r) := Real.sqrt_pos.mpr hdl
  have ht : 0 < Real.sqrt (((a + e) + (b + e)) + 2 * ((a + e) * (b + e) - r * r)) := Real.sqrt_pos.mpr htq
  have hA : 0 < a + e := by linarith
  have hB : 0 < b + e := by linarith
  have hsum : 0 < (a + e) + (b + e) - 2 * r := trace_gt_two_mul hA hB hdl
  generalize Real.sqrt (((a + e) + (b + e)) + 2 * ((a + e) * (b + e) - r * r)) = t at ht ⊢
  generalize Real.sqrt ((a + e) * (b + e) - r * r) = s at hs ⊢
  have hnum : 0 < ((a + e) + s) * ((b + e) + s) - (r + s) * (r + s) := by
    have hring : ((a + e) + s) * ((b + e) + s) - (r + s) * (r + s)
        = ((a + e) * (b + e) - r * r) + s * ((a + e) + (b + e) - 2 * r) := by ring
    rw [hring]
    exact add_pos hdl (mul_pos hs hsum)
  have hne : t ≠ 0 := ht.ne'
  have hform : ((a + e) + s) / t * (((b + e) + s) / t) - (r + s) / t * ((r + s) / t)
      = (((a + e) + s) * ((b + e) + s) - (r + s) * (r + s)) / (t * t) := by
    field_simp
  rw [hform]
  exact div_pos hnum (mul_pos ht ht)

end whiten

/-- Folding the means into the bias changes nothing over the reals. -/
theorem row_eq (a0 a1 b0 m0 m1 u0 u1 : ℝ) :
    (a0 * u0 + a1 * u1) + ((b0 - a0 * m0) - a1 * m1) = (a0 * (u0 - m0) + a1 * (u1 - m1)) + b0 := by
  ring

end Cert.AlgReal

end
-- ==== Proof.AlgLits.lean ====
import proofs.«146568_j43499428774583_1_alg».proof.Proof.Spec

noncomputable section

open scoped BigOperators
open Idealize.ShloMosaic

namespace Cert.AlgLits

/-- The four literals are these reals. -/
theorem nn_eq : Cert.Spec.nn = ((524288 : ℝ) : EReal) := by
  unfold Cert.Spec.nn
  simp [Ideal.ofBits, Ideal.ieee, -EReal.coe_mul]; norm_num
theorem dd_eq : Cert.Spec.dd = ((524287 : ℝ) : EReal) := by
  unfold Cert.Spec.dd
  simp [Ideal.ofBits, Ideal.ieee, -EReal.coe_mul]; norm_num
theorem tw_eq : Cert.Spec.tw = ((2 : ℝ) : EReal) := by
  unfold Cert.Spec.tw
  simp [Ideal.ofBits, Ideal.ieee, -EReal.coe_mul]; norm_num

/-- eps, the f32 nearest 1e-5: 10995116 / 2^40. -/
def eps : ℝ := 10995116 / 2 ^ 40
theorem eps_pos : 0 < eps := by
  unfold eps; positivity
theorem ee_eq : Cert.Spec.ee = ((eps : ℝ) : EReal) := by
  unfold Cert.Spec.ee eps
  simp [Ideal.ofBits, Ideal.ieee, -EReal.coe_mul]; norm_num

/-- A finite sum of reals, read in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real, and the square root of a nonnegative real, are the real ones. -/
theorem div_coe_coe (a b : ℝ) (hb : b ≠ 0) : Ideal.div (a : EReal) (b : EReal) = ((a / b : ℝ) : EReal) := by
  rw [Ideal.div_coe hb, ← EReal.coe_mul, one_div, div_eq_mul_inv]
theorem sqrt_coe_nonneg (a : ℝ) (ha : 0 ≤ a) : Ideal.sqrt (a : EReal) = ((Real.sqrt a : ℝ) : EReal) := by
  rw [Ideal.sqrt_coe, if_neg (not_lt.mpr ha)]

/-- The triple sum of reals is the real triple sum. -/
theorem sum3_coe (f : Fin 32 → Fin 128 → Fin 128 → ℝ) :
    Cert.Spec.sum3 (fun b h w => ((f b h w : ℝ) : EReal)) = ((∑ b : Fin 32, ∑ h : Fin 128, ∑ w : Fin 128, f b h w : ℝ) : EReal) := by
  unfold Cert.Spec.sum3
  rw [← coe_sum]
  refine Finset.sum_congr rfl fun b _ => ?_
  rw [← coe_sum]
  refine Finset.sum_congr rfl fun h _ => ?_
  rw [← coe_sum]

end Cert.AlgLits

end
-- ==== Proof.AlgMain.lean ====
import proofs.«146568_j43499428774583_1_alg».proof.Proof.Spec
import proofs.«146568_j43499428774583_1_alg».proof.Proof.AlgReal
import proofs.«146568_j43499428774583_1_alg».proof.Proof.AlgLits
import Mathlib.Data.Fintype.BigOperators
import Mathlib.Data.Fintype.Prod
import Mathlib.Data.Fintype.Card
import Mathlib.Data.EReal.Operations
import Mathlib.Algebra.Order.GroupWithZero.Basic
import Mathlib.Algebra.Group.Basic

noncomputable section

open scoped BigOperators
open Idealize.ShloMosaic Idealize.ShloMosaic.ValueIdx

namespace Cert.AlgMain

/-! ### Sums over the positions of one channel -/

/-- The triple sum of reals, read in the extended reals, is one real sum over the positions. -/
theorem sum3_pos (f : Fin 32 → Fin 128 → Fin 128 → ℝ) :
    Cert.Spec.sum3 (fun b h w => ((f b h w : ℝ) : EReal))
      = ((∑ p : Fin 32 × Fin 128 × Fin 128, f p.1 p.2.1 p.2.2 : ℝ) : EReal) := by
  rw [Cert.AlgLits.sum3_coe]
  simp only [Fintype.sum_prod_type]

/-- The same for a sum of products. -/
theorem sum3_mul_pos (u v : Fin 32 → Fin 128 → Fin 128 → ℝ) :
    Cert.Spec.sum3 (fun b h w => ((u b h w : ℝ) : EReal) * ((v b h w : ℝ) : EReal))
      = ((∑ p : Fin 32 × Fin 128 × Fin 128, u p.1 p.2.1 p.2.2 * v p.1 p.2.1 p.2.2 : ℝ) : EReal) := by
  have h : (fun b h w => ((u b h w : ℝ) : EReal) * ((v b h w : ℝ) : EReal))
      = fun b h w => ((u b h w * v b h w : ℝ) : EReal) := by
    funext b h w
    rw [EReal.coe_mul]
  rw [h, sum3_pos]

/-- There are 32 · 128 · 128 = 524288 positions. -/
theorem card_pos : (Fintype.card (Fin 32 × Fin 128 × Fin 128) : ℝ) = 524288 := by
  simp only [Fintype.card_prod, Fintype.card_fin]
  norm_num

/-- The mean of a real family over the positions. -/
def mean (u : Fin 32 → Fin 128 → Fin 128 → ℝ) : ℝ :=
  (∑ q : Fin 32 × Fin 128 × Fin 128, u q.1 q.2.1 q.2.2) / 524288

/-- The centred covariance of two real families over the positions. -/
def cv (u v : Fin 32 → Fin 128 → Fin 128 → ℝ) : ℝ :=
  (∑ p : Fin 32 × Fin 128 × Fin 128, (u p.1 p.2.1 p.2.2 - mean u) * (v p.1 p.2.1 p.2.2 - mean v)) / 524287

/-- The mean of real entries is the real mean. -/
theorem mean_coe (u : Fin 32 → Fin 128 → Fin 128 → ℝ) :
    Idealize.ShloMosaic.Ideal.div (Cert.Spec.sum3 fun b h w => ((u b h w : ℝ) : EReal)) Cert.Spec.nn
      = ((mean u : ℝ) : EReal) := by
  rw [sum3_pos, Cert.AlgLits.nn_eq, Cert.AlgLits.div_coe_coe _ _ (by norm_num)]
  rfl

/-- The centred covariance of real entries about real centres is the real expression. -/
theorem cen_coe (u v : Fin 32 → Fin 128 → Fin 128 → ℝ) (mu mv : ℝ) :
    Idealize.ShloMosaic.Ideal.div
        (Cert.Spec.sum3 fun b h w => (((u b h w : ℝ) : EReal) - (mu : EReal)) * (((v b h w : ℝ) : EReal) - (mv : EReal)))
        Cert.Spec.dd
      = (((∑ p : Fin 32 × Fin 128 × Fin 128, (u p.1 p.2.1 p.2.2 - mu) * (v p.1 p.2.1 p.2.2 - mv)) / 524287 : ℝ) : EReal) := by
  have h : (fun b h w => (((u b h w : ℝ) : EReal) - (mu : EReal)) * (((v b h w : ℝ) : EReal) - (mv : EReal)))
      = fun b h w => (((u b h w - mu) * (v b h w - mv) : ℝ) : EReal) := by
    funext b h w
    rw [EReal.coe_mul, EReal.coe_sub, EReal.coe_sub]
  rw [h, sum3_pos, Cert.AlgLits.dd_eq, Cert.AlgLits.div_coe_coe _ _ (by norm_num)]

/-- The centred arrangement of a covariance, at real entries, is the real centred covariance. -/
theorem covR_coe (u v : Fin 32 → Fin 128 → Fin 128 → ℝ) :
    Idealize.ShloMosaic.Ideal.div
        (Cert.Spec.sum3 fun b h w =>
          (((u b h w : ℝ) : EReal)
              - Idealize.ShloMosaic.Ideal.div (Cert.Spec.sum3 fun b h w => ((u b h w : ℝ) : EReal)) Cert.Spec.nn)
            * (((v b h w : ℝ) : EReal)
              - Idealize.ShloMosaic.Ideal.div (Cert.Spec.sum3 fun b h w => ((v b h w : ℝ) : EReal)) Cert.Spec.nn))
        Cert.Spec.dd
      = ((cv u v : ℝ) : EReal) := by
  rw [mean_coe, mean_coe, cen_coe]
  rfl

/-- The raw-moment arrangement, at real entries, is the same real number: over the reals the centred cross sum
is the raw cross sum minus the product of the sums over the count. -/
theorem covK_coe (u v : Fin 32 → Fin 128 → Fin 128 → ℝ) :
    Idealize.ShloMosaic.Ideal.div
        (Cert.Spec.sum3 (fun b h w => ((u b h w : ℝ) : EReal) * ((v b h w : ℝ) : EReal))
          - Idealize.ShloMosaic.Ideal.div
              (Cert.Spec.sum3 (fun b h w => ((u b h w : ℝ) : EReal)) * Cert.Spec.sum3 (fun b h w => ((v b h w : ℝ) : EReal)))
              Cert.Spec.nn)
        Cert.Spec.dd
      = ((cv u v : ℝ) : EReal) := by
  rw [sum3_mul_pos, sum3_pos, sum3_pos, Cert.AlgLits.nn_eq, Cert.AlgLits.dd_eq, ← EReal.coe_mul,
    Cert.AlgLits.div_coe_coe _ _ (by norm_num), ← EReal.coe_sub, Cert.AlgLits.div_coe_coe _ _ (by norm_num)]
  have h := Cert.AlgReal.centred_eq_raw (fun p : Fin 32 × Fin 128 × Fin 128 => u p.1 p.2.1 p.2.2)
    (fun p : Fin 32 × Fin 128 × Fin 128 => v p.1 p.2.1 p.2.2) 524288 card_pos (by norm_num)
  unfold cv mean
  rw [h]

/-- A variance is not negative. -/
theorem cv_self_nonneg (u : Fin 32 → Fin 128 → Fin 128 → ℝ) : 0 ≤ cv u u := by
  unfold cv
  exact div_nonneg
    (Cert.AlgReal.centred_sq_nonneg (fun p : Fin 32 × Fin 128 × Fin 128 => u p.1 p.2.1 p.2.2) (mean u)) (by norm_num)

/-- Cauchy–Schwarz for the covariances. -/
theorem cv_cs (u v : Fin 32 → Fin 128 → Fin 128 → ℝ) : cv u v * cv u v ≤ cv u u * cv v v := by
  have h := Cert.AlgReal.centred_cs (fun p : Fin 32 × Fin 128 × Fin 128 => u p.1 p.2.1 p.2.2)
    (fun p : Fin 32 × Fin 128 × Fin 128 => v p.1 p.2.1 p.2.2) (mean u) (mean v)
  unfold cv
  rw [div_mul_div_comm, div_mul_div_comm]
  exact div_le_div_of_nonneg_right h (by norm_num)

/-! ### The whitening chain at real covariances -/

section whiten
variable (a b r : ℝ)

/-- The determinant of the regularised matrix, at reals. -/
theorem dl_coe : Cert.Spec.dl (a : EReal) (b : EReal) (r : EReal)
    = (((a + Cert.AlgLits.eps) * (b + Cert.AlgLits.eps) - r * r : ℝ) : EReal) := by
  unfold Cert.Spec.dl
  rw [Cert.AlgLits.ee_eq, ← EReal.coe_add, ← EReal.coe_add, ← EReal.coe_mul, ← EReal.coe_mul, ← EReal.coe_sub]

variable (ha : 0 ≤ a) (hb : 0 ≤ b) (hr : r * r ≤ a * b)
include ha hb hr

/-- The two square roots are real, the normaliser is positive, and the determinant of the closed-form square root,
written with them, is positive. -/
theorem roots_real : ∃ s t : ℝ, 0 < t ∧ Cert.Spec.sq (a : EReal) (b : EReal) (r : EReal) = (s : EReal)
    ∧ Cert.Spec.tq (a : EReal) (b : EReal) (r : EReal) = (t : EReal)
    ∧ 0 < ((a + Cert.AlgLits.eps) + s) / t * (((b + Cert.AlgLits.eps) + s) / t) - (r + s) / t * ((r + s) / t) := by
  have he := Cert.AlgLits.eps_pos
  have hD := Cert.AlgReal.dl_pos ha hb hr he
  have hT := Cert.AlgReal.tq_arg_pos ha hb hr he
  refine ⟨Real.sqrt ((a + Cert.AlgLits.eps) * (b + Cert.AlgLits.eps) - r * r),
    Real.sqrt (((a + Cert.AlgLits.eps) + (b + Cert.AlgLits.eps))
      + 2 * ((a + Cert.AlgLits.eps) * (b + Cert.AlgLits.eps) - r * r)),
    Real.sqrt_pos.mpr hT, ?_, ?_, Cert.AlgReal.dt_pos ha hb hr he⟩
  · unfold Cert.Spec.sq
    rw [dl_coe, Cert.AlgLits.sqrt_coe_nonneg _ hD.le]
  · unfold Cert.Spec.tq
    rw [dl_coe, Cert.AlgLits.ee_eq, Cert.AlgLits.tw_eq, ← EReal.coe_add, ← EReal.coe_add, ← EReal.coe_add,
      ← EReal.coe_mul, ← EReal.coe_add, Cert.AlgLits.sqrt_coe_nonneg _ hT.le]

/-- The three entries of the inverse square root are real. -/
theorem inv_real : ∃ V00 V01 V11 : ℝ, Cert.Spec.v00 (a : EReal) (b : EReal) (r : EReal) = (V00 : EReal)
    ∧ Cert.Spec.v01 (a : EReal) (b : EReal) (r : EReal) = (V01 : EReal)
    ∧ Cert.Spec.v11 (a : EReal) (b : EReal) (r : EReal) = (V11 : EReal) := by
  obtain ⟨s, t, ht, hs, htq, hdt⟩ := roots_real a b r ha hb hr
  have ht0 : t ≠ 0 := ht.ne'
  have h00 : Cert.Spec.q00 (a : EReal) (b : EReal) (r : EReal) = ((((a + Cert.AlgLits.eps) + s) / t : ℝ) : EReal) := by
    unfold Cert.Spec.q00
    rw [hs, htq, Cert.AlgLits.ee_eq, ← EReal.coe_add, ← EReal.coe_add, Cert.AlgLits.div_coe_coe _ _ ht0]
  have h01 : Cert.Spec.q01 (a : EReal) (b : EReal) (r : EReal) = (((r + s) / t : ℝ) : EReal) := by
    unfold Cert.Spec.q01
    rw [hs, htq, ← EReal.coe_add, Cert.AlgLits.div_coe_coe _ _ ht0]
  have h11 : Cert.Spec.q11 (a : EReal) (b : EReal) (r : EReal) = ((((b + Cert.AlgLits.eps) + s) / t : ℝ) : EReal) := by
    unfold Cert.Spec.q11
    rw [hs, htq, Cert.AlgLits.ee_eq, ← EReal.coe_add, ← EReal.coe_add, Cert.AlgLits.div_coe_coe _ _ ht0]
  have hd : Cert.Spec.dt (a : EReal) (b : EReal) (r : EReal)
      = ((((a + Cert.AlgLits.eps) + s) / t * (((b + Cert.AlgLits.eps) + s) / t) - (r + s) / t * ((r + s) / t) : ℝ) : EReal) := by
    unfold Cert.Spec.dt
    rw [h00, h01, h11, ← EReal.coe_mul, ← EReal.coe_mul, ← EReal.coe_sub]
  have hd0 := hdt.ne'
  refine ⟨((b + Cert.AlgLits.eps) + s) / t / (((a + Cert.AlgLits.eps) + s) / t * (((b + Cert.AlgLits.eps) + s) / t) - (r + s) / t * ((r + s) / t)),
    (-((r + s) / t)) / (((a + Cert.AlgLits.eps) + s) / t * (((b + Cert.AlgLits.eps) + s) / t) - (r + s) / t * ((r + s) / t)),
    ((a + Cert.AlgLits.eps) + s) / t / (((a + Cert.AlgLits.eps) + s) / t * (((b + Cert.AlgLits.eps) + s) / t) - (r + s) / t * ((r + s) / t)),
    ?_, ?_, ?_⟩
  · unfold Cert.Spec.v00
    rw [h11, hd, Cert.AlgLits.div_coe_coe _ _ hd0]
  · unfold Cert.Spec.v01
    rw [h01, hd, ← EReal.coe_neg, Cert.AlgLits.div_coe_coe _ _ hd0]
  · unfold Cert.Spec.v11
    rw [h00, hd, Cert.AlgLits.div_coe_coe _ _ hd0]

/-- A row of a real gamma against the inverse square root is real. -/
theorem aL_real (g0 g1 : ℝ) : ∃ A : ℝ,
    Cert.Spec.aL (a : EReal) (b : EReal) (r : EReal) (g0 : EReal) (g1 : EReal) = (A : EReal) := by
  obtain ⟨V00, V01, V11, h00, h01, h11⟩ := inv_real a b r ha hb hr
  refine ⟨g0 * V00 + g1 * V01, ?_⟩
  unfold Cert.Spec.aL
  rw [h00, h01, ← EReal.coe_mul, ← EReal.coe_mul, ← EReal.coe_add]

theorem aR_real (g0 g1 : ℝ) : ∃ A : ℝ,
    Cert.Spec.aR (a : EReal) (b : EReal) (r : EReal) (g0 : EReal) (g1 : EReal) = (A : EReal) := by
  obtain ⟨V00, V01, V11, h00, h01, h11⟩ := inv_real a b r ha hb hr
  refine ⟨g0 * V01 + g1 * V11, ?_⟩
  unfold Cert.Spec.aR
  rw [h01, h11, ← EReal.coe_mul, ← EReal.coe_mul, ← EReal.coe_add]

end whiten

/-! ### The affine map -/

/-- At real arguments, folding the means into the bias gives the value of the map on the centred input. -/
theorem row_coe (a0 a1 b0 m0 m1 u0 u1 : ℝ) :
    Cert.Spec.rowK (a0 : EReal) (a1 : EReal) (b0 : EReal) (m0 : EReal) (m1 : EReal) (u0 : EReal) (u1 : EReal)
      = Cert.Spec.rowR (a0 : EReal) (a1 : EReal) (b0 : EReal) (m0 : EReal) (m1 : EReal) (u0 : EReal) (u1 : EReal) := by
  show ((a0 : EReal) * (u0 : EReal) + (a1 : EReal) * (u1 : EReal)) + (((b0 : EReal) - (a0 : EReal) * (m0 : EReal)) - (a1 : EReal) * (m1 : EReal))
    = ((a0 : EReal) * ((u0 : EReal) - (m0 : EReal)) + (a1 : EReal) * ((u1 : EReal) - (m1 : EReal))) + (b0 : EReal)
  simp only [← EReal.coe_mul, ← EReal.coe_add, ← EReal.coe_sub]
  rw [Cert.AlgReal.row_eq]

/-! ### One channel of a real array -/

section channel
variable (X : Cert.Spec.SX.Idx → ℝ) (ch : Fin 64)

/-- The real and imaginary parts of a channel of a real array, as real families over the positions. -/
def uu : Fin 32 → Fin 128 → Fin 128 → ℝ := fun b h w => X (ix4 b (Cert.Spec.chRe ch) h w)
def vv : Fin 32 → Fin 128 → Fin 128 → ℝ := fun b h w => X (ix4 b (Cert.Spec.chIm ch) h w)

theorem mr_coe : Cert.Spec.mr (fun i => ((X i : ℝ) : EReal)) ch = ((mean (uu X ch) : ℝ) : EReal) :=
  mean_coe (uu X ch)
theorem mi_coe : Cert.Spec.mi (fun i => ((X i : ℝ) : EReal)) ch = ((mean (vv X ch) : ℝ) : EReal) :=
  mean_coe (vv X ch)

theorem cRRK_coe : Cert.Spec.cRRK (fun i => ((X i : ℝ) : EReal)) ch = ((cv (uu X ch) (uu X ch) : ℝ) : EReal) :=
  covK_coe (uu X ch) (uu X ch)
theorem cIIK_coe : Cert.Spec.cIIK (fun i => ((X i : ℝ) : EReal)) ch = ((cv (vv X ch) (vv X ch) : ℝ) : EReal) :=
  covK_coe (vv X ch) (vv X ch)
theorem cRIK_coe : Cert.Spec.cRIK (fun i => ((X i : ℝ) : EReal)) ch = ((cv (uu X ch) (vv X ch) : ℝ) : EReal) :=
  covK_coe (uu X ch) (vv X ch)
theorem cRRR_coe : Cert.Spec.cRRR (fun i => ((X i : ℝ) : EReal)) ch = ((cv (uu X ch) (uu X ch) : ℝ) : EReal) :=
  covR_coe (uu X ch) (uu X ch)
theorem cIIR_coe : Cert.Spec.cIIR (fun i => ((X i : ℝ) : EReal)) ch = ((cv (vv X ch) (vv X ch) : ℝ) : EReal) :=
  covR_coe (vv X ch) (vv X ch)
theorem cRIR_coe : Cert.Spec.cRIR (fun i => ((X i : ℝ) : EReal)) ch = ((cv (uu X ch) (vv X ch) : ℝ) : EReal) :=
  covR_coe (uu X ch) (vv X ch)

end channel

/-- One output element: the two arrangements agree on real arrays. -/
theorem y_eq (X : Cert.Spec.SX.Idx → ℝ) (G : Cert.Spec.SG.Idx → ℝ) (B : Cert.Spec.SB.Idx → ℝ)
    (r : Fin 2) (ch : Fin 64) (b : Fin 32) (h w : Fin 128) :
    Cert.Spec.yK (fun i => ((X i : ℝ) : EReal)) (fun i => ((G i : ℝ) : EReal)) (fun i => ((B i : ℝ) : EReal)) r ch b h w
      = Cert.Spec.yR (fun i => ((X i : ℝ) : EReal)) (fun i => ((G i : ℝ) : EReal)) (fun i => ((B i : ℝ) : EReal)) r ch b h w := by
  unfold Cert.Spec.yK Cert.Spec.yR
  rw [cRRK_coe, cIIK_coe, cRIK_coe, cRRR_coe, cIIR_coe, cRIR_coe, mr_coe, mi_coe]
  obtain ⟨A0, hA0⟩ := aL_real _ _ _ (cv_self_nonneg (uu X ch)) (cv_self_nonneg (vv X ch)) (cv_cs (uu X ch) (vv X ch))
    (G (ix3 ch r 0)) (G (ix3 ch r 1))
  obtain ⟨A1, hA1⟩ := aR_real _ _ _ (cv_self_nonneg (uu X ch)) (cv_self_nonneg (vv X ch)) (cv_cs (uu X ch) (vv X ch))
    (G (ix3 ch r 0)) (G (ix3 ch r 1))
  beta_reduce
  rw [hA0, hA1]
  exact row_coe A0 A1 _ _ _ _ _

/-- On arrays of finite entries the raw-moment arrangement and the centred arrangement are one array. -/
theorem outK_eq_outR (x : Cert.Spec.SX.Idx → EReal) (g : Cert.Spec.SG.Idx → EReal) (bt : Cert.Spec.SB.Idx → EReal)
    (hx : ∀ i, ∃ r : ℝ, x i = (r : EReal)) (hg : ∀ i, ∃ r : ℝ, g i = (r : EReal)) (hb : ∀ i, ∃ r : ℝ, bt i = (r : EReal)) :
    Cert.Spec.outK x g bt = Cert.Spec.outR x g bt := by
  choose X hX using hx
  choose G hG using hg
  choose B hB using hb
  have hx' : x = fun i => ((X i : ℝ) : EReal) := funext hX
  have hg' : g = fun i => ((G i : ℝ) : EReal) := funext hG
  have hb' : bt = fun i => ((B i : ℝ) : EReal) := funext hB
  rw [hx', hg', hb']
  funext i
  unfold Cert.Spec.outK Cert.Spec.outR
  split
  · exact y_eq X G B 0 _ _ _ _
  · exact y_eq X G B 1 _ _ _ _

end Cert.AlgMain

end
-- ==== Proof.FinPre.lean ====
import proofs.«146568_j43499428774583_1_alg».proof.Defs
import proofs.«146568_j43499428774583_1_alg».proof.Proof.Gen.Pre_finite_inputs
import Idealize.ShloMosaic.Lib.ReduceAll
import Idealize.ShloMosaic.Lib.ValueIdx

noncomputable section

open Idealize.ShloMosaic Idealize.SL.Sem

namespace Cert.FinPre

/-- The shape of rank zero has exactly one index: the function on the empty set of axes. -/
instance subsingleton_scalar_idx : Subsingleton Cert.Pre_finite_inputs.S_.Idx :=
  ⟨fun _ _ => funext fun d => d.elim0⟩

/-- An extended real whose absolute value max x (-x) lies strictly below +∞ is neither infinity, hence a real. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 denotes +∞. -/
theorem inf_pattern : Ideal.ofBits .f32 0x7F800000#32 = (⊤ : EReal) := by
  simp [Ideal.ofBits, Ideal.ieee]

/-- One conjunct of the predicate, at any shape: when the conjunction over all entries of |a| < +∞ is one, every
    entry of a is a real number. -/
theorem reals_of_all {s : Shape} {axes : List (Fin s.rank)} (a : s.Idx → EReal)
    (hb : Cert.Pre_finite_inputs.S_.BroadcastsInDim s (![] : Fin 0 → Fin s.rank))
    (hr : s.ReducesTo axes Cert.Pre_finite_inputs.S_) (h0 : 0 < Cert.Pre_finite_inputs.S_.numel)
    (j : Cert.Pre_finite_inputs.S_.Idx)
    (e : Host.reduce IntOp.andi
          (cmpf (F := Ideal) (φ := .f32) .olt (Host.absf (F := Ideal) (φ := .f32) a)
            (broadcastInDim s ![] hb (constant (F := Ideal) Cert.Pre_finite_inputs.S_ .f32 0x7F800000#32)))
          (constantI Cert.Pre_finite_inputs.S_ 1 1#1) hr h0 j = 1#1) :
    ∀ i, ∃ r : ℝ, a i = (r : EReal) := by
  intro i
  have hi := Host.reduce_andi_all _ _ hr h0 j e i
  have hi' : BitVec.ofBool (decide (max (a i) (-(a i)) < Ideal.ofBits .f32 0x7F800000#32)) = 1#1 := hi
  rw [inf_pattern] at hi'
  apply real_of_abs_lt_top
  by_contra hlt
  simp [hlt] at hi'

/-- Under the precondition every entry of the three arguments is a real number. -/
theorem reals_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S32x128x128x128.Idx → EReal) i = (r : EReal))
    ∧ (∀ i, ∃ r : ℝ, (m ((c.tc : Thread Cert.KernelIdeal.nD Cert.KernelIdeal.τ).loc Cert.KernelIdeal.main_arg1) : Cert.KernelIdeal.S64x2x2.Idx → EReal) i = (r : EReal))
    ∧ (∀ i, ∃ r : ℝ, (m ((c.tc : Thread Cert.KernelIdeal.nD Cert.KernelIdeal.τ).loc Cert.KernelIdeal.main_arg2) : Cert.KernelIdeal.S64x2x1.Idx → EReal) i = (r : EReal)) := by
  have h := congrFun (hpre c) (fun d => d.elim0)
  dsimp only [Cert.Pre_finite_inputs.fn, andi] at h
  obtain ⟨h01, h2⟩ := IntOp.andi_eq_one.1 h
  obtain ⟨h0, h1⟩ := IntOp.andi_eq_one.1 h01
  exact ⟨reals_of_all _ _ _ _ _ h0, reals_of_all _ _ _ _ _ h1, reals_of_all _ _ _ _ _ h2⟩

end Cert.FinPre

end
-- ==== Proof.lean ====
/-
  The five claims. Both programs compute, per complex channel, a 2 x 2 whitening of the (real, imaginary) pair:
  the kernel from raw moments accumulated in one pass and with the means folded into the bias, the reference from the
  centred input. The three frames are the generated runs; nothing was rewritten by the ideal pass; and over the
  extended reals the two result arrays are one array whenever every input entry is finite: the covariances agree
  (the centred sums expand to the raw moments), the regularised covariance matrix is positive definite
  (Cauchy–Schwarz), so its closed-form square root is invertible and every coefficient is a real number, and with
  real coefficients folding the means into the bias is distributivity.
-/
import proofs.«146568_j43499428774583_1_alg».proof.Defs
import proofs.«146568_j43499428774583_1_alg».proof.Proof.Gen.Kernel
import proofs.«146568_j43499428774583_1_alg».proof.Proof.Gen.Kernel.Skeleton
import proofs.«146568_j43499428774583_1_alg».proof.Proof.Gen.Kernel.Launch
import proofs.«146568_j43499428774583_1_alg».proof.Proof.Gen.Kernel.Points
import proofs.«146568_j43499428774583_1_alg».proof.Proof.Gen.Kernel.Frame
import proofs.«146568_j43499428774583_1_alg».proof.Proof.Gen.KernelIdeal
import proofs.«146568_j43499428774583_1_alg».proof.Proof.Gen.KernelIdeal.Skeleton
import proofs.«146568_j43499428774583_1_alg».proof.Proof.Gen.KernelIdeal.Launch
import proofs.«146568_j43499428774583_1_alg».proof.Proof.Gen.KernelIdeal.Points
import proofs.«146568_j43499428774583_1_alg».proof.Proof.Gen.KernelIdeal.Frame
import proofs.«146568_j43499428774583_1_alg».proof.Proof.Gen.ReferenceIdeal
import proofs.«146568_j43499428774583_1_alg».proof.Proof.RRun
import proofs.«146568_j43499428774583_1_alg».proof.Proof.Gen.Pre_finite_inputs
import proofs.«146568_j43499428774583_1_alg».proof.Proof.Spec
import proofs.«146568_j43499428774583_1_alg».proof.Proof.KValue
import proofs.«146568_j43499428774583_1_alg».proof.Proof.RValue
import proofs.«146568_j43499428774583_1_alg».proof.Proof.AlgMain
import proofs.«146568_j43499428774583_1_alg».proof.Proof.FinPre
import Idealize.ShloMosaic.Adequacy
import Idealize.ShloMosaic.Init

noncomputable section

namespace Cert.Proof

open Idealize.ShloMosaic Idealize.SL.Sem

/-- From memories that agree on the arguments both programs end, and with equal result arrays: the kernel's is the
    raw-moment arrangement of its arguments, the reference's the centred arrangement of the same arguments, and on
    finite entries the two arrangements are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨(h c).1.trans ?_, (h c).2⟩) (Cert.ReferenceIdeal.RVal.run m' ρ')
  rw [(hagree c).1, (hagree c).2.1, (hagree c).2.2]
  obtain ⟨hx, hg, hb⟩ := Cert.FinPre.reals_of_pre (hPre_finite_inputs := Cert.Pre_finite_inputs.Gen.facts) m hpre c
  exact (Cert.AlgMain.outK_eq_outR _ _ _ hx hg hb).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
